-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x3072 : Shape := ⟨2, ![1024, 3072]⟩
abbrev S1x1024 : Shape := ⟨2, ![1, 1024]⟩
abbrev S1x2048 : Shape := ⟨2, ![1, 2048]⟩
abbrev S65536x3072 : Shape := ⟨2, ![65536, 3072]⟩
abbrev S512x1024 : Shape := ⟨2, ![512, 1024]⟩
abbrev S512x3072 : Shape := ⟨2, ![512, 3072]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩
abbrev S512x2048 : Shape := ⟨2, ![512, 2048]⟩

abbrev nBuf : Space → Nat
  | .hbm => 90
  | .vmem => 33
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3072, .f32⟩
  | .hbm, ⟨15, _⟩ => ⟨S1024x3072, .bf16⟩
  | .hbm, ⟨16, _⟩ => ⟨S1024x1024, .bf16⟩
  | .hbm, ⟨17, _⟩ => ⟨S1024x2048, .bf16⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x2048, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S65536x3072, .bf16⟩
  | .hbm, ⟨27, _⟩ => ⟨S65536x1024, .bf16⟩
  | .hbm, ⟨28, _⟩ => ⟨S65536x1024, .bf16⟩
  | .hbm, ⟨29, _⟩ => ⟨S65536x1024, .bf16⟩
  | .hbm, ⟨30, _⟩ => ⟨S65536x1024, .f32⟩
  | .hbm, ⟨31, _⟩ => ⟨S65536x16x64, .f32⟩
  | .hbm, ⟨32, _⟩ => ⟨S65536x1024, .f32⟩
  | .hbm, ⟨33, _⟩ => ⟨S65536x16x64, .f32⟩
  | .hbm, ⟨34, _⟩ => ⟨S65536x1024, .f32⟩
  | .hbm, ⟨35, _⟩ => ⟨S65536x16x64, .f32⟩
  | .hbm, ⟨36, _⟩ => ⟨S65536x16x16, .f32⟩
  | .hbm, ⟨37, _⟩ => ⟨S_, .f32⟩
  | .hbm, ⟨38, _⟩ => ⟨S65536x16x16, .f32⟩
  | .hbm, ⟨39, _⟩ => ⟨S65536x16x16, .f32⟩
  | .hbm, ⟨40, _⟩ => ⟨S_, .f32⟩
  | .hbm, ⟨41, _⟩ => ⟨S65536x16, .f32⟩
  | .hbm, ⟨42, _⟩ => ⟨S_, .f32⟩
  | .hbm, ⟨43, _⟩ => ⟨S65536x16, .f32⟩
  | .hbm, ⟨44, _⟩ => ⟨S65536x16, .f32⟩
  | .hbm, ⟨45, _⟩ => ⟨S65536x16x1, .f32⟩
  | .hbm, ⟨46, _⟩ => ⟨S65536x16x16, .f32⟩
  | .hbm, ⟨47, _⟩ => ⟨S65536x16x16, .f32⟩
  | .hbm, ⟨48, _⟩ => ⟨S65536x16x16, .f32⟩
  | .hbm, ⟨49, _⟩ => ⟨S_, .f32⟩
  | .hbm, ⟨50, _⟩ => ⟨S65536x16, .f32⟩
  | .hbm, ⟨51, _⟩ => ⟨S65536x16x1, .f32⟩
  | .hbm, ⟨52, _⟩ => ⟨S65536x16x16, .f32⟩
  | .hbm, ⟨53, _⟩ => ⟨S65536x16x16, .f32⟩
  | .hbm, ⟨54, _⟩ => ⟨S65536x16x64, .f32⟩
  | .hbm, ⟨55, _⟩ => ⟨S65536x1024, .f32⟩
  | .hbm, ⟨56, _⟩ => ⟨S65536x1024, .bf16⟩
  | .hbm, ⟨57, _⟩ => ⟨S65536x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S65536x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S65536x1024, .f32⟩
  | .hbm, ⟨81, _⟩ => ⟨S65536x1024, .f32⟩
  | .hbm, ⟨82, _⟩ => ⟨S65536x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x2048, .bf16⟩
  | .local _ .vmem, ⟨20, _⟩ => ⟨S1x2048, .f32⟩
  | .local _ .vmem, ⟨21, _⟩ => ⟨S2048x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1024x1024, .f32⟩
  | .local _ .vmem, ⟨26, _⟩ => ⟨S1024x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .f32⟩
  | .local _ .vmem, ⟨32, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg9_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S1024_S1x1024 : S1024.ShapeCasts S1x1024
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S65536x3072_S65536x1024_0_0 : S65536x3072.Slices ![0, 0] S65536x1024
  slices_S65536x3072_S65536x1024_0_1024 : S65536x3072.Slices ![0, 1024] S65536x1024
  slices_S65536x3072_S65536x1024_0_2048 : S65536x3072.Slices ![0, 2048] S65536x1024
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reducesTo_S65536x1024_S1024_d0 : S65536x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S65536x1024_0_1 : S1x1024.BroadcastsInDim S65536x1024 (![0, 1] : Fin 2 → Fin S65536x1024.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S1024x1024 : S1x1024.Broadcasts S1024x1024
  dot_S512x1024_S1024x3072_S512x3072_1_0_0_1_n_n_wf : DotDims.WF S512x1024 S1024x3072 S512x3072 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S65536x3072.size a
  hwx0_2 : ∀ i : grid0.Coords, EltTy.bits .bf16 = 32 ∨ (Rect.block (s := S65536x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S65536x1024.size a
  hwx1_0 : ∀ i : grid1.Coords, EltTy.bits .f32 = 32 ∨ (Rect.block (s := S65536x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S65536x1024.size a
  hwx1_1 : ∀ i : grid1.Coords, EltTy.bits .bf16 = 32 ∨ (Rect.block (s := S65536x1024) S512x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S65536x1024.size a
  hwx1_4 : ∀ i : grid1.Coords, EltTy.bits .f32 = 32 ∨ (Rect.block (s := S65536x1024) S512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S65536x1024.size a
  hwx2_0 : ∀ i : grid2.Coords, EltTy.bits .f32 = 32 ∨ (Rect.block (s := S65536x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S1024x2048.size a
  hwx2_5 : ∀ i : grid2.Coords, EltTy.bits .bf16 = 32 ∨ (Rect.block (s := S1024x2048) S1024x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x1024.size a ≤ S2048x1024.size a
  hwx2_7 : ∀ i : grid2.Coords, EltTy.bits .bf16 = 32 ∨ (Rect.block (s := S2048x1024) S2048x1024.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1024.size a ≤ S1x1024.size a
  hwx2_8 : ∀ i : grid2.Coords, EltTy.bits .f32 = 32 ∨ (Rect.block (s := S1x1024) S1x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x1024.size a ≤ S65536x1024.size a
  hwx2_9 : ∀ i : grid2.Coords, EltTy.bits .f32 = 32 ∨ (Rect.block (s := S65536x1024) S512x1024.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S65536x1024.size a
  hwx3_0 : ∀ i : grid3.Coords, EltTy.bits .f32 = 32 ∨ (Rect.block (s := S65536x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S65536x1024.size a
  hwx3_5 : ∀ i : grid3.Coords, EltTy.bits .f32 = 32 ∨ (Rect.block (s := S65536x1024) S1024x1024.size (cc3_transform_5 i) (hinb3_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1024x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S2048x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S1x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51) S512x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v51) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩
abbrev S1x1024 : Shape := ⟨2, ![1, 1024]⟩
abbrev S65536x2048 : Shape := ⟨2, ![65536, 2048]⟩
abbrev S1x2048 : Shape := ⟨2, ![1, 2048]⟩

abbrev nBuf : Space → Nat
  | .hbm => 117
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S65536x1024, .f32⟩
  | .hbm, ⟨15, _⟩ => ⟨S65536x16x64, .f32⟩
  | .hbm, ⟨16, _⟩ => ⟨S65536x1024, .f32⟩
  | .hbm, ⟨17, _⟩ => ⟨S65536x16x64, .f32⟩
  | .hbm, ⟨18, _⟩ => ⟨S65536x1024, .f32⟩
  | .hbm, ⟨19, _⟩ => ⟨S65536x16x64, .f32⟩
  | .hbm, ⟨20, _⟩ => ⟨S65536x16x16, .f32⟩
  | .hbm, ⟨21, _⟩ => ⟨S_, .f32⟩
  | .hbm, ⟨22, _⟩ => ⟨S65536x16x16, .f32⟩
  | .hbm, ⟨23, _⟩ => ⟨S65536x16x16, .f32⟩
  | .hbm, ⟨24, _⟩ => ⟨S_, .f32⟩
  | .hbm, ⟨25, _⟩ => ⟨S65536x16, .f32⟩
  | .hbm, ⟨26, _⟩ => ⟨S_, .f32⟩
  | .hbm, ⟨27, _⟩ => ⟨S65536x16, .f32⟩
  | .hbm, ⟨28, _⟩ => ⟨S65536x16, .f32⟩
  | .hbm, ⟨29, _⟩ => ⟨S65536x16x1, .f32⟩
  | .hbm, ⟨30, _⟩ => ⟨S65536x16x16, .f32⟩
  | .hbm, ⟨31, _⟩ => ⟨S65536x16x16, .f32⟩
  | .hbm, ⟨32, _⟩ => ⟨S65536x16x16, .f32⟩
  | .hbm, ⟨33, _⟩ => ⟨S_, .f32⟩
  | .hbm, ⟨34, _⟩ => ⟨S65536x16, .f32⟩
  | .hbm, ⟨35, _⟩ => ⟨S65536x16x1, .f32⟩
  | .hbm, ⟨36, _⟩ => ⟨S65536x16x16, .f32⟩
  | .hbm, ⟨37, _⟩ => ⟨S65536x16x16, .f32⟩
  | .hbm, ⟨38, _⟩ => ⟨S65536x16x64, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x2048, .f32⟩
  | .hbm, ⟨76, _⟩ => ⟨S1x2048, .f32⟩
  | .hbm, ⟨77, _⟩ => ⟨S65536x2048, .f32⟩
  | .hbm, ⟨78, _⟩ => ⟨S65536x2048, .f32⟩
  | .hbm, ⟨79, _⟩ => ⟨S_, .f32⟩
  | .hbm, ⟨80, _⟩ => ⟨S65536x2048, .f32⟩
  | .hbm, ⟨81, _⟩ => ⟨S65536x2048, .f32⟩
  | .hbm, ⟨82, _⟩ => ⟨S65536x1024, .f32⟩
  | .hbm, ⟨83, _⟩ => ⟨S1x1024, .f32⟩
  | .hbm, ⟨84, _⟩ => ⟨S65536x1024, .f32⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1x1024, .f32⟩
  | .hbm, ⟨93, _⟩ => ⟨S65536x1024, .f32⟩
  | .hbm, ⟨94, _⟩ => ⟨S65536x1024, .f32⟩
  | .hbm, ⟨95, _⟩ => ⟨S65536x1024, .f32⟩
  | .hbm, ⟨96, _⟩ => ⟨S_, .f32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S1024, .f32⟩
  | .hbm, ⟨101, _⟩ => ⟨S1x1024, .f32⟩
  | .hbm, ⟨102, _⟩ => ⟨S65536x1024, .f32⟩
  | .hbm, ⟨103, _⟩ => ⟨S65536x1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S1x1024, .f32⟩
  | .hbm, ⟨109, _⟩ => ⟨S65536x1024, .f32⟩
  | .hbm, ⟨110, _⟩ => ⟨S65536x1024, .f32⟩
  | .hbm, ⟨111, _⟩ => ⟨S1x1024, .f32⟩
  | .hbm, ⟨112, _⟩ => ⟨S65536x1024, .f32⟩
  | .hbm, ⟨113, _⟩ => ⟨S65536x1024, .f32⟩
  | .hbm, ⟨114, _⟩ => ⟨S1x1024, .f32⟩
  | .hbm, ⟨115, _⟩ => ⟨S65536x1024, .f32⟩
  | .hbm, ⟨116, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S1024_d0 : S65536x1024.ReducesTo [0] S1024
  bcast_S_S1024 : S_.BroadcastsInDim S1024 (![] : Fin 0 → Fin S1024.rank)
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  dot_S65536x1024_S1024x1024_S65536x1024_1_0_0_1_n_n_wf : DotDims.WF S65536x1024 S1024x1024 S65536x1024 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]
  dot_S65536x1024_S1024x2048_S65536x2048_1_0_0_1_n_n_wf : DotDims.WF S65536x1024 S1024x2048 S65536x2048 [1] [0] [0] [1] [] []
  dot_S65536x2048_S2048x1024_S65536x1024_1_0_0_1_n_n_wf : DotDims.WF S65536x2048 S2048x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf
def dot_S65536x1024_S1024x2048_S65536x2048_1_0_0_1_n_n : DotDims S65536x1024 S1024x2048 S65536x2048 where
  lhsContracting := [1]
  rhsContracting := [0]
  lhsNonContracting := [0]
  rhsNonContracting := [1]
  lhsBatch := []
  rhsBatch := []
  wf := dot_S65536x1024_S1024x2048_S65536x2048_1_0_0_1_n_n_wf
def dot_S65536x2048_S2048x1024_S65536x1024_1_0_0_1_n_n : DotDims S65536x2048 S2048x1024 S65536x1024 where
  lhsContracting := [1]
  rhsContracting := [0]
  lhsNonContracting := [0]
  rhsNonContracting := [1]
  lhsBatch := []
  rhsBatch := []
  wf := dot_S65536x2048_S2048x1024_S65536x1024_1_0_0_1_n_n_wf

class Facts : Prop extends Facts₀ where

variable [Facts]
-- ==== Proof.KB.QkvBody.lean ====
/-
  The first pallas_call: one grid axis of 128 points; point t reads rows 512·t … 512·t+511 of the activations
  and the whole 1024 × 3072 weight matrix (the three projection matrices side by side) and writes the same rows
  of their product. Stated for any float instance: the block each window's staging buffer holds when the body
  is called, what the body leaves in the output's buffer (its one store over the whole block), the body's triple,
  and the pipeline's proof data at the contents `V` the region is entered with.
-/
import proofs.«144935_j30348238914117_1_alg».proof.Proof.Gen.Kernel.Launch
import proofs.«144935_j30348238914117_1_alg».proof.Proof.Gen.Kernel.Skeleton
import proofs.«144935_j30348238914117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512·t … of the activations at every point. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer, filled once at the first point, holds the whole weight matrix at every point:
    its block index never moves. -/
theorem before_weights_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S512x1024 := Rect.unit (s := S512x1024) ![0, 0] S512x1024.size inb_S512x1024_S512x1024_0_0
abbrev rWeights : Rect S1024x3072 := Rect.unit (s := S1024x3072) ![0, 0] S1024x3072.size inb_S1024x3072_S1024x3072_0_0
abbrev rOut : Rect S512x3072 := Rect.unit (s := S512x3072) ![0, 0] S512x3072.size inb_S512x3072_S512x3072_0_0

/-- The output's staging buffer after the body: its one store, over the whole block, of the product of the
    two loaded blocks. -/
def out (x0 : Vec F S512x1024 .f32) (x1 : Vec F S1024x3072 .bf16) : Vec F S512x3072 .bf16 :=
  View.canon [⟨rOut, k0_pay1 (View.ld x0 rRows) (View.ld x1 rWeights)⟩]

theorem cover (p0 : Vec F S512x3072 .bf16) (y : S512x3072.Idx) :
    ∃ pc ∈ ([⟨rOut, p0⟩] : List (View.Piece (Elt F) S512x3072 .bf16)), y ∈ pc.1.set :=
  View.cover_of_tiled [⟨rOut, p0⟩] S512x3072.size (by rfl) y

set_option maxHeartbeats 1000000 in
/-- The body on whole staging memrefs, the inputs' at `x0`, `x1` and the output's at anything, ends with the
    inputs' as they were and the output's at `out x0 x1`. -/
theorem sound_kernel (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core `c`: the arrays as the region finds them; after the body at point `t` each
    input's buffer at its block and the output's at `out` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_rows_of V (dat V c) (A_eq V c 0) (after_0 V c) t d
theorem before_1 (c : Dev nD) (t : Fin cfg0.N) (d) : (dat V c).before 1 t d = iblk V c 1 t :=
  before_weights_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Qkv

end
-- ==== Proof.KB.ProjBody.lean ====
/-
  The second pallas_call, the attention output projection with its residual: one grid axis of 128 points; point t
  reads rows 512·t … 512·t+511 of the residual stream (f32) and of the attention output (bf16), the whole
  1024 × 1024 projection matrix and the 1 × 1024 bias row, and writes the same rows of
      residual + (attention · matrix + bias),
  the bias row repeated down the 512 rows. A block of a window is the part of its array that a point works on:
  512 whole rows for the three row-blocked windows, the whole array for the matrix and for the bias. Stated for
  any float instance: the block each window's staging buffer holds when the body is called, what the body leaves
  in the output's buffer (its one store over the whole block), the body's triple, and the pipeline's proof data
  at the contents V the region is entered with.
-/
import proofs.«144935_j30348238914117_1_alg».proof.Proof.Gen.Kernel.Launch
import proofs.«144935_j30348238914117_1_alg».proof.Proof.Gen.Kernel.Skeleton
import proofs.«144935_j30348238914117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The residual stream's staging buffer, refilled at every point, holds rows 512·t … of the residual stream. -/
theorem before_resid_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The attention output's staging buffer, refilled at every point, holds rows 512·t … of the attention output. -/
theorem before_attn_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The projection matrix's staging buffer, filled once at the first point, holds the whole matrix at every point:
    its block index never moves. -/
theorem before_matrix_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The bias row's staging buffer, filled once at the first point, holds the whole row at every point, for the
    same reason. -/
theorem before_bias_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

-- The whole of each block, as a rectangle: the 512 × 1024 one serves the residual, the attention output and the result.
abbrev rRows : Rect S512x1024 := Rect.unit (s := S512x1024) ![0, 0] S512x1024.size inb_S512x1024_S512x1024_0_0
abbrev rMatrix : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-- The output's staging buffer after the body: its one store, over the whole block, of the residual block plus
    the attention block times the matrix plus the bias row. -/
def out (x0 : Vec F S512x1024 .f32) (x1 : Vec F S512x1024 .bf16) (x2 : Vec F S1024x1024 .bf16) (x3 : Vec F S1x1024 .f32) :
    Vec F S512x1024 .f32 :=
  View.canon [⟨rRows, k1_pay1 (View.ld x0 rRows) (View.ld x1 rRows) (View.ld x2 rMatrix) (View.ld x3 rBias)⟩]

theorem cover (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The body on whole staging memrefs, the inputs' at x0 … x3 and the output's at anything, ends with the
    inputs' as they were and the output's at out x0 x1 x2 x3. -/
theorem sound_kernel (c : Dev nD) (E : Set ℕ) (i : grid1.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .f32) (x1 : Vec F S512x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The pipeline's proof data on core c: the arrays as the region finds them; after the body at point t each
    input's buffer at its block and the output's at out of the four input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

theorem before_0 (c : Dev nD) (t : Fin cfg1.N) (d) : (dat V c).before 0 t d = iblk V c 0 t :=
  before_resid_of V (dat V c) (A_eq V c 0) (after_0 V c) t d
theorem before_1 (c : Dev nD) (t : Fin cfg1.N) (d) : (dat V c).before 1 t d = iblk V c 1 t :=
  before_attn_of V (dat V c) (A_eq V c 1) (after_1 V c) t d
theorem before_2 (c : Dev nD) (t : Fin cfg1.N) (d) : (dat V c).before 2 t d = iblk V c 2 t :=
  before_matrix_of V (dat V c) (A_eq V c 2) (after_2 V c) t d
theorem before_3 (c : Dev nD) (t : Fin cfg1.N) (d) : (dat V c).before 3 t d = iblk V c 3 t :=
  before_bias_of V (dat V c) (A_eq V c 3) (after_3 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _
    (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Proj

end
-- ==== Proof.KB.FfnBody.lean ====
/-
  The third pallas_call: one grid axis of 128 points; point t reads rows 512·t … 512·t+511 of the activations
  and, whole, the per-column mean and variance, the per-column gain and shift, a 1024 × 2048 matrix with its bias
  row and a 2048 × 1024 matrix with its bias row, and writes the same rows of the result: the rows are normalised
  column by column, (x − mean) · rsqrt(variance + ε), scaled by the gain and moved by the shift; the normalised rows
  go through the first matrix and bias, a maximum with zero, the second matrix and bias; and the normalised rows
  are added back. A block is the part of an array one grid point sees: 512 rows of the activations or of the
  result, the whole of every other operand. Stated for any float instance: the block each window's staging buffer
  holds when the body is called, what the body leaves in the output's buffer (its one store over the whole block),
  the body's triple, and the pipeline's proof data at the contents `V` the region is entered with.
-/
import proofs.«144935_j30348238914117_1_alg».proof.Proof.Gen.Kernel.Launch
import proofs.«144935_j30348238914117_1_alg».proof.Proof.Gen.Kernel.Skeleton
import proofs.«144935_j30348238914117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds rows 512·t … of the activations at every point: it is fetched at every point. -/
theorem before_rows_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column means' staging buffer, filled once at the first point, holds the whole row of means at every point:
    its block index never moves. -/
theorem before_mean_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The column variances' staging buffer, filled once at the first point, holds the whole row of variances at every point:
    its block index never moves. -/
theorem before_variance_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The gains' staging buffer, filled once at the first point, holds the whole row of gains at every point:
    its block index never moves. -/
theorem before_gain_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The shifts' staging buffer, filled once at the first point, holds the whole row of shifts at every point:
    its block index never moves. -/
theorem before_shift_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first matrix's staging buffer, filled once at the first point, holds the whole 1024 × 2048 matrix at every point:
    its block index never moves. -/
theorem before_matrix1_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The first bias row's staging buffer, filled once at the first point, holds the whole row of 2048 biases at every point:
    its block index never moves. -/
theorem before_bias1_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The second matrix's staging buffer, filled once at the first point, holds the whole 2048 × 1024 matrix at every point:
    its block index never moves. -/
theorem before_matrix2_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The second bias row's staging buffer, filled once at the first point, holds the whole row of 1024 biases at every point:
    its block index never moves. -/
theorem before_bias2_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S512x1024 := Rect.unit (s := S512x1024) ![0, 0] S512x1024.size inb_S512x1024_S512x1024_0_0
abbrev rRow1024 : Rect S1x1024 := Rect.unit (s := S1x1024) ![0, 0] S1x1024.size inb_S1x1024_S1x1024_0_0
abbrev rMatrix1 : Rect S1024x2048 := Rect.unit (s := S1024x2048) ![0, 0] S1024x2048.size inb_S1024x2048_S1024x2048_0_0
abbrev rRow2048 : Rect S1x2048 := Rect.unit (s := S1x2048) ![0, 0] S1x2048.size inb_S1x2048_S1x2048_0_0
abbrev rMatrix2 : Rect S2048x1024 := Rect.unit (s := S2048x1024) ![0, 0] S2048x1024.size inb_S2048x1024_S2048x1024_0_0
abbrev rOut : Rect S512x1024 := Rect.unit (s := S512x1024) ![0, 0] S512x1024.size inb_S512x1024_S512x1024_0_0

/-- The output's staging buffer after the body: its one store, over the whole block, of the normalised rows
    (of `x0` by the means `x1`, variances `x2`, gains `x3` and shifts `x4`) plus what the two matrix products
    (matrix `x5` with bias `x6`, a maximum with zero, matrix `x7`) make of them plus the bias `x8`. -/
def out (x0 : Vec F S512x1024 .f32) (x1 x2 x3 x4 : Vec F S1x1024 .f32) (x5 : Vec F S1024x2048 .bf16) (x6 : Vec F S1x2048 .f32)
    (x7 : Vec F S2048x1024 .bf16) (x8 : Vec F S1x1024 .f32) : Vec F S512x1024 .f32 :=
  View.canon [⟨rOut, k2_pay1 (k2_pay2 (View.ld x0 rRows) (View.ld x1 rRow1024) (View.ld x2 rRow1024) (View.ld x3 rRow1024) (View.ld x4 rRow1024)) (k2_pay3 (View.ld x8 rRow1024))
    (k2_pay4 (View.ld x0 rRows) (View.ld x1 rRow1024) (View.ld x2 rRow1024) (View.ld x3 rRow1024) (View.ld x4 rRow1024) (View.ld x5 rMatrix1) (View.ld x6 rRow2048) (View.ld x7 rMatrix2))⟩]

theorem cover (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

set_option maxHeartbeats 4000000 in
/-- The body on whole staging memrefs, the inputs' at `x0` … `x8` and the output's at anything, ends with the
    inputs' as they were and the output's at `out x0 … x8`. -/
theorem sound_kernel (c : Dev nD) (E : Set ℕ) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S512x1024 .f32) (harg10 : arg10.IsWhole)
    (x0 : Vec F S512x1024 .f32) (x1 x2 x3 x4 : Vec F S1x1024 .f32) (x5 : Vec F S1024x2048 .bf16) (x6 : Vec F S1x2048 .f32) (x7 : Vec F S2048x1024 .bf16) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out x0 x1 x2 x3 x4 x5 x6 x7 x8)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover _)

/-- The pipeline's proof data on core `c`: the arrays as the region finds them; after the body at point `t` each
    input's buffer at its block and the output's at `out` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out (iblk V c 0 t) (iblk V c 1 t) (iblk V c 2 t) (iblk V c 3 t) (iblk V c 4 t) (iblk V c 5 t) (iblk V c 6 t) (iblk V c 7 t) (iblk V c 8 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = out (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg2.N) (d) : (dat V c).before 0 t d = iblk V c 0 t :=
  before_rows_of V (dat V c) (A_eq V c 0) (after_0 V c) t d
theorem before_1 (c : Dev nD) (t : Fin cfg2.N) (d) : (dat V c).before 1 t d = iblk V c 1 t :=
  before_mean_of V (dat V c) (A_eq V c 1) (after_1 V c) t d
theorem before_2 (c : Dev nD) (t : Fin cfg2.N) (d) : (dat V c).before 2 t d = iblk V c 2 t :=
  before_variance_of V (dat V c) (A_eq V c 2) (after_2 V c) t d
theorem before_3 (c : Dev nD) (t : Fin cfg2.N) (d) : (dat V c).before 3 t d = iblk V c 3 t :=
  before_gain_of V (dat V c) (A_eq V c 3) (after_3 V c) t d
theorem before_4 (c : Dev nD) (t : Fin cfg2.N) (d) : (dat V c).before 4 t d = iblk V c 4 t :=
  before_shift_of V (dat V c) (A_eq V c 4) (after_4 V c) t d
theorem before_5 (c : Dev nD) (t : Fin cfg2.N) (d) : (dat V c).before 5 t d = iblk V c 5 t :=
  before_matrix1_of V (dat V c) (A_eq V c 5) (after_5 V c) t d
theorem before_6 (c : Dev nD) (t : Fin cfg2.N) (d) : (dat V c).before 6 t d = iblk V c 6 t :=
  before_bias1_of V (dat V c) (A_eq V c 6) (after_6 V c) t d
theorem before_7 (c : Dev nD) (t : Fin cfg2.N) (d) : (dat V c).before 7 t d = iblk V c 7 t :=
  before_matrix2_of V (dat V c) (A_eq V c 7) (after_7 V c) t d
theorem before_8 (c : Dev nD) (t : Fin cfg2.N) (d) : (dat V c).before 8 t d = iblk V c 8 t :=
  before_bias2_of V (dat V c) (A_eq V c 8) (after_8 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t))

set_option maxHeartbeats 1000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Ffn

end
-- ==== Proof.KB.BnBody.lean ====
/-
  The fourth pallas_call: one grid axis of 64 points; point t reads rows 1024·t … 1024·t+1023 of the
  65536 × 1024 activations and four 1 × 1024 rows — the columns' means, their variances, a scale and a shift —
  and writes the same rows normalised column by column: (x − mean) · rsqrt(variance + ε) · scale + shift.
  Stated for any float instance: the block each window's staging buffer holds when the body is called, what the
  body leaves in the output's buffer (its one store over the whole block), the body's triple, and the pipeline's
  proof data at the contents V the region is entered with.
-/
import proofs.«144935_j30348238914117_1_alg».proof.Proof.Gen.Kernel.Launch
import proofs.«144935_j30348238914117_1_alg».proof.Proof.Gen.Kernel.Skeleton
import proofs.«144935_j30348238914117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds rows 1024·t … of the activations at every point. -/
theorem before_rows_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The means' staging buffer, filled once at the first point, holds the whole row of column means at every
    point: its block index never moves. -/
theorem before_mean_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the variances' buffer holds the whole row of column variances at every point. -/
theorem before_variance_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Likewise the scale's buffer holds the whole row of column scales at every point. -/
theorem before_scale_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Likewise the shift's buffer holds the whole row of column shifts at every point. -/
theorem before_shift_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S1024x1024 := Rect.unit (s := S1024x1024) ![0, 0] S1024x1024.size inb_S1024x1024_S1024x1024_0_0
abbrev rCol : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output's staging buffer after the body: its one store, over the whole block, of the loaded rows
    normalised by the loaded means and variances, scaled and shifted. -/
def out (x0 : Vec F S1024x1024 .f32) (x1 x2 x3 x4 : Vec F S1x1024 .f32) : Vec F S1024x1024 .f32 :=
  View.canon [⟨rOut, k3_pay1 (View.ld x0 rRows) (View.ld x1 rCol) (View.ld x2 rCol) (View.ld x3 rCol) (View.ld x4 rCol)⟩]

theorem cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at x0 … x4 and the output's at anything, ends with the
    inputs' as they were and the output's at out x0 x1 x2 x3 x4. -/
theorem sound_kernel (c : Dev nD) (E : Set ℕ) (i : grid3.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole)
    (x0 : Vec F S1024x1024 .f32) (x1 x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The pipeline's proof data on core c: the arrays as the region finds them; after the body at point t each
    input's buffer at its block and the output's at out of the input blocks; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) :
    (dat V c).after 5 t = out (iblk V c 0 t) (iblk V c 1 t) (iblk V c 2 t) (iblk V c 3 t) (iblk V c 4 t) := by dsimp only [dat]

theorem before_0 (c : Dev nD) (t : Fin cfg3.N) (d) : (dat V c).before 0 t d = iblk V c 0 t :=
  before_rows_of V (dat V c) (A_eq V c 0) (after_0 V c) t d
theorem before_1 (c : Dev nD) (t : Fin cfg3.N) (d) : (dat V c).before 1 t d = iblk V c 1 t :=
  before_mean_of V (dat V c) (A_eq V c 1) (after_1 V c) t d
theorem before_2 (c : Dev nD) (t : Fin cfg3.N) (d) : (dat V c).before 2 t d = iblk V c 2 t :=
  before_variance_of V (dat V c) (A_eq V c 2) (after_2 V c) t d
theorem before_3 (c : Dev nD) (t : Fin cfg3.N) (d) : (dat V c).before 3 t d = iblk V c 3 t :=
  before_scale_of V (dat V c) (A_eq V c 3) (after_3 V c) t d
theorem before_4 (c : Dev nD) (t : Fin cfg3.N) (d) : (dat V c).before 4 t d = iblk V c 4 t :=
  before_shift_of V (dat V c) (A_eq V c 4) (after_4 V c) t d

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid3.coords t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W3, bigSep_W3]
  exact sound_body V c t

end Cert.Kernel.Bn

end
-- ==== Proof.KB.Run.lean ====
/-
  The whole program as eight items: four stretches of host operations and the four pallas calls between them.
  Between two items a core holds every unscoped buffer at a valuation: the launch contents, then each host
  stretch's operations applied, then, after a pallas call, that call's output array replaced by what its
  write-backs leave (`outs`). Each pallas call is entered from the valuation before it and left at the one after
  it; its proof data are taken at its entry contents. The launch reads every unscoped buffer back at the end, so
  the run names both the argument arrays (unchanged) and the last call's output array.
  Stated for any float instance.
-/
import proofs.«144935_j30348238914117_1_alg».proof.Proof.KB.QkvBody
import proofs.«144935_j30348238914117_1_alg».proof.Proof.KB.ProjBody
import proofs.«144935_j30348238914117_1_alg».proof.Proof.KB.FfnBody
import proofs.«144935_j30348238914117_1_alg».proof.Proof.KB.BnBody
import proofs.«144935_j30348238914117_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The valuations read at the TensorCore's references -/

/-- Entry contents of pallas call 0. -/
abbrev E1 : (c : Dev nD) → (b : Ref sig .tc) → Buf (Elt F) ((c : Thread nD τ).loc b) := fun c b => V1 m c b
/-- Exit contents of pallas call 0. -/
abbrev E2 : (c : Dev nD) → (b : Ref sig .tc) → Buf (Elt F) ((c : Thread nD τ).loc b) := fun c b => V2 m outs c b
/-- Entry contents of pallas call 1. -/
abbrev E3 : (c : Dev nD) → (b : Ref sig .tc) → Buf (Elt F) ((c : Thread nD τ).loc b) := fun c b => V3 m outs c b
/-- Exit contents of pallas call 1. -/
abbrev E4 : (c : Dev nD) → (b : Ref sig .tc) → Buf (Elt F) ((c : Thread nD τ).loc b) := fun c b => V4 m outs c b
/-- Entry contents of pallas call 2. -/
abbrev E5 : (c : Dev nD) → (b : Ref sig .tc) → Buf (Elt F) ((c : Thread nD τ).loc b) := fun c b => V5 m outs c b
/-- Exit contents of pallas call 2. -/
abbrev E6 : (c : Dev nD) → (b : Ref sig .tc) → Buf (Elt F) ((c : Thread nD τ).loc b) := fun c b => V6 m outs c b
/-- Entry contents of pallas call 3. -/
abbrev E7 : (c : Dev nD) → (b : Ref sig .tc) → Buf (Elt F) ((c : Thread nD τ).loc b) := fun c b => V7 m outs c b
/-- Exit contents of pallas call 3. -/
abbrev E8 : (c : Dev nD) → (b : Ref sig .tc) → Buf (Elt F) ((c : Thread nD τ).loc b) := fun c b => V8 m outs c b

/-- What `outs` must name: after each pallas call, the contents its write-backs leave in its output array, the
    call's proof data taken at its entry contents. -/
structure OutsOk : Prop where
  qkv : ∀ c, outs 2 main_v12 c = (Qkv.dat (E1 m) c).arrAt 2 cfg0.N
  proj : ∀ c, outs 4 main_v39 c = (Proj.dat (E3 m outs) c).arrAt 4 cfg1.N
  ffn : ∀ c, outs 6 main_v51 c = (Ffn.dat (E5 m outs) c).arrAt 9 cfg2.N
  bn : ∀ c, outs 8 main_v63 c = (Bn.dat (E7 m outs) c).arrAt 5 cfg3.N

/-- Every pipeline's proof data, each at its call's entry contents: a literal match on the pipeline. -/
def pdats : (p : Fin 4) → (c : Dev nD) → Dat τ (Elt F) Unit ℕ (UR sig nD τ) ℕ (Pipeline.pin (pcfgs (F := F)) adm p) c
  | ⟨0, _⟩ => fun c => Qkv.dat (E1 m) c
  | ⟨1, _⟩ => fun c => Proj.dat (E3 m outs) c
  | ⟨2, _⟩ => fun c => Ffn.dat (E5 m outs) c
  | ⟨3, _⟩ => fun c => Bn.dat (E7 m outs) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (V8 m outs c) ∗ ∃ r, prngReg c r)

/-! ## After a pallas call: its windows' arrays at the next valuation, every other buffer untouched -/

theorem arrs0 (h : OutsOk m outs) (c : Dev nD) (w : Fin cfg0.W) :
    (pdats m outs 0 c).arrAt w cfg0.N = E2 m outs c (Pipeline.arrRef spec0 w) :=
  match w with
  | ⟨0, _⟩ => (((Qkv.dat (E1 m) c).arrAt_in 0 rfl _).trans (Qkv.A_eq (E1 m) c 0)).trans (V2_of m outs c main_arg0 (by decide)).symm
  | ⟨1, _⟩ => (((Qkv.dat (E1 m) c).arrAt_in 1 rfl _).trans (Qkv.A_eq (E1 m) c 1)).trans (V2_of m outs c main_v1 (by decide)).symm
  | ⟨2, _⟩ => (h.qkv c).symm.trans (Function.update_self (Proc.devRef .tc main_v12) (outs 2 main_v12 c) (V1 m c)).symm
theorem rest0 (c : Dev nD) : ∀ b, b ∉ Finset.univ.image (Pipeline.arrRef spec0) → E2 m outs c b = E1 m c b :=
  fun b hb => V2_of m outs c b fun hm => hb (Finset.mem_image.mpr ⟨2, Finset.mem_univ _, (List.mem_singleton.mp hm).symm⟩)

set_option maxHeartbeats 1000000 in
theorem arrs1 (h : OutsOk m outs) (c : Dev nD) (w : Fin cfg1.W) :
    (pdats m outs 1 c).arrAt w cfg1.N = E4 m outs c (Pipeline.arrRef spec1 w) :=
  match w with
  | ⟨0, _⟩ => (((Proj.dat (E3 m outs) c).arrAt_in 0 rfl _).trans (Proj.A_eq (E3 m outs) c 0)).trans (V4_of m outs c main_arg0 (by decide)).symm
  | ⟨1, _⟩ => (((Proj.dat (E3 m outs) c).arrAt_in 1 rfl _).trans (Proj.A_eq (E3 m outs) c 1)).trans (V4_of m outs c main_v38 (by decide)).symm
  | ⟨2, _⟩ => (((Proj.dat (E3 m outs) c).arrAt_in 2 rfl _).trans (Proj.A_eq (E3 m outs) c 2)).trans (V4_of m outs c main_v2 (by decide)).symm
  | ⟨3, _⟩ => (((Proj.dat (E3 m outs) c).arrAt_in 3 rfl _).trans (Proj.A_eq (E3 m outs) c 3)).trans (V4_of m outs c main_v5 (by decide)).symm
  | ⟨4, _⟩ => (h.proj c).symm.trans (Function.update_self (Proc.devRef .tc main_v39) (outs 4 main_v39 c) (V3 m outs c)).symm
theorem rest1 (c : Dev nD) : ∀ b, b ∉ Finset.univ.image (Pipeline.arrRef spec1) → E4 m outs c b = E3 m outs c b :=
  fun b hb => V4_of m outs c b fun hm => hb (Finset.mem_image.mpr ⟨4, Finset.mem_univ _, (List.mem_singleton.mp hm).symm⟩)

set_option maxHeartbeats 4000000 in
theorem arrs2 (h : OutsOk m outs) (c : Dev nD) (w : Fin cfg2.W) :
    (pdats m outs 2 c).arrAt w cfg2.N = E6 m outs c (Pipeline.arrRef spec2 w) :=
  match w with
  | ⟨0, _⟩ => (((Ffn.dat (E5 m outs) c).arrAt_in 0 rfl _).trans (Ffn.A_eq (E5 m outs) c 0)).trans (V6_of m outs c main_v39 (by decide)).symm
  | ⟨1, _⟩ => (((Ffn.dat (E5 m outs) c).arrAt_in 1 rfl _).trans (Ffn.A_eq (E5 m outs) c 1)).trans (V6_of m outs c main_v43 (by decide)).symm
  | ⟨2, _⟩ => (((Ffn.dat (E5 m outs) c).arrAt_in 2 rfl _).trans (Ffn.A_eq (E5 m outs) c 2)).trans (V6_of m outs c main_v50 (by decide)).symm
  | ⟨3, _⟩ => (((Ffn.dat (E5 m outs) c).arrAt_in 3 rfl _).trans (Ffn.A_eq (E5 m outs) c 3)).trans (V6_of m outs c main_v6 (by decide)).symm
  | ⟨4, _⟩ => (((Ffn.dat (E5 m outs) c).arrAt_in 4 rfl _).trans (Ffn.A_eq (E5 m outs) c 4)).trans (V6_of m outs c main_v7 (by decide)).symm
  | ⟨5, _⟩ => (((Ffn.dat (E5 m outs) c).arrAt_in 5 rfl _).trans (Ffn.A_eq (E5 m outs) c 5)).trans (V6_of m outs c main_v3 (by decide)).symm
  | ⟨6, _⟩ => (((Ffn.dat (E5 m outs) c).arrAt_in 6 rfl _).trans (Ffn.A_eq (E5 m outs) c 6)).trans (V6_of m outs c main_v8 (by decide)).symm
  | ⟨7, _⟩ => (((Ffn.dat (E5 m outs) c).arrAt_in 7 rfl _).trans (Ffn.A_eq (E5 m outs) c 7)).trans (V6_of m outs c main_v4 (by decide)).symm
  | ⟨8, _⟩ => (((Ffn.dat (E5 m outs) c).arrAt_in 8 rfl _).trans (Ffn.A_eq (E5 m outs) c 8)).trans (V6_of m outs c main_v9 (by decide)).symm
  | ⟨9, _⟩ => (h.ffn c).symm.trans (Function.update_self (Proc.devRef .tc main_v51) (outs 6 main_v51 c) (V5 m outs c)).symm
theorem rest2 (c : Dev nD) : ∀ b, b ∉ Finset.univ.image (Pipeline.arrRef spec2) → E6 m outs c b = E5 m outs c b :=
  fun b hb => V6_of m outs c b fun hm => hb (Finset.mem_image.mpr ⟨9, Finset.mem_univ _, (List.mem_singleton.mp hm).symm⟩)

set_option maxHeartbeats 4000000 in
theorem arrs3 (h : OutsOk m outs) (c : Dev nD) (w : Fin cfg3.W) :
    (pdats m outs 3 c).arrAt w cfg3.N = E8 m outs c (Pipeline.arrRef spec3 w) :=
  match w with
  | ⟨0, _⟩ => (((Bn.dat (E7 m outs) c).arrAt_in 0 rfl _).trans (Bn.A_eq (E7 m outs) c 0)).trans (V8_of m outs c main_v51 (by decide)).symm
  | ⟨1, _⟩ => (((Bn.dat (E7 m outs) c).arrAt_in 1 rfl _).trans (Bn.A_eq (E7 m outs) c 1)).trans (V8_of m outs c main_v55 (by decide)).symm
  | ⟨2, _⟩ => (((Bn.dat (E7 m outs) c).arrAt_in 2 rfl _).trans (Bn.A_eq (E7 m outs) c 2)).trans (V8_of m outs c main_v62 (by decide)).symm
  | ⟨3, _⟩ => (((Bn.dat (E7 m outs) c).arrAt_in 3 rfl _).trans (Bn.A_eq (E7 m outs) c 3)).trans (V8_of m outs c main_v10 (by decide)).symm
  | ⟨4, _⟩ => (((Bn.dat (E7 m outs) c).arrAt_in 4 rfl _).trans (Bn.A_eq (E7 m outs) c 4)).trans (V8_of m outs c main_v11 (by decide)).symm
  | ⟨5, _⟩ => (h.bn c).symm.trans (Function.update_self (Proc.devRef .tc main_v63) (outs 8 main_v63 c) (V7 m outs c)).symm
theorem rest3 (c : Dev nD) : ∀ b, b ∉ Finset.univ.image (Pipeline.arrRef spec3) → E8 m outs c b = E7 m outs c b :=
  fun b hb => V8_of m outs c b fun hm => hb (Finset.mem_image.mpr ⟨5, Finset.mem_univ _, (List.mem_singleton.mp hm).symm⟩)

/-! ## The pallas calls as items

Each call: entered with every unscoped buffer at its entry valuation, left with them at its exit valuation. Its
windows' arrays are split out of the unscoped buffers and put back at what the write-backs leave; the generator
register goes into the pipeline's invariant and comes back; nothing is owed; the kernel has no semaphore of its own. -/

-- a library lemma stated over the pinned configuration unifies with the printed one only when unification may
-- unfold plain definitions in a metavariable's type
set_option backward.isDefEq.respectTransparency.types false in
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E1 m c) (E2 m outs c) ((pdats m outs 0 c).arrAt · cfg0.N) (arrs0 m outs h c) (rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (E3 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (E3 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (E3 m outs c) (E4 m outs c) ((pdats m outs 1 c).arrAt · cfg1.N) (arrs1 m outs h c) (rest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (Ffn.body_obligation (E5 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (E5 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E5 m outs c) (E6 m outs c) ((pdats m outs 2 c).arrAt · cfg2.N) (arrs2 m outs h c) (rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (Bn.body_obligation (E7 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(Tₙ m outs c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (E7 m outs c) (E8 m outs c) ((pdats m outs 3 c).arrAt · cfg3.N) (arrs3 m outs h c) (rest3 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs (h : OutsOk m outs) : List (Pipeline.Seg (pcfgs (F := F)) adm (pdats m outs) () defs₀ 𝒱₀ L lv) :=
  [ .host (hseg hostOps0 hostOps0_sub hostOps0_fresh (V0 m)),
    .region (reg0 m outs h),
    .host (hseg hostOps1 hostOps1_sub hostOps1_fresh (V2 m outs)),
    .region (reg1 m outs h),
    .host (hseg hostOps2 hostOps2_sub hostOps2_fresh (V4 m outs)),
    .region (reg2 m outs h),
    .host (hseg hostOps3 hostOps3_sub hostOps3_fresh (V6 m outs)),
    .region (reg3 m outs h) ]

-- the launch theorem's implicit arguments are found by unifying its conclusion with this one, which takes unfolding
-- plain definitions in a metavariable's type
set_option backward.isDefEq.respectTransparency.types false in
/-- From any memory with zero counters every weakly fair execution of the program terminates, nothing faulting, and
    the final memory holds every unscoped buffer at the last valuation. -/
theorem run_all (h : OutsOk m outs) :
    θ_run defs (onTc (τ := τ) (main (F := F))) ⟨m, fun _ => 0, ρ⟩
      (fun r => ∀ c : Dev nD, ∀ b ∈ Pipeline.ucRefs τ sig, r.2.mem (((c : Thread nD τ)).1, b) = V8 m outs c b) :=
  Pipeline.θ_run_regions_kit (pcfgs (F := F)) adm (pdats m outs) () cellOf_inj emb₁ defs₀ 𝒱₀ L lv m ρ main (segs m outs h)
    (fun c Q => by
      rewrite [main_chain c, Pipeline.Seg.run_eq_chain,
        show (segs m outs h).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m outs)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m outs c b)
    (hfin := fun c s' => by
      iintro ⟨⟨Hh, -⟩, HSI⟩
      unfold StableHlo.held
      imodintro
      iapply (pointsTo_read_all (Pipeline.ucRefs τ sig) (fun b => (((c : Thread nD τ)).1, b)) (V8 m outs c) s')
      isplitl [Hh] <;> iassumption)
    (hQ := fun s h => h)

/-- The frame: every argument array ends as launched. No host stretch writes an argument and no pallas call's
    output array is one. -/
theorem frame (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r hr c =>
    ⟨(hr c _ (mem_uc main_arg0 (by decide))).trans (V8_main_arg0 m outs c),
     (hr c _ (mem_uc main_arg1 (by decide))).trans (V8_main_arg1 m outs c),
     (hr c _ (mem_uc main_arg2 (by decide))).trans (V8_main_arg2 m outs c),
     (hr c _ (mem_uc main_arg3 (by decide))).trans (V8_main_arg3 m outs c),
     (hr c _ (mem_uc main_arg4 (by decide))).trans (V8_main_arg4 m outs c),
     (hr c _ (mem_uc main_arg5 (by decide))).trans (V8_main_arg5 m outs c),
     (hr c _ (mem_uc main_arg6 (by decide))).trans (V8_main_arg6 m outs c),
     (hr c _ (mem_uc main_arg7 (by decide))).trans (V8_main_arg7 m outs c),
     (hr c _ (mem_uc main_arg8 (by decide))).trans (V8_main_arg8 m outs c),
     (hr c _ (mem_uc main_arg9 (by decide))).trans (V8_main_arg9 m outs c),
     (hr c _ (mem_uc main_arg10 (by decide))).trans (V8_main_arg10 m outs c),
     (hr c _ (mem_uc main_arg11 (by decide))).trans (V8_main_arg11 m outs c),
     (hr c _ (mem_uc main_arg12 (by decide))).trans (V8_main_arg12 m outs c),
     (hr c _ (mem_uc main_arg13 (by decide))).trans (V8_main_arg13 m outs c)⟩)
    (run_all m ρ outs h)

/-- The last pallas call's output array after the run is what `outs` names for it. -/
theorem result (h : OutsOk m outs) :
    θ_run defs (onTc (τ := τ) (main (F := F))) ⟨m, fun _ => 0, ρ⟩ (fun r => ∀ c : Dev nD,
      r.2.mem ((c.tc : Thread nD τ).loc main_v63) = outs 8 main_v63 c) :=
  (θ_run defs _ _).mono (fun r hr c =>
    (hr c _ (mem_uc main_v63 (by decide))).trans (Function.update_self (Proc.devRef .tc main_v63) (outs 8 main_v63 c) (V7 m outs c)))
    (run_all m ρ outs h)

/-- The run with both read off: the last pallas call's output array is what `outs` names for it, and every argument
    array ends as launched. -/
theorem run_value (h : OutsOk m outs) :
    θ_run defs (onTc (τ := τ) (main (F := F))) ⟨m, fun _ => 0, ρ⟩ (fun r => ∀ c : Dev nD,
      r.2.mem ((c.tc : Thread nD τ).loc main_v63) = outs 8 main_v63 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r hr c =>
    ⟨(hr c _ (mem_uc main_v63 (by decide))).trans (Function.update_self (Proc.devRef .tc main_v63) (outs 8 main_v63 c) (V7 m outs c)),
     (hr c _ (mem_uc main_arg0 (by decide))).trans (V8_main_arg0 m outs c),
     (hr c _ (mem_uc main_arg1 (by decide))).trans (V8_main_arg1 m outs c),
     (hr c _ (mem_uc main_arg2 (by decide))).trans (V8_main_arg2 m outs c),
     (hr c _ (mem_uc main_arg3 (by decide))).trans (V8_main_arg3 m outs c),
     (hr c _ (mem_uc main_arg4 (by decide))).trans (V8_main_arg4 m outs c),
     (hr c _ (mem_uc main_arg5 (by decide))).trans (V8_main_arg5 m outs c),
     (hr c _ (mem_uc main_arg6 (by decide))).trans (V8_main_arg6 m outs c),
     (hr c _ (mem_uc main_arg7 (by decide))).trans (V8_main_arg7 m outs c),
     (hr c _ (mem_uc main_arg8 (by decide))).trans (V8_main_arg8 m outs c),
     (hr c _ (mem_uc main_arg9 (by decide))).trans (V8_main_arg9 m outs c),
     (hr c _ (mem_uc main_arg10 (by decide))).trans (V8_main_arg10 m outs c),
     (hr c _ (mem_uc main_arg11 (by decide))).trans (V8_main_arg11 m outs c),
     (hr c _ (mem_uc main_arg12 (by decide))).trans (V8_main_arg12 m outs c),
     (hr c _ (mem_uc main_arg13 (by decide))).trans (V8_main_arg13 m outs c)⟩)
    (run_all m ρ outs h)

/-! ## Contents that satisfy `OutsOk`: defined call by call, each from the valuation before it -/

/-- After pallas call 0. -/
def w2 (c : Dev nD) : Valuation τ sig (Elt F) :=
  Function.update (V1 m c) (Proc.devRef .tc main_v12) ((Qkv.dat (E1 m) c).arrAt 2 cfg0.N)
/-- After the second host stretch. -/
def w3 (c : Dev nD) : Valuation τ sig (Elt F) := StableHlo.after hostOps1 (w2 m c)
/-- The same read at the TensorCore's references. -/
abbrev e3 : (c : Dev nD) → (b : Ref sig .tc) → Buf (Elt F) ((c : Thread nD τ).loc b) := fun c b => w3 m c b
/-- After pallas call 1. -/
def w4 (c : Dev nD) : Valuation τ sig (Elt F) :=
  Function.update (w3 m c) (Proc.devRef .tc main_v39) ((Proj.dat (e3 m) c).arrAt 4 cfg1.N)
/-- After the third host stretch. -/
def w5 (c : Dev nD) : Valuation τ sig (Elt F) := StableHlo.after hostOps2 (w4 m c)
/-- The same read at the TensorCore's references. -/
abbrev e5 : (c : Dev nD) → (b : Ref sig .tc) → Buf (Elt F) ((c : Thread nD τ).loc b) := fun c b => w5 m c b
/-- After pallas call 2. -/
def w6 (c : Dev nD) : Valuation τ sig (Elt F) :=
  Function.update (w5 m c) (Proc.devRef .tc main_v51) ((Ffn.dat (e5 m) c).arrAt 9 cfg2.N)
/-- After the fourth host stretch. -/
def w7 (c : Dev nD) : Valuation τ sig (Elt F) := StableHlo.after hostOps3 (w6 m c)
/-- The same read at the TensorCore's references. -/
abbrev e7 : (c : Dev nD) → (b : Ref sig .tc) → Buf (Elt F) ((c : Thread nD τ).loc b) := fun c b => w7 m c b
/-- After pallas call 3. -/
def w8 (c : Dev nD) : Valuation τ sig (Elt F) :=
  Function.update (w7 m c) (Proc.devRef .tc main_v63) ((Bn.dat (e7 m) c).arrAt 5 cfg3.N)

/-- The contents the pallas calls leave, read off those valuations. -/
def theOuts : Outs (F := F) := fun j r c =>
  match j with
  | 2 => w2 m c r
  | 4 => w4 m c r
  | 6 => w6 m c r
  | 8 => w8 m c r
  | _ => V1 m c r

theorem V2_theOuts : V2 m (theOuts m) = w2 m := by
  funext c
  show Function.update (V1 m c) (Proc.devRef .tc main_v12) (w2 m c (Proc.devRef .tc main_v12)) = w2 m c
  unfold w2; rw [Function.update_self]
theorem V3_theOuts : V3 m (theOuts m) = w3 m := by
  funext c
  show StableHlo.after hostOps1 (V2 m (theOuts m) c) = w3 m c
  rw [V2_theOuts]; rfl
theorem V4_theOuts : V4 m (theOuts m) = w4 m := by
  funext c
  show Function.update (V3 m (theOuts m) c) (Proc.devRef .tc main_v39) (w4 m c (Proc.devRef .tc main_v39)) = w4 m c
  rw [V3_theOuts]; unfold w4; rw [Function.update_self]
theorem V5_theOuts : V5 m (theOuts m) = w5 m := by
  funext c
  show StableHlo.after hostOps2 (V4 m (theOuts m) c) = w5 m c
  rw [V4_theOuts]; rfl
theorem V6_theOuts : V6 m (theOuts m) = w6 m := by
  funext c
  show Function.update (V5 m (theOuts m) c) (Proc.devRef .tc main_v51) (w6 m c (Proc.devRef .tc main_v51)) = w6 m c
  rw [V5_theOuts]; unfold w6; rw [Function.update_self]
theorem V7_theOuts : V7 m (theOuts m) = w7 m := by
  funext c
  show StableHlo.after hostOps3 (V6 m (theOuts m) c) = w7 m c
  rw [V6_theOuts]; rfl

theorem theOuts_ok : OutsOk m (theOuts m) where
  qkv c := by
    show w2 m c (Proc.devRef .tc main_v12) = _
    unfold w2; rw [Function.update_self]
  proj c := by
    show w4 m c (Proc.devRef .tc main_v39) = _
    unfold w4; rw [Function.update_self]
    rw [show E3 m (theOuts m) = e3 m from by funext c b; show V3 m (theOuts m) c (Proc.devRef .tc b) = w3 m c (Proc.devRef .tc b); rw [V3_theOuts]]
  ffn c := by
    show w6 m c (Proc.devRef .tc main_v51) = _
    unfold w6; rw [Function.update_self]
    rw [show E5 m (theOuts m) = e5 m from by funext c b; show V5 m (theOuts m) c (Proc.devRef .tc b) = w5 m c (Proc.devRef .tc b); rw [V5_theOuts]]
  bn c := by
    show w8 m c (Proc.devRef .tc main_v63) = _
    unfold w8; rw [Function.update_self]
    rw [show E7 m (theOuts m) = e7 m from by funext c b; show V7 m (theOuts m) c (Proc.devRef .tc b) = w7 m c (Proc.devRef .tc b); rw [V7_theOuts]]

end Cert.Kernel.Whole

end
-- ==== Proof.KI.QkvBody.lean ====
/-
  The first pallas_call: one grid axis of 128 points; point t reads rows 512·t … 512·t+511 of the activations
  and the whole 1024 × 3072 weight matrix (the three projection matrices side by side) and writes the same rows
  of their product. Stated for any float instance: the block each window's staging buffer holds when the body
  is called, what the body leaves in the output's buffer (its one store over the whole block), the body's triple,
  and the pipeline's proof data at the contents `V` the region is entered with.
-/
import proofs.«144935_j30348238914117_1_alg».proof.Proof.Gen.KernelIdeal.Launch
import proofs.«144935_j30348238914117_1_alg».proof.Proof.Gen.KernelIdeal.Skeleton
import proofs.«144935_j30348238914117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512·t … of the activations at every point. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer, filled once at the first point, holds the whole weight matrix at every point:
    its block index never moves. -/
theorem before_weights_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S512x1024 := Rect.unit (s := S512x1024) ![0, 0] S512x1024.size inb_S512x1024_S512x1024_0_0
abbrev rWeights : Rect S1024x3072 := Rect.unit (s := S1024x3072) ![0, 0] S1024x3072.size inb_S1024x3072_S1024x3072_0_0
abbrev rOut : Rect S512x3072 := Rect.unit (s := S512x3072) ![0, 0] S512x3072.size inb_S512x3072_S512x3072_0_0

/-- The output's staging buffer after the body: its one store, over the whole block, of the product of the
    two loaded blocks. -/
def out (x0 : Vec F S512x1024 .f32) (x1 : Vec F S1024x3072 .bf16) : Vec F S512x3072 .bf16 :=
  View.canon [⟨rOut, k0_pay1 (View.ld x0 rRows) (View.ld x1 rWeights)⟩]

theorem cover (p0 : Vec F S512x3072 .bf16) (y : S512x3072.Idx) :
    ∃ pc ∈ ([⟨rOut, p0⟩] : List (View.Piece (Elt F) S512x3072 .bf16)), y ∈ pc.1.set :=
  View.cover_of_tiled [⟨rOut, p0⟩] S512x3072.size (by rfl) y

set_option maxHeartbeats 1000000 in
/-- The body on whole staging memrefs, the inputs' at `x0`, `x1` and the output's at anything, ends with the
    inputs' as they were and the output's at `out x0 x1`. -/
theorem sound_kernel (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core `c`: the arrays as the region finds them; after the body at point `t` each
    input's buffer at its block and the output's at `out` of the input blocks; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_rows_of V (dat V c) (A_eq V c 0) (after_0 V c) t d
theorem before_1 (c : Dev nD) (t : Fin cfg0.N) (d) : (dat V c).before 1 t d = iblk V c 1 t :=
  before_weights_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Qkv

end
-- ==== Proof.KI.ProjBody.lean ====
/-
  The second pallas_call, the attention output projection with its residual: one grid axis of 128 points; point t
  reads rows 512·t … 512·t+511 of the residual stream (f32) and of the attention output (bf16), the whole
  1024 × 1024 projection matrix and the 1 × 1024 bias row, and writes the same rows of
      residual + (attention · matrix + bias),
  the bias row repeated down the 512 rows. A block of a window is the part of its array that a point works on:
  512 whole rows for the three row-blocked windows, the whole array for the matrix and for the bias. Stated for
  any float instance: the block each window's staging buffer holds when the body is called, what the body leaves
  in the output's buffer (its one store over the whole block), the body's triple, and the pipeline's proof data
  at the contents V the region is entered with.
-/
import proofs.«144935_j30348238914117_1_alg».proof.Proof.Gen.KernelIdeal.Launch
import proofs.«144935_j30348238914117_1_alg».proof.Proof.Gen.KernelIdeal.Skeleton
import proofs.«144935_j30348238914117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The residual stream's staging buffer, refilled at every point, holds rows 512·t … of the residual stream. -/
theorem before_resid_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The attention output's staging buffer, refilled at every point, holds rows 512·t … of the attention output. -/
theorem before_attn_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The projection matrix's staging buffer, filled once at the first point, holds the whole matrix at every point:
    its block index never moves. -/
theorem before_matrix_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The bias row's staging buffer, filled once at the first point, holds the whole row at every point, for the
    same reason. -/
theorem before_bias_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

-- The whole of each block, as a rectangle: the 512 × 1024 one serves the residual, the attention output and the result.
abbrev rRows : Rect S512x1024 := Rect.unit (s := S512x1024) ![0, 0] S512x1024.size inb_S512x1024_S512x1024_0_0
abbrev rMatrix : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-- The output's staging buffer after the body: its one store, over the whole block, of the residual block plus
    the attention block times the matrix plus the bias row. -/
def out (x0 : Vec F S512x1024 .f32) (x1 : Vec F S512x1024 .bf16) (x2 : Vec F S1024x1024 .bf16) (x3 : Vec F S1x1024 .f32) :
    Vec F S512x1024 .f32 :=
  View.canon [⟨rRows, k1_pay1 (View.ld x0 rRows) (View.ld x1 rRows) (View.ld x2 rMatrix) (View.ld x3 rBias)⟩]

theorem cover (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

set_option maxHeartbeats 1000000 in
/-- The body on whole staging memrefs, the inputs' at x0 … x3 and the output's at anything, ends with the
    inputs' as they were and the output's at out x0 x1 x2 x3. -/
theorem sound_kernel (c : Dev nD) (E : Set ℕ) (i : grid1.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .f32) (x1 : Vec F S512x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The pipeline's proof data on core c: the arrays as the region finds them; after the body at point t each
    input's buffer at its block and the output's at out of the four input blocks; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

theorem before_0 (c : Dev nD) (t : Fin cfg1.N) (d) : (dat V c).before 0 t d = iblk V c 0 t :=
  before_resid_of V (dat V c) (A_eq V c 0) (after_0 V c) t d
theorem before_1 (c : Dev nD) (t : Fin cfg1.N) (d) : (dat V c).before 1 t d = iblk V c 1 t :=
  before_attn_of V (dat V c) (A_eq V c 1) (after_1 V c) t d
theorem before_2 (c : Dev nD) (t : Fin cfg1.N) (d) : (dat V c).before 2 t d = iblk V c 2 t :=
  before_matrix_of V (dat V c) (A_eq V c 2) (after_2 V c) t d
theorem before_3 (c : Dev nD) (t : Fin cfg1.N) (d) : (dat V c).before 3 t d = iblk V c 3 t :=
  before_bias_of V (dat V c) (A_eq V c 3) (after_3 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _
    (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Proj

end
-- ==== Proof.KI.FfnBody.lean ====
/-
  The third pallas_call: one grid axis of 128 points; point t reads rows 512·t … 512·t+511 of the activations
  and, whole, the per-column mean and variance, the per-column gain and shift, a 1024 × 2048 matrix with its bias
  row and a 2048 × 1024 matrix with its bias row, and writes the same rows of the result: the rows are normalised
  column by column, (x − mean) · rsqrt(variance + ε), scaled by the gain and moved by the shift; the normalised rows
  go through the first matrix and bias, a maximum with zero, the second matrix and bias; and the normalised rows
  are added back. A block is the part of an array one grid point sees: 512 rows of the activations or of the
  result, the whole of every other operand. Stated for any float instance: the block each window's staging buffer
  holds when the body is called, what the body leaves in the output's buffer (its one store over the whole block),
  the body's triple, and the pipeline's proof data at the contents `V` the region is entered with.
-/
import proofs.«144935_j30348238914117_1_alg».proof.Proof.Gen.KernelIdeal.Launch
import proofs.«144935_j30348238914117_1_alg».proof.Proof.Gen.KernelIdeal.Skeleton
import proofs.«144935_j30348238914117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds rows 512·t … of the activations at every point: it is fetched at every point. -/
theorem before_rows_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column means' staging buffer, filled once at the first point, holds the whole row of means at every point:
    its block index never moves. -/
theorem before_mean_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The column variances' staging buffer, filled once at the first point, holds the whole row of variances at every point:
    its block index never moves. -/
theorem before_variance_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The gains' staging buffer, filled once at the first point, holds the whole row of gains at every point:
    its block index never moves. -/
theorem before_gain_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The shifts' staging buffer, filled once at the first point, holds the whole row of shifts at every point:
    its block index never moves. -/
theorem before_shift_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The first matrix's staging buffer, filled once at the first point, holds the whole 1024 × 2048 matrix at every point:
    its block index never moves. -/
theorem before_matrix1_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The first bias row's staging buffer, filled once at the first point, holds the whole row of 2048 biases at every point:
    its block index never moves. -/
theorem before_bias1_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The second matrix's staging buffer, filled once at the first point, holds the whole 2048 × 1024 matrix at every point:
    its block index never moves. -/
theorem before_matrix2_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The second bias row's staging buffer, filled once at the first point, holds the whole row of 1024 biases at every point:
    its block index never moves. -/
theorem before_bias2_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S512x1024 := Rect.unit (s := S512x1024) ![0, 0] S512x1024.size inb_S512x1024_S512x1024_0_0
abbrev rRow1024 : Rect S1x1024 := Rect.unit (s := S1x1024) ![0, 0] S1x1024.size inb_S1x1024_S1x1024_0_0
abbrev rMatrix1 : Rect S1024x2048 := Rect.unit (s := S1024x2048) ![0, 0] S1024x2048.size inb_S1024x2048_S1024x2048_0_0
abbrev rRow2048 : Rect S1x2048 := Rect.unit (s := S1x2048) ![0, 0] S1x2048.size inb_S1x2048_S1x2048_0_0
abbrev rMatrix2 : Rect S2048x1024 := Rect.unit (s := S2048x1024) ![0, 0] S2048x1024.size inb_S2048x1024_S2048x1024_0_0
abbrev rOut : Rect S512x1024 := Rect.unit (s := S512x1024) ![0, 0] S512x1024.size inb_S512x1024_S512x1024_0_0

/-- The output's staging buffer after the body: its one store, over the whole block, of the normalised rows
    (of `x0` by the means `x1`, variances `x2`, gains `x3` and shifts `x4`) plus what the two matrix products
    (matrix `x5` with bias `x6`, a maximum with zero, matrix `x7`) make of them plus the bias `x8`. -/
def out (x0 : Vec F S512x1024 .f32) (x1 x2 x3 x4 : Vec F S1x1024 .f32) (x5 : Vec F S1024x2048 .bf16) (x6 : Vec F S1x2048 .f32)
    (x7 : Vec F S2048x1024 .bf16) (x8 : Vec F S1x1024 .f32) : Vec F S512x1024 .f32 :=
  View.canon [⟨rOut, k2_pay1 (k2_pay2 (View.ld x0 rRows) (View.ld x1 rRow1024) (View.ld x2 rRow1024) (View.ld x3 rRow1024) (View.ld x4 rRow1024)) (k2_pay3 (View.ld x8 rRow1024))
    (k2_pay4 (View.ld x0 rRows) (View.ld x1 rRow1024) (View.ld x2 rRow1024) (View.ld x3 rRow1024) (View.ld x4 rRow1024) (View.ld x5 rMatrix1) (View.ld x6 rRow2048) (View.ld x7 rMatrix2))⟩]

theorem cover (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

set_option maxHeartbeats 4000000 in
/-- The body on whole staging memrefs, the inputs' at `x0` … `x8` and the output's at anything, ends with the
    inputs' as they were and the output's at `out x0 … x8`. -/
theorem sound_kernel (c : Dev nD) (E : Set ℕ) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S512x1024 .f32) (harg10 : arg10.IsWhole)
    (x0 : Vec F S512x1024 .f32) (x1 x2 x3 x4 : Vec F S1x1024 .f32) (x5 : Vec F S1024x2048 .bf16) (x6 : Vec F S1x2048 .f32) (x7 : Vec F S2048x1024 .bf16) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out x0 x1 x2 x3 x4 x5 x6 x7 x8)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover _)

/-- The pipeline's proof data on core `c`: the arrays as the region finds them; after the body at point `t` each
    input's buffer at its block and the output's at `out` of the input blocks; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out (iblk V c 0 t) (iblk V c 1 t) (iblk V c 2 t) (iblk V c 3 t) (iblk V c 4 t) (iblk V c 5 t) (iblk V c 6 t) (iblk V c 7 t) (iblk V c 8 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = out (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg2.N) (d) : (dat V c).before 0 t d = iblk V c 0 t :=
  before_rows_of V (dat V c) (A_eq V c 0) (after_0 V c) t d
theorem before_1 (c : Dev nD) (t : Fin cfg2.N) (d) : (dat V c).before 1 t d = iblk V c 1 t :=
  before_mean_of V (dat V c) (A_eq V c 1) (after_1 V c) t d
theorem before_2 (c : Dev nD) (t : Fin cfg2.N) (d) : (dat V c).before 2 t d = iblk V c 2 t :=
  before_variance_of V (dat V c) (A_eq V c 2) (after_2 V c) t d
theorem before_3 (c : Dev nD) (t : Fin cfg2.N) (d) : (dat V c).before 3 t d = iblk V c 3 t :=
  before_gain_of V (dat V c) (A_eq V c 3) (after_3 V c) t d
theorem before_4 (c : Dev nD) (t : Fin cfg2.N) (d) : (dat V c).before 4 t d = iblk V c 4 t :=
  before_shift_of V (dat V c) (A_eq V c 4) (after_4 V c) t d
theorem before_5 (c : Dev nD) (t : Fin cfg2.N) (d) : (dat V c).before 5 t d = iblk V c 5 t :=
  before_matrix1_of V (dat V c) (A_eq V c 5) (after_5 V c) t d
theorem before_6 (c : Dev nD) (t : Fin cfg2.N) (d) : (dat V c).before 6 t d = iblk V c 6 t :=
  before_bias1_of V (dat V c) (A_eq V c 6) (after_6 V c) t d
theorem before_7 (c : Dev nD) (t : Fin cfg2.N) (d) : (dat V c).before 7 t d = iblk V c 7 t :=
  before_matrix2_of V (dat V c) (A_eq V c 7) (after_7 V c) t d
theorem before_8 (c : Dev nD) (t : Fin cfg2.N) (d) : (dat V c).before 8 t d = iblk V c 8 t :=
  before_bias2_of V (dat V c) (A_eq V c 8) (after_8 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t))

set_option maxHeartbeats 1000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Ffn

end
-- ==== Proof.KI.BnBody.lean ====
/-
  The fourth pallas_call: one grid axis of 64 points; point t reads rows 1024·t … 1024·t+1023 of the
  65536 × 1024 activations and four 1 × 1024 rows — the columns' means, their variances, a scale and a shift —
  and writes the same rows normalised column by column: (x − mean) · rsqrt(variance + ε) · scale + shift.
  Stated for any float instance: the block each window's staging buffer holds when the body is called, what the
  body leaves in the output's buffer (its one store over the whole block), the body's triple, and the pipeline's
  proof data at the contents V the region is entered with.
-/
import proofs.«144935_j30348238914117_1_alg».proof.Proof.Gen.KernelIdeal.Launch
import proofs.«144935_j30348238914117_1_alg».proof.Proof.Gen.KernelIdeal.Skeleton
import proofs.«144935_j30348238914117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds rows 1024·t … of the activations at every point. -/
theorem before_rows_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The means' staging buffer, filled once at the first point, holds the whole row of column means at every
    point: its block index never moves. -/
theorem before_mean_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the variances' buffer holds the whole row of column variances at every point. -/
theorem before_variance_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Likewise the scale's buffer holds the whole row of column scales at every point. -/
theorem before_scale_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Likewise the shift's buffer holds the whole row of column shifts at every point. -/
theorem before_shift_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rRows : Rect S1024x1024 := Rect.unit (s := S1024x1024) ![0, 0] S1024x1024.size inb_S1024x1024_S1024x1024_0_0
abbrev rCol : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output's staging buffer after the body: its one store, over the whole block, of the loaded rows
    normalised by the loaded means and variances, scaled and shifted. -/
def out (x0 : Vec F S1024x1024 .f32) (x1 x2 x3 x4 : Vec F S1x1024 .f32) : Vec F S1024x1024 .f32 :=
  View.canon [⟨rOut, k3_pay1 (View.ld x0 rRows) (View.ld x1 rCol) (View.ld x2 rCol) (View.ld x3 rCol) (View.ld x4 rCol)⟩]

theorem cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at x0 … x4 and the output's at anything, ends with the
    inputs' as they were and the output's at out x0 x1 x2 x3 x4. -/
theorem sound_kernel (c : Dev nD) (E : Set ℕ) (i : grid3.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole)
    (x0 : Vec F S1024x1024 .f32) (x1 x2 x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The pipeline's proof data on core c: the arrays as the region finds them; after the body at point t each
    input's buffer at its block and the output's at out of the input blocks; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) :
    (dat V c).after 5 t = out (iblk V c 0 t) (iblk V c 1 t) (iblk V c 2 t) (iblk V c 3 t) (iblk V c 4 t) := by dsimp only [dat]

theorem before_0 (c : Dev nD) (t : Fin cfg3.N) (d) : (dat V c).before 0 t d = iblk V c 0 t :=
  before_rows_of V (dat V c) (A_eq V c 0) (after_0 V c) t d
theorem before_1 (c : Dev nD) (t : Fin cfg3.N) (d) : (dat V c).before 1 t d = iblk V c 1 t :=
  before_mean_of V (dat V c) (A_eq V c 1) (after_1 V c) t d
theorem before_2 (c : Dev nD) (t : Fin cfg3.N) (d) : (dat V c).before 2 t d = iblk V c 2 t :=
  before_variance_of V (dat V c) (A_eq V c 2) (after_2 V c) t d
theorem before_3 (c : Dev nD) (t : Fin cfg3.N) (d) : (dat V c).before 3 t d = iblk V c 3 t :=
  before_scale_of V (dat V c) (A_eq V c 3) (after_3 V c) t d
theorem before_4 (c : Dev nD) (t : Fin cfg3.N) (d) : (dat V c).before 4 t d = iblk V c 4 t :=
  before_shift_of V (dat V c) (A_eq V c 4) (after_4 V c) t d

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid3.coords t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W3, bigSep_W3]
  exact sound_body V c t

end Cert.KernelIdeal.Bn

end
-- ==== Proof.KI.Run.lean ====
/-
  The whole program as eight items: four stretches of host operations and the four pallas calls between them.
  Between two items a core holds every unscoped buffer at a valuation: the launch contents, then each host
  stretch's operations applied, then, after a pallas call, that call's output array replaced by what its
  write-backs leave (`outs`). Each pallas call is entered from the valuation before it and left at the one after
  it; its proof data are taken at its entry contents. The launch reads every unscoped buffer back at the end, so
  the run names both the argument arrays (unchanged) and the last call's output array.
  Stated for any float instance.
-/
import proofs.«144935_j30348238914117_1_alg».proof.Proof.KI.QkvBody
import proofs.«144935_j30348238914117_1_alg».proof.Proof.KI.ProjBody
import proofs.«144935_j30348238914117_1_alg».proof.Proof.KI.FfnBody
import proofs.«144935_j30348238914117_1_alg».proof.Proof.KI.BnBody
import proofs.«144935_j30348238914117_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The valuations read at the TensorCore's references -/

/-- Entry contents of pallas call 0. -/
abbrev E1 : (c : Dev nD) → (b : Ref sig .tc) → Buf (Elt F) ((c : Thread nD τ).loc b) := fun c b => V1 m c b
/-- Exit contents of pallas call 0. -/
abbrev E2 : (c : Dev nD) → (b : Ref sig .tc) → Buf (Elt F) ((c : Thread nD τ).loc b) := fun c b => V2 m outs c b
/-- Entry contents of pallas call 1. -/
abbrev E3 : (c : Dev nD) → (b : Ref sig .tc) → Buf (Elt F) ((c : Thread nD τ).loc b) := fun c b => V3 m outs c b
/-- Exit contents of pallas call 1. -/
abbrev E4 : (c : Dev nD) → (b : Ref sig .tc) → Buf (Elt F) ((c : Thread nD τ).loc b) := fun c b => V4 m outs c b
/-- Entry contents of pallas call 2. -/
abbrev E5 : (c : Dev nD) → (b : Ref sig .tc) → Buf (Elt F) ((c : Thread nD τ).loc b) := fun c b => V5 m outs c b
/-- Exit contents of pallas call 2. -/
abbrev E6 : (c : Dev nD) → (b : Ref sig .tc) → Buf (Elt F) ((c : Thread nD τ).loc b) := fun c b => V6 m outs c b
/-- Entry contents of pallas call 3. -/
abbrev E7 : (c : Dev nD) → (b : Ref sig .tc) → Buf (Elt F) ((c : Thread nD τ).loc b) := fun c b => V7 m outs c b
/-- Exit contents of pallas call 3. -/
abbrev E8 : (c : Dev nD) → (b : Ref sig .tc) → Buf (Elt F) ((c : Thread nD τ).loc b) := fun c b => V8 m outs c b

/-- What `outs` must name: after each pallas call, the contents its write-backs leave in its output array, the
    call's proof data taken at its entry contents. -/
structure OutsOk : Prop where
  qkv : ∀ c, outs 2 main_v12 c = (Qkv.dat (E1 m) c).arrAt 2 cfg0.N
  proj : ∀ c, outs 4 main_v39 c = (Proj.dat (E3 m outs) c).arrAt 4 cfg1.N
  ffn : ∀ c, outs 6 main_v51 c = (Ffn.dat (E5 m outs) c).arrAt 9 cfg2.N
  bn : ∀ c, outs 8 main_v63 c = (Bn.dat (E7 m outs) c).arrAt 5 cfg3.N

/-- Every pipeline's proof data, each at its call's entry contents: a literal match on the pipeline. -/
def pdats : (p : Fin 4) → (c : Dev nD) → Dat τ (Elt F) Unit ℕ (UR sig nD τ) ℕ (Pipeline.pin (pcfgs (F := F)) adm p) c
  | ⟨0, _⟩ => fun c => Qkv.dat (E1 m) c
  | ⟨1, _⟩ => fun c => Proj.dat (E3 m outs) c
  | ⟨2, _⟩ => fun c => Ffn.dat (E5 m outs) c
  | ⟨3, _⟩ => fun c => Bn.dat (E7 m outs) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (V8 m outs c) ∗ ∃ r, prngReg c r)

/-! ## After a pallas call: its windows' arrays at the next valuation, every other buffer untouched -/

theorem arrs0 (h : OutsOk m outs) (c : Dev nD) (w : Fin cfg0.W) :
    (pdats m outs 0 c).arrAt w cfg0.N = E2 m outs c (Pipeline.arrRef spec0 w) :=
  match w with
  | ⟨0, _⟩ => (((Qkv.dat (E1 m) c).arrAt_in 0 rfl _).trans (Qkv.A_eq (E1 m) c 0)).trans (V2_of m outs c main_arg0 (by decide)).symm
  | ⟨1, _⟩ => (((Qkv.dat (E1 m) c).arrAt_in 1 rfl _).trans (Qkv.A_eq (E1 m) c 1)).trans (V2_of m outs c main_v1 (by decide)).symm
  | ⟨2, _⟩ => (h.qkv c).symm.trans (Function.update_self (Proc.devRef .tc main_v12) (outs 2 main_v12 c) (V1 m c)).symm
theorem rest0 (c : Dev nD) : ∀ b, b ∉ Finset.univ.image (Pipeline.arrRef spec0) → E2 m outs c b = E1 m c b :=
  fun b hb => V2_of m outs c b fun hm => hb (Finset.mem_image.mpr ⟨2, Finset.mem_univ _, (List.mem_singleton.mp hm).symm⟩)

set_option maxHeartbeats 1000000 in
theorem arrs1 (h : OutsOk m outs) (c : Dev nD) (w : Fin cfg1.W) :
    (pdats m outs 1 c).arrAt w cfg1.N = E4 m outs c (Pipeline.arrRef spec1 w) :=
  match w with
  | ⟨0, _⟩ => (((Proj.dat (E3 m outs) c).arrAt_in 0 rfl _).trans (Proj.A_eq (E3 m outs) c 0)).trans (V4_of m outs c main_arg0 (by decide)).symm
  | ⟨1, _⟩ => (((Proj.dat (E3 m outs) c).arrAt_in 1 rfl _).trans (Proj.A_eq (E3 m outs) c 1)).trans (V4_of m outs c main_v38 (by decide)).symm
  | ⟨2, _⟩ => (((Proj.dat (E3 m outs) c).arrAt_in 2 rfl _).trans (Proj.A_eq (E3 m outs) c 2)).trans (V4_of m outs c main_v2 (by decide)).symm
  | ⟨3, _⟩ => (((Proj.dat (E3 m outs) c).arrAt_in 3 rfl _).trans (Proj.A_eq (E3 m outs) c 3)).trans (V4_of m outs c main_v5 (by decide)).symm
  | ⟨4, _⟩ => (h.proj c).symm.trans (Function.update_self (Proc.devRef .tc main_v39) (outs 4 main_v39 c) (V3 m outs c)).symm
theorem rest1 (c : Dev nD) : ∀ b, b ∉ Finset.univ.image (Pipeline.arrRef spec1) → E4 m outs c b = E3 m outs c b :=
  fun b hb => V4_of m outs c b fun hm => hb (Finset.mem_image.mpr ⟨4, Finset.mem_univ _, (List.mem_singleton.mp hm).symm⟩)

set_option maxHeartbeats 4000000 in
theorem arrs2 (h : OutsOk m outs) (c : Dev nD) (w : Fin cfg2.W) :
    (pdats m outs 2 c).arrAt w cfg2.N = E6 m outs c (Pipeline.arrRef spec2 w) :=
  match w with
  | ⟨0, _⟩ => (((Ffn.dat (E5 m outs) c).arrAt_in 0 rfl _).trans (Ffn.A_eq (E5 m outs) c 0)).trans (V6_of m outs c main_v39 (by decide)).symm
  | ⟨1, _⟩ => (((Ffn.dat (E5 m outs) c).arrAt_in 1 rfl _).trans (Ffn.A_eq (E5 m outs) c 1)).trans (V6_of m outs c main_v43 (by decide)).symm
  | ⟨2, _⟩ => (((Ffn.dat (E5 m outs) c).arrAt_in 2 rfl _).trans (Ffn.A_eq (E5 m outs) c 2)).trans (V6_of m outs c main_v50 (by decide)).symm
  | ⟨3, _⟩ => (((Ffn.dat (E5 m outs) c).arrAt_in 3 rfl _).trans (Ffn.A_eq (E5 m outs) c 3)).trans (V6_of m outs c main_v6 (by decide)).symm
  | ⟨4, _⟩ => (((Ffn.dat (E5 m outs) c).arrAt_in 4 rfl _).trans (Ffn.A_eq (E5 m outs) c 4)).trans (V6_of m outs c main_v7 (by decide)).symm
  | ⟨5, _⟩ => (((Ffn.dat (E5 m outs) c).arrAt_in 5 rfl _).trans (Ffn.A_eq (E5 m outs) c 5)).trans (V6_of m outs c main_v3 (by decide)).symm
  | ⟨6, _⟩ => (((Ffn.dat (E5 m outs) c).arrAt_in 6 rfl _).trans (Ffn.A_eq (E5 m outs) c 6)).trans (V6_of m outs c main_v8 (by decide)).symm
  | ⟨7, _⟩ => (((Ffn.dat (E5 m outs) c).arrAt_in 7 rfl _).trans (Ffn.A_eq (E5 m outs) c 7)).trans (V6_of m outs c main_v4 (by decide)).symm
  | ⟨8, _⟩ => (((Ffn.dat (E5 m outs) c).arrAt_in 8 rfl _).trans (Ffn.A_eq (E5 m outs) c 8)).trans (V6_of m outs c main_v9 (by decide)).symm
  | ⟨9, _⟩ => (h.ffn c).symm.trans (Function.update_self (Proc.devRef .tc main_v51) (outs 6 main_v51 c) (V5 m outs c)).symm
theorem rest2 (c : Dev nD) : ∀ b, b ∉ Finset.univ.image (Pipeline.arrRef spec2) → E6 m outs c b = E5 m outs c b :=
  fun b hb => V6_of m outs c b fun hm => hb (Finset.mem_image.mpr ⟨9, Finset.mem_univ _, (List.mem_singleton.mp hm).symm⟩)

set_option maxHeartbeats 4000000 in
theorem arrs3 (h : OutsOk m outs) (c : Dev nD) (w : Fin cfg3.W) :
    (pdats m outs 3 c).arrAt w cfg3.N = E8 m outs c (Pipeline.arrRef spec3 w) :=
  match w with
  | ⟨0, _⟩ => (((Bn.dat (E7 m outs) c).arrAt_in 0 rfl _).trans (Bn.A_eq (E7 m outs) c 0)).trans (V8_of m outs c main_v51 (by decide)).symm
  | ⟨1, _⟩ => (((Bn.dat (E7 m outs) c).arrAt_in 1 rfl _).trans (Bn.A_eq (E7 m outs) c 1)).trans (V8_of m outs c main_v55 (by decide)).symm
  | ⟨2, _⟩ => (((Bn.dat (E7 m outs) c).arrAt_in 2 rfl _).trans (Bn.A_eq (E7 m outs) c 2)).trans (V8_of m outs c main_v62 (by decide)).symm
  | ⟨3, _⟩ => (((Bn.dat (E7 m outs) c).arrAt_in 3 rfl _).trans (Bn.A_eq (E7 m outs) c 3)).trans (V8_of m outs c main_v10 (by decide)).symm
  | ⟨4, _⟩ => (((Bn.dat (E7 m outs) c).arrAt_in 4 rfl _).trans (Bn.A_eq (E7 m outs) c 4)).trans (V8_of m outs c main_v11 (by decide)).symm
  | ⟨5, _⟩ => (h.bn c).symm.trans (Function.update_self (Proc.devRef .tc main_v63) (outs 8 main_v63 c) (V7 m outs c)).symm
theorem rest3 (c : Dev nD) : ∀ b, b ∉ Finset.univ.image (Pipeline.arrRef spec3) → E8 m outs c b = E7 m outs c b :=
  fun b hb => V8_of m outs c b fun hm => hb (Finset.mem_image.mpr ⟨5, Finset.mem_univ _, (List.mem_singleton.mp hm).symm⟩)

/-! ## The pallas calls as items

Each call: entered with every unscoped buffer at its entry valuation, left with them at its exit valuation. Its
windows' arrays are split out of the unscoped buffers and put back at what the write-backs leave; the generator
register goes into the pipeline's invariant and comes back; nothing is owed; the kernel has no semaphore of its own. -/

-- a library lemma stated over the pinned configuration unifies with the printed one only when unification may
-- unfold plain definitions in a metavariable's type
set_option backward.isDefEq.respectTransparency.types false in
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E1 m c) (E2 m outs c) ((pdats m outs 0 c).arrAt · cfg0.N) (arrs0 m outs h c) (rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (E3 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (E3 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (E3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (E3 m outs c) (E4 m outs c) ((pdats m outs 1 c).arrAt · cfg1.N) (arrs1 m outs h c) (rest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (Ffn.body_obligation (E5 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (E5 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E5 m outs c) (E6 m outs c) ((pdats m outs 2 c).arrAt · cfg2.N) (arrs2 m outs h c) (rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (Bn.body_obligation (E7 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(Tₙ m outs c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (E7 m outs c) (E8 m outs c) ((pdats m outs 3 c).arrAt · cfg3.N) (arrs3 m outs h c) (rest3 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs (h : OutsOk m outs) : List (Pipeline.Seg (pcfgs (F := F)) adm (pdats m outs) () defs₀ 𝒱₀ L lv) :=
  [ .host (hseg hostOps0 hostOps0_sub hostOps0_fresh (V0 m)),
    .region (reg0 m outs h),
    .host (hseg hostOps1 hostOps1_sub hostOps1_fresh (V2 m outs)),
    .region (reg1 m outs h),
    .host (hseg hostOps2 hostOps2_sub hostOps2_fresh (V4 m outs)),
    .region (reg2 m outs h),
    .host (hseg hostOps3 hostOps3_sub hostOps3_fresh (V6 m outs)),
    .region (reg3 m outs h) ]

-- the launch theorem's implicit arguments are found by unifying its conclusion with this one, which takes unfolding
-- plain definitions in a metavariable's type
set_option backward.isDefEq.respectTransparency.types false in
/-- From any memory with zero counters every weakly fair execution of the program terminates, nothing faulting, and
    the final memory holds every unscoped buffer at the last valuation. -/
theorem run_all (h : OutsOk m outs) :
    θ_run defs (onTc (τ := τ) (main (F := F))) ⟨m, fun _ => 0, ρ⟩
      (fun r => ∀ c : Dev nD, ∀ b ∈ Pipeline.ucRefs τ sig, r.2.mem (((c : Thread nD τ)).1, b) = V8 m outs c b) :=
  Pipeline.θ_run_regions_kit (pcfgs (F := F)) adm (pdats m outs) () cellOf_inj emb₁ defs₀ 𝒱₀ L lv m ρ main (segs m outs h)
    (fun c Q => by
      rewrite [main_chain c, Pipeline.Seg.run_eq_chain,
        show (segs m outs h).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m outs)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m outs c b)
    (hfin := fun c s' => by
      iintro ⟨⟨Hh, -⟩, HSI⟩
      unfold StableHlo.held
      imodintro
      iapply (pointsTo_read_all (Pipeline.ucRefs τ sig) (fun b => (((c : Thread nD τ)).1, b)) (V8 m outs c) s')
      isplitl [Hh] <;> iassumption)
    (hQ := fun s h => h)

/-- The frame: every argument array ends as launched. No host stretch writes an argument and no pallas call's
    output array is one. -/
theorem frame (h : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r hr c =>
    ⟨(hr c _ (mem_uc main_arg0 (by decide))).trans (V8_main_arg0 m outs c),
     (hr c _ (mem_uc main_arg1 (by decide))).trans (V8_main_arg1 m outs c),
     (hr c _ (mem_uc main_arg2 (by decide))).trans (V8_main_arg2 m outs c),
     (hr c _ (mem_uc main_arg3 (by decide))).trans (V8_main_arg3 m outs c),
     (hr c _ (mem_uc main_arg4 (by decide))).trans (V8_main_arg4 m outs c),
     (hr c _ (mem_uc main_arg5 (by decide))).trans (V8_main_arg5 m outs c),
     (hr c _ (mem_uc main_arg6 (by decide))).trans (V8_main_arg6 m outs c),
     (hr c _ (mem_uc main_arg7 (by decide))).trans (V8_main_arg7 m outs c),
     (hr c _ (mem_uc main_arg8 (by decide))).trans (V8_main_arg8 m outs c),
     (hr c _ (mem_uc main_arg9 (by decide))).trans (V8_main_arg9 m outs c),
     (hr c _ (mem_uc main_arg10 (by decide))).trans (V8_main_arg10 m outs c),
     (hr c _ (mem_uc main_arg11 (by decide))).trans (V8_main_arg11 m outs c),
     (hr c _ (mem_uc main_arg12 (by decide))).trans (V8_main_arg12 m outs c),
     (hr c _ (mem_uc main_arg13 (by decide))).trans (V8_main_arg13 m outs c)⟩)
    (run_all m ρ outs h)

/-- The last pallas call's output array after the run is what `outs` names for it. -/
theorem result (h : OutsOk m outs) :
    θ_run defs (onTc (τ := τ) (main (F := F))) ⟨m, fun _ => 0, ρ⟩ (fun r => ∀ c : Dev nD,
      r.2.mem ((c.tc : Thread nD τ).loc main_v63) = outs 8 main_v63 c) :=
  (θ_run defs _ _).mono (fun r hr c =>
    (hr c _ (mem_uc main_v63 (by decide))).trans (Function.update_self (Proc.devRef .tc main_v63) (outs 8 main_v63 c) (V7 m outs c)))
    (run_all m ρ outs h)

/-- The run with both read off: the last pallas call's output array is what `outs` names for it, and every argument
    array ends as launched. -/
theorem run_value (h : OutsOk m outs) :
    θ_run defs (onTc (τ := τ) (main (F := F))) ⟨m, fun _ => 0, ρ⟩ (fun r => ∀ c : Dev nD,
      r.2.mem ((c.tc : Thread nD τ).loc main_v63) = outs 8 main_v63 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r hr c =>
    ⟨(hr c _ (mem_uc main_v63 (by decide))).trans (Function.update_self (Proc.devRef .tc main_v63) (outs 8 main_v63 c) (V7 m outs c)),
     (hr c _ (mem_uc main_arg0 (by decide))).trans (V8_main_arg0 m outs c),
     (hr c _ (mem_uc main_arg1 (by decide))).trans (V8_main_arg1 m outs c),
     (hr c _ (mem_uc main_arg2 (by decide))).trans (V8_main_arg2 m outs c),
     (hr c _ (mem_uc main_arg3 (by decide))).trans (V8_main_arg3 m outs c),
     (hr c _ (mem_uc main_arg4 (by decide))).trans (V8_main_arg4 m outs c),
     (hr c _ (mem_uc main_arg5 (by decide))).trans (V8_main_arg5 m outs c),
     (hr c _ (mem_uc main_arg6 (by decide))).trans (V8_main_arg6 m outs c),
     (hr c _ (mem_uc main_arg7 (by decide))).trans (V8_main_arg7 m outs c),
     (hr c _ (mem_uc main_arg8 (by decide))).trans (V8_main_arg8 m outs c),
     (hr c _ (mem_uc main_arg9 (by decide))).trans (V8_main_arg9 m outs c),
     (hr c _ (mem_uc main_arg10 (by decide))).trans (V8_main_arg10 m outs c),
     (hr c _ (mem_uc main_arg11 (by decide))).trans (V8_main_arg11 m outs c),
     (hr c _ (mem_uc main_arg12 (by decide))).trans (V8_main_arg12 m outs c),
     (hr c _ (mem_uc main_arg13 (by decide))).trans (V8_main_arg13 m outs c)⟩)
    (run_all m ρ outs h)

/-! ## Contents that satisfy `OutsOk`: defined call by call, each from the valuation before it -/

/-- After pallas call 0. -/
def w2 (c : Dev nD) : Valuation τ sig (Elt F) :=
  Function.update (V1 m c) (Proc.devRef .tc main_v12) ((Qkv.dat (E1 m) c).arrAt 2 cfg0.N)
/-- After the second host stretch. -/
def w3 (c : Dev nD) : Valuation τ sig (Elt F) := StableHlo.after hostOps1 (w2 m c)
/-- The same read at the TensorCore's references. -/
abbrev e3 : (c : Dev nD) → (b : Ref sig .tc) → Buf (Elt F) ((c : Thread nD τ).loc b) := fun c b => w3 m c b
/-- After pallas call 1. -/
def w4 (c : Dev nD) : Valuation τ sig (Elt F) :=
  Function.update (w3 m c) (Proc.devRef .tc main_v39) ((Proj.dat (e3 m) c).arrAt 4 cfg1.N)
/-- After the third host stretch. -/
def w5 (c : Dev nD) : Valuation τ sig (Elt F) := StableHlo.after hostOps2 (w4 m c)
/-- The same read at the TensorCore's references. -/
abbrev e5 : (c : Dev nD) → (b : Ref sig .tc) → Buf (Elt F) ((c : Thread nD τ).loc b) := fun c b => w5 m c b
/-- After pallas call 2. -/
def w6 (c : Dev nD) : Valuation τ sig (Elt F) :=
  Function.update (w5 m c) (Proc.devRef .tc main_v51) ((Ffn.dat (e5 m) c).arrAt 9 cfg2.N)
/-- After the fourth host stretch. -/
def w7 (c : Dev nD) : Valuation τ sig (Elt F) := StableHlo.after hostOps3 (w6 m c)
/-- The same read at the TensorCore's references. -/
abbrev e7 : (c : Dev nD) → (b : Ref sig .tc) → Buf (Elt F) ((c : Thread nD τ).loc b) := fun c b => w7 m c b
/-- After pallas call 3. -/
def w8 (c : Dev nD) : Valuation τ sig (Elt F) :=
  Function.update (w7 m c) (Proc.devRef .tc main_v63) ((Bn.dat (e7 m) c).arrAt 5 cfg3.N)

/-- The contents the pallas calls leave, read off those valuations. -/
def theOuts : Outs (F := F) := fun j r c =>
  match j with
  | 2 => w2 m c r
  | 4 => w4 m c r
  | 6 => w6 m c r
  | 8 => w8 m c r
  | _ => V1 m c r

theorem V2_theOuts : V2 m (theOuts m) = w2 m := by
  funext c
  show Function.update (V1 m c) (Proc.devRef .tc main_v12) (w2 m c (Proc.devRef .tc main_v12)) = w2 m c
  unfold w2; rw [Function.update_self]
theorem V3_theOuts : V3 m (theOuts m) = w3 m := by
  funext c
  show StableHlo.after hostOps1 (V2 m (theOuts m) c) = w3 m c
  rw [V2_theOuts]; rfl
theorem V4_theOuts : V4 m (theOuts m) = w4 m := by
  funext c
  show Function.update (V3 m (theOuts m) c) (Proc.devRef .tc main_v39) (w4 m c (Proc.devRef .tc main_v39)) = w4 m c
  rw [V3_theOuts]; unfold w4; rw [Function.update_self]
theorem V5_theOuts : V5 m (theOuts m) = w5 m := by
  funext c
  show StableHlo.after hostOps2 (V4 m (theOuts m) c) = w5 m c
  rw [V4_theOuts]; rfl
theorem V6_theOuts : V6 m (theOuts m) = w6 m := by
  funext c
  show Function.update (V5 m (theOuts m) c) (Proc.devRef .tc main_v51) (w6 m c (Proc.devRef .tc main_v51)) = w6 m c
  rw [V5_theOuts]; unfold w6; rw [Function.update_self]
theorem V7_theOuts : V7 m (theOuts m) = w7 m := by
  funext c
  show StableHlo.after hostOps3 (V6 m (theOuts m) c) = w7 m c
  rw [V6_theOuts]; rfl

theorem theOuts_ok : OutsOk m (theOuts m) where
  qkv c := by
    show w2 m c (Proc.devRef .tc main_v12) = _
    unfold w2; rw [Function.update_self]
  proj c := by
    show w4 m c (Proc.devRef .tc main_v39) = _
    unfold w4; rw [Function.update_self]
    rw [show E3 m (theOuts m) = e3 m from by funext c b; show V3 m (theOuts m) c (Proc.devRef .tc b) = w3 m c (Proc.devRef .tc b); rw [V3_theOuts]]
  ffn c := by
    show w6 m c (Proc.devRef .tc main_v51) = _
    unfold w6; rw [Function.update_self]
    rw [show E5 m (theOuts m) = e5 m from by funext c b; show V5 m (theOuts m) c (Proc.devRef .tc b) = w5 m c (Proc.devRef .tc b); rw [V5_theOuts]]
  bn c := by
    show w8 m c (Proc.devRef .tc main_v63) = _
    unfold w8; rw [Function.update_self]
    rw [show E7 m (theOuts m) = e7 m from by funext c b; show V7 m (theOuts m) c (Proc.devRef .tc b) = w7 m c (Proc.devRef .tc b); rw [V7_theOuts]]

end Cert.KernelIdeal.Whole

end
-- ==== Proof.KI.QkvValue.lean ====
/-
  The first pallas_call at the ideal instance, as one array: the output holds, at row r and column n, the sum
  over k of the activations at (r, k) times the weights at (k, n). A float is an extended real there, the two
  changes of format in the body are the identity, and the body's product into a zero accumulator is the plain sum
  of products. Grid point t writes rows 512·t … 512·t+511 of that array, and the 128 points' row blocks cover it.
-/
import proofs.«144935_j30348238914117_1_alg».proof.Proof.KI.QkvBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Qkv

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The body's product at one index -/

/-- The left operand's index at output index `i` and contraction index `q`: its row is the output's row, -/
theorem lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- its column the contraction index; -/
theorem lhs_contr (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- the right operand's row is the contraction index, -/
theorem rhs_contr (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- its column the output's column. -/
theorem rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- What the body stores, at row `p` and column `n` of the block: the sum over `k` of the loaded rows at (p, k)
    times the loaded weights at (k, n). -/
theorem pay_apply (x0 : Vec Ideal S512x1024 .f32) (x1 : Vec Ideal S1024x3072 .bf16) (p : Fin 512) (n : Fin 3072) :
    k0_pay1 (F := Ideal) x0 x1 (ix2 p n) = ∑ k : Fin 1024, (x0 (ix2 p k) : EReal) * (x1 (ix2 k n) : EReal) := by
  unfold k0_pay1
  rw [shapeCast_self]
  refine (Ideal.matmul_constant_zero_apply (φ₁ := .bf16) (φ₂ := .bf16) dot_S512x1024_S1024x3072_S512x3072_1_0_0_1_n_n none
    (truncf .bf16 x0 bitsLt_bf16_f32) x1 (ix2 p n)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p n) ((ValueIdx.contrEquiv1 dot_S512x1024_S1024x3072_S512x3072_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x3072_S512x3072_1_0_0_1_n_n.rhsIdx (ix2 p n) ((ValueIdx.contrEquiv1 dot_S512x1024_S1024x3072_S512x3072_1_0_0_1_n_n 1024 rfl rfl).symm k) = ix2 k n := funext fun a => Fin.ext (by
    match a with
    | ⟨0, _⟩ => exact (rhs_contr _ _).trans hk
    | ⟨1, _⟩ => exact rhs_col _ _)
  rw [el, er]
  rfl

/-! ## From the row blocks to the array -/

-- the core's buffer contents when the region is entered, at the ideal instance
variable (V : (c : Dev nD) → (b : Ref sig .tc) → Buf (Elt Ideal) ((c : Thread nD τ).loc b))

/-- The activations as the region finds them, a 65536 × 1024 array of extended reals, -/
abbrev rowsArr (c : Dev nD) : Vec Ideal S65536x1024 .f32 := V c main_arg0
/-- and the weights, 1024 × 3072. -/
abbrev weightsArr (c : Dev nD) : Vec Ideal S1024x3072 .bf16 := V c main_v1

/-- The product of the two: at (r, n) the sum over k of activations (r, k) times weights (k, n). -/
abbrev prodArr (c : Dev nD) : S65536x3072.Idx → EReal :=
  fun i => ∑ k : Fin 1024, (rowsArr V c (ix2 (i 0) k) : EReal) * (weightsArr V c (ix2 k (i 1)) : EReal)

theorem zero_off : (![0, 0] : Fin 2 → Nat) = fun _ => 0 := funext fun a => by fin_cases a <;> rfl

/-- The printed index maps over the grid: at point `t` the activations' and the output's blocks are row block `t`,
    column block 0; the weights' block is always (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t`, at (p, k), is the activations at row 512·t + p, column k. -/
theorem rows_blk (c : Dev nD) (t : Fin cfg0.N) (p : Fin 512) (k : Fin 1024) (r : Fin 65536) (hr : r.val = t.val * 512 + p.val) :
    (iblk V c 0 t : Vec Ideal S512x1024 .f32) (ix2 p k) = rowsArr V c (ix2 r k) := by
  obtain ⟨e0, e1, -⟩ := index_maps t
  unfold iblk
  rw [View.read_apply]
  show V c main_arg0 _ = V c main_arg0 _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- The weights' block at every point is the whole weight matrix. -/
theorem weights_blk (c : Dev nD) (t : Fin cfg0.N) (k : Fin 1024) (n : Fin 3072) :
    (iblk V c 1 t : Vec Ideal S1024x3072 .bf16) (ix2 k n) = weightsArr V c (ix2 k n) := by
  obtain ⟨-, -, e2, e3, -⟩ := index_maps t
  unfold iblk
  rw [View.read_apply]
  show V c main_v1 _ = V c main_v1 _
  congr 1
  funext a
  apply Fin.ext
  match a with
  | ⟨0, _⟩ => show win0_1.index t (0 : Fin 2) * 1024 + 1 * k.val = k.val; omega
  | ⟨1, _⟩ => show win0_1.index t (1 : Fin 2) * 3072 + 1 * n.val = n.val; omega

/-- The output's block at point `t` sits at rows 512·t …: its local (p, n) is the array's (512·t + p, n). -/
theorem out_emb (t : Fin cfg0.N) (p : Fin 512) (n : Fin 3072) (r : Fin 65536) (hr : r.val = t.val * 512 + p.val) :
    (((cfg0.win 2).blk t).view.emb (ix2 p n) : S65536x3072.Idx) = ix2 r n := by
  obtain ⟨-, -, -, -, e4, e5⟩ := index_maps t
  funext a
  apply Fin.ext
  match a with
  | ⟨0, _⟩ => show win0_2.index t (0 : Fin 2) * 512 + 1 * p.val = r.val; omega
  | ⟨1, _⟩ => show win0_2.index t (1 : Fin 2) * 3072 + 1 * n.val = n.val; omega

/-- What point `t` writes back is block `t` of the product array. -/
theorem flushed_eq (c : Dev nD) (t : Fin cfg0.N) :
    (dat (F := Ideal) V c).flushed 2 t = ((cfg0.win 2).blk t).view.read (Elt Ideal) (prodArr V c) := by
  show (cfg0.win 2).cut (grid0.coords t) ((dat V c).after 2 t) = _
  rw [after_2]
  unfold out
  rw [View.canon_unit_zero zero_off]
  simp only [View.ld_unit_zero (S := S512x1024) zero_off, View.ld_unit_zero (S := S1024x3072) zero_off]
  funext j
  obtain ⟨p, n, rfl⟩ : ∃ (p : Fin 512) (n : Fin 3072), j = ix2 p n := ⟨j 0, j 1, eq_ix2 j⟩
  have ht : t.val < 128 := lt_of_lt_of_eq t.isLt N_0
  have hr : t.val * 512 + p.val < 65536 := by have := p.isLt; omega
  show k0_pay1 (iblk V c 0 t) (iblk V c 1 t) (ix2 p n) = prodArr V c (((cfg0.win 2).blk t).view.emb (ix2 p n))
  rw [out_emb t p n ⟨_, hr⟩ rfl]
  refine (pay_apply _ _ p n).trans ?_
  refine Finset.sum_congr rfl fun k _ => ?_
  exact congrArg₂ (fun a b : EReal => a * b) (rows_blk V c t p k ⟨_, hr⟩ rfl) (weights_blk V c t k n)

/-- An index of the output array is in point `t`'s block iff each coordinate is in the block's range on its axis. -/
theorem mem_blk (t : Fin cfg0.N) (i : S65536x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v12).slice (win0_2.rect t)).set ↔ _
  rw [View.set_slice_whole, Rect.mem_set_unit]
  exact Iff.rfl

/-- Every index of the output array is in some point's block: row r is in the block of point r / 512, and every
    point writes its block back. -/
theorem rows_cover (i : S65536x3072.Idx) :
    ∃ t : Fin cfg0.N, (cfg0.win 2).flush t = true ∧ i ∈ ((cfg0.win 2).blk t).view.set := by
  have hi0 : (i 0).val < 65536 := (i 0).isLt
  have hi1 : (i 1).val < 3072 := (i 1).isLt
  have hN : cfg0.N = 128 := N_0
  have hq : (i 0).val / 512 < cfg0.N := by rw [hN]; omega
  obtain ⟨-, -, -, -, e4, e5⟩ := index_maps ⟨(i 0).val / 512, hq⟩
  refine ⟨⟨(i 0).val / 512, hq⟩, flush0_2 _, ?_⟩
  rw [mem_blk]
  intro a
  match a with
  | ⟨0, _⟩ =>
    show win0_2.index ⟨(i 0).val / 512, hq⟩ (0 : Fin 2) * 512 ≤ (i 0).val ∧ (i 0).val < win0_2.index ⟨(i 0).val / 512, hq⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hq⟩ (1 : Fin 2) * 3072 ≤ (i 1).val ∧ (i 1).val < win0_2.index ⟨(i 0).val / 512, hq⟩ (1 : Fin 2) * 3072 + 3072
    omega

/-- The output array after the run is the product of the activations and the weights. -/
theorem final (c : Dev nD) : (dat (F := Ideal) V c).arrAt 2 cfg0.N
    = fun i : S65536x3072.Idx => ∑ k : Fin 1024, rowsArr V c (ix2 (i 0) k) * weightsArr V c (ix2 k (i 1)) :=
  (dat (F := Ideal) V c).arrAt_eq_of_cover 2 (prodArr V c) (fun t _ => flushed_eq V c t) rows_cover

end Cert.KernelIdeal.Qkv

end
-- ==== Proof.KI.BridgeMix.lean ====
/-
  Between the first and the second pallas_call the program computes, on the host, attention from the three
  projections: scores, softmax over the last axis, the mix with V. This module is about the part from the scores on:
  the row maximum (started from −∞), the scores minus it, the exponential, the row sum (started from 0), the
  quotient, the product with V over the 16 positions of each head, and the reshape of the 16 heads × 64 back to 1024
  columns. The reference applies the same operations in the same order to its own scores and its own V; so when the
  two programs' scores agree and their V agree, so do the mixed outputs.
-/
import proofs.«144935_j30348238914117_1_alg».proof.Proof.RefReadP
import proofs.«144935_j30348238914117_1_alg».proof.Proof.Gen.KernelIdeal.Regions
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe
open Idealize.SL.Sem

variable (m : (ℓ : Loc nD τ sig) → Buf (Elt Ideal) ℓ) (outs : Outs (F := Ideal)) (c : Dev nD)

/-- The second host stretch cut where the scores are written: its first thirteen operations, then the seventeen of
    the softmax and the mix. -/
theorem mix_V3_cut : V3 m outs c = StableHlo.after ((hostOps1 (F := Ideal)).drop 13) (StableHlo.after ((hostOps1 (F := Ideal)).take 13) (V2 m outs c)) := by
  show StableHlo.after hostOps1 (V2 m outs c) = _
  rw [← StableHlo.after_append, List.take_append_drop]

open Idealize.ShloMosaic.StableHlo in
/-- With the reference's scores in the scores' array and the reference's V in V's array, the array of the mixed
    heads, back at 65536 × 1024, holds the reference's: from there on the two programs apply the same operations
    (row maximum from −∞, subtraction, exponential, row sum from 0, quotient, product with V, reshape) to the same
    two arrays. -/
theorem mix_eq
    (hs : V3 m outs c (Proc.devRef .tc main_v24) = Cert.ReferenceIdeal.ReadP.val_main_v8 (F := Ideal) (m ((c.tc : Thread nD τ).loc main_arg0)) (m ((c.tc : Thread nD τ).loc main_arg1)) (m ((c.tc : Thread nD τ).loc main_arg2)))
    (hv : V3 m outs c (Proc.devRef .tc main_v21) = Cert.ReferenceIdeal.ReadP.val_main_v5 (F := Ideal) (m ((c.tc : Thread nD τ).loc main_arg0)) (m ((c.tc : Thread nD τ).loc main_arg3))) :
    V3 m outs c (Proc.devRef .tc main_v37) = Cert.ReferenceIdeal.ReadP.val_main_v21 (F := Ideal) (m ((c.tc : Thread nD τ).loc main_arg0)) (m ((c.tc : Thread nD τ).loc main_arg1)) (m ((c.tc : Thread nD τ).loc main_arg2)) (m ((c.tc : Thread nD τ).loc main_arg3)) := by
  rw [mix_V3_cut] at hs hv ⊢
  generalize StableHlo.after ((hostOps1 (F := Ideal)).take 13) (V2 m outs c) = W at hs hv ⊢
  simp only [hostOps1, List.drop_succ_cons, List.drop_zero] at hs hv ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hs hv ⊢
  rw [hs, hv]
  unfold Cert.ReferenceIdeal.ReadP.val_main_v21 Cert.ReferenceIdeal.ReadP.val_main_v20 Cert.ReferenceIdeal.ReadP.val_main_v19
    Cert.ReferenceIdeal.ReadP.val_main_v18 Cert.ReferenceIdeal.ReadP.val_main_v17 Cert.ReferenceIdeal.ReadP.val_main_v16
    Cert.ReferenceIdeal.ReadP.val_main_v15 Cert.ReferenceIdeal.ReadP.val_main_v14 Cert.ReferenceIdeal.ReadP.val_main_v13
    Cert.ReferenceIdeal.ReadP.val_main_v12 Cert.ReferenceIdeal.ReadP.val_main_v11 Cert.ReferenceIdeal.ReadP.val_main_v10
    Cert.ReferenceIdeal.ReadP.val_main_v9 Cert.ReferenceIdeal.ReadP.val_main_cst_0 Cert.ReferenceIdeal.ReadP.val_main_cst_1
    Cert.ReferenceIdeal.ReadP.val_main_cst_2
  generalize Cert.ReferenceIdeal.ReadP.val_main_v8 (F := Ideal) (m ((c.tc : Thread nD τ).loc main_arg0)) (m ((c.tc : Thread nD τ).loc main_arg1)) (m ((c.tc : Thread nD τ).loc main_arg2)) = s
  generalize Cert.ReferenceIdeal.ReadP.val_main_v5 (F := Ideal) (m ((c.tc : Thread nD τ).loc main_arg0)) (m ((c.tc : Thread nD τ).loc main_arg3)) = v
  rfl

end Cert.KernelIdeal.Bridge

end
-- ==== Proof.KI.BridgeAttn.lean ====
/-
  The attention part of the kernel program equals the reference's, at the ideal instance.

  The first pallas_call leaves the activations times the three projection matrices laid side by side, a
  65536 × 3072 array. Cutting it back into three bands of 1024 columns and reading each band as 65536 × 16 × 64
  gives the reference's Q, K and V: column 1024·b + col of the stacked weights is column col of matrix b, so the
  band's sum over k is the reference's own product. The scores are the same batched product of Q and K, scaled by
  the constant 1/8 on one side and divided by the constant 8 on the other, which agree on every extended real.
  From the scores and V on, both sides apply the same operations.
-/
import proofs.«144935_j30348238914117_1_alg».proof.Proof.Gen.KernelIdeal.Regions
import proofs.«144935_j30348238914117_1_alg».proof.Proof.KI.QkvValue
import proofs.«144935_j30348238914117_1_alg».proof.Proof.RefReadP
import proofs.«144935_j30348238914117_1_alg».proof.Proof.KI.BridgeMix
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.ValueIdx
open Cert.ReferenceIdeal (ReadP.val_main_v0 ReadP.val_main_v1 ReadP.val_main_v2 ReadP.val_main_v3 ReadP.val_main_v4 ReadP.val_main_v5 ReadP.val_main_v6 ReadP.val_main_v7 ReadP.val_main_v8 ReadP.val_main_v21)
open scoped BigOperators

/-! ## The two scaling constants -/

/-- The word 0x3E000000 denotes the real 1/8. -/
theorem attn_ofBits_eighth : Ideal.ofBits .f32 0x3E000000#32 = ((1 / 8 : ℝ) : EReal) := by
  simp [Ideal.ofBits, Ideal.ieee, -EReal.coe_mul]; norm_num

/-- The word 0x41000000 denotes the real 8. -/
theorem attn_ofBits_eight : Ideal.ofBits .f32 0x41000000#32 = ((8 : ℝ) : EReal) := by
  simp [Ideal.ofBits, Ideal.ieee, -EReal.coe_mul]; norm_num

/-- Scaling by 1/8 is dividing by 8, on every extended real. -/
theorem attn_mul_eighth_eq_div_eight (a : EReal) :
    a * Ideal.ofBits .f32 0x3E000000#32 = Ideal.div a (Ideal.ofBits .f32 0x41000000#32) := by
  rw [attn_ofBits_eighth, attn_ofBits_eight, Ideal.div_coe (by norm_num : (8 : ℝ) ≠ 0)]

/-! ## The stacked weights at a column of band b -/

/-- Column 1024·b + col of the three matrices laid side by side is column col of matrix b. -/
theorem attn_stack_apply (w1 w2 w3 : Vec Ideal S1024x1024 .f32) (k col : Fin 1024) :
    (∀ n : Fin 3072, n.val = col.val →
      concatenate S1024x3072 1 [⟨S1024x1024, w1⟩, ⟨S1024x1024, w2⟩, ⟨S1024x1024, w3⟩]
        concatenates_S1024x1024_S1024x1024_S1024x1024_S1024x3072_d1 (ix2 k n) = w1 (ix2 k col))
    ∧ (∀ n : Fin 3072, n.val = 1024 + col.val →
      concatenate S1024x3072 1 [⟨S1024x1024, w1⟩, ⟨S1024x1024, w2⟩, ⟨S1024x1024, w3⟩]
        concatenates_S1024x1024_S1024x1024_S1024x1024_S1024x3072_d1 (ix2 k n) = w2 (ix2 k col))
    ∧ (∀ n : Fin 3072, n.val = 2048 + col.val →
      concatenate S1024x3072 1 [⟨S1024x1024, w1⟩, ⟨S1024x1024, w2⟩, ⟨S1024x1024, w3⟩]
        concatenates_S1024x1024_S1024x1024_S1024x1024_S1024x3072_d1 (ix2 k n) = w3 (ix2 k col)) := by
  refine ⟨fun n hn => ?_, fun n hn => ?_, fun n hn => ?_⟩
  · refine concatenate_apply_piece (1 : Fin S1024x3072.rank) _ _ (ix2 k n) 0 (by simp) S1024x1024 w1 rfl rfl 0 rfl (ix2 k col)
      (fun b hb => ?_) ?_
    · match b with
      | ⟨0, _⟩ => rfl
      | ⟨1, _⟩ => exact absurd rfl hb
    · show 0 + col.val = n.val
      omega
  · refine concatenate_apply_piece (1 : Fin S1024x3072.rank) _ _ (ix2 k n) 1 (by simp) S1024x1024 w2 rfl rfl 1024 rfl (ix2 k col)
      (fun b hb => ?_) ?_
    · match b with
      | ⟨0, _⟩ => rfl
      | ⟨1, _⟩ => exact absurd rfl hb
    · show 1024 + col.val = n.val
      omega
  · refine concatenate_apply_piece (1 : Fin S1024x3072.rank) _ _ (ix2 k n) 2 (by simp) S1024x1024 w3 rfl rfl 2048 rfl (ix2 k col)
      (fun b hb => ?_) ?_
    · match b with
      | ⟨0, _⟩ => rfl
      | ⟨1, _⟩ => exact absurd rfl hb
    · show 2048 + col.val = n.val
      omega

/-! ## A band of the product, read as 65536 × 16 × 64, is the reference's projection -/

/-- If y is the product of the activations x0 and weights W, and the columns o … o + 1023 of W are the matrix w,
    then the band of y at column offset o, read as 65536 × 16 × 64, is the reference's reshaped product of x0 and w. -/
theorem attn_band_eq (x0 : Vec Ideal S65536x1024 .f32) (w : Vec Ideal S1024x1024 .f32) (W : Vec Ideal S1024x3072 .bf16)
    (y : Vec Ideal S65536x3072 .bf16) (o : Nat) (hs : S65536x3072.Slices ![0, o] S65536x1024)
    (hy : ∀ (r : Fin 65536) (n : Fin 3072), y (ix2 r n) = ∑ k : Fin 1024, x0 (ix2 r k) * W (ix2 k n))
    (hW : ∀ (k col : Fin 1024) (n : Fin 3072), n.val = o + col.val → W (ix2 k n) = w (ix2 k col)) :
    (shapeCast S65536x16x64 (extf .f32 (extractStridedSlice S65536x1024 ![0, o] y hs : FVec Ideal S65536x1024 .bf16) bitsLt_bf16_f32 : FVec Ideal S65536x1024 .f32)
        shapeCasts_S65536x1024_S65536x16x64 : Vec Ideal S65536x16x64 .f32)
      = ReadP.val_main_v1 (F := Ideal) x0 w := by
  funext i
  obtain ⟨a, h, e, rfl⟩ : ∃ a h e, i = ix3 a h e := ⟨i 0, i 1, i 2, eq_ix3 i⟩
  have ha : a.val < 65536 := a.isLt
  have hh : h.val < 16 := h.isLt
  have he : e.val < 64 := e.isLt
  have hcol : h.val * 64 + e.val < 1024 := by omega
  rw [shapeCast_apply _ shapeCasts_S65536x1024_S65536x16x64 (ix3 a h e) (ix2 a (⟨h.val * 64 + e.val, hcol⟩ : Fin 1024))
    (by rw [Shape.rowMajor_val_two, Shape.rowMajor_val_three]
        show a.val * 1024 + (h.val * 64 + e.val) = (a.val * 16 + h.val) * 64 + e.val
        omega)]
  rw [extf_apply, slice2_axis1_eq o y hs a (⟨h.val * 64 + e.val, hcol⟩ : Fin 1024), hy]
  rw [Cert.ReferenceIdeal.ReadP.val_main_v1_apply, Cert.ReferenceIdeal.ReadP.val_main_v0_apply]
  refine Finset.sum_congr rfl fun k _ => ?_
  rw [hW k (⟨h.val * 64 + e.val, hcol⟩ : Fin 1024) _ rfl]
  congr 2
  · funext d
    match d with
    | ⟨0, _⟩ => exact Fin.ext (by show a.val = ((a.val * 16 + h.val) * 64 + e.val) / 1024; omega)
    | ⟨1, _⟩ => rfl
  · funext d
    match d with
    | ⟨0, _⟩ => rfl
    | ⟨1, _⟩ => exact Fin.ext (by show h.val * 64 + e.val = ((a.val * 16 + h.val) * 64 + e.val) % 1024; omega)

/-! ## The reference's three projections are one function of the activations and a weight matrix -/

theorem attn_val_v3_eq_v1 (x0 : Vec Ideal S65536x1024 .f32) (w : Vec Ideal S1024x1024 .f32) :
    ReadP.val_main_v3 (F := Ideal) x0 w = ReadP.val_main_v1 (F := Ideal) x0 w := rfl

theorem attn_val_v5_eq_v1 (x0 : Vec Ideal S65536x1024 .f32) (w : Vec Ideal S1024x1024 .f32) :
    ReadP.val_main_v5 (F := Ideal) x0 w = ReadP.val_main_v1 (F := Ideal) x0 w := rfl

/-! ## The kernel program's entries -/

variable (m : (ℓ : Loc nD τ sig) → Buf (Elt Ideal) ℓ) (outs : Outs (F := Ideal)) (c : Dev nD)

/-- The activations, and the three projection matrices, as launched. -/
abbrev attn_x0 : Vec Ideal S65536x1024 .f32 := m ((c.tc : Thread nD τ).loc main_arg0)
abbrev attn_x1 : Vec Ideal S1024x1024 .f32 := m ((c.tc : Thread nD τ).loc main_arg1)
abbrev attn_x2 : Vec Ideal S1024x1024 .f32 := m ((c.tc : Thread nD τ).loc main_arg2)
abbrev attn_x3 : Vec Ideal S1024x1024 .f32 := m ((c.tc : Thread nD τ).loc main_arg3)

/-- The stacked weights the first pallas_call reads: the three matrices side by side. -/
abbrev attn_W : Vec Ideal S1024x3072 .bf16 := V1 m c (Proc.devRef .tc main_v1)

/-- The stacked weights' entry is the concatenation of the three launched matrices (the change of format is the identity). -/
theorem attn_W_eq : attn_W m c = truncf .bf16 (concatenate S1024x3072 1 [⟨S1024x1024, attn_x1 m c⟩, ⟨S1024x1024, attn_x2 m c⟩, ⟨S1024x1024, attn_x3 m c⟩]
      concatenates_S1024x1024_S1024x1024_S1024x1024_S1024x3072_d1 : FVec Ideal S1024x3072 .f32) bitsLt_bf16_f32 := by
  show StableHlo.after hostOps0 (V0 m c) (Proc.devRef .tc main_v1) = _
  after_results_simp
  rfl

/-- Column o + col of the stacked weights is column col of the matrix whose band starts at o. -/
theorem attn_W_apply (k col : Fin 1024) :
    (∀ n : Fin 3072, n.val = 0 + col.val → attn_W m c (ix2 k n) = attn_x1 m c (ix2 k col))
    ∧ (∀ n : Fin 3072, n.val = 1024 + col.val → attn_W m c (ix2 k n) = attn_x2 m c (ix2 k col))
    ∧ (∀ n : Fin 3072, n.val = 2048 + col.val → attn_W m c (ix2 k n) = attn_x3 m c (ix2 k col)) := by
  rw [attn_W_eq]
  obtain ⟨h1, h2, h3⟩ := attn_stack_apply (attn_x1 m c) (attn_x2 m c) (attn_x3 m c) k col
  exact ⟨fun n hn => h1 n (by omega), fun n hn => h2 n hn, fun n hn => h3 n hn⟩

/-- What the first pallas_call leaves: at (r, n) the sum over k of the activations at (r, k) times the stacked weights at (k, n). -/
theorem attn_prod_apply (h2 : outs 2 main_v12 c = (Qkv.dat (F := Ideal) (fun c b => V1 m c b) c).arrAt 2 cfg0.N) (r : Fin 65536) (n : Fin 3072) :
    (V2 m outs c (Proc.devRef .tc main_v12) : Vec Ideal S65536x3072 .bf16) (ix2 r n)
      = ∑ k : Fin 1024, attn_x0 m c (ix2 r k) * attn_W m c (ix2 k n) := by
  have e : V2 m outs c (Proc.devRef .tc main_v12) = outs 2 main_v12 c := Function.update_self _ _ _
  rw [e, h2, Qkv.final]
  have e0 : Qkv.rowsArr (fun c b => V1 m c b) c = attn_x0 m c := V1_of m c main_arg0 (by decide)
  show ∑ k : Fin 1024, Qkv.rowsArr (fun c b => V1 m c b) c (ix2 r k) * Qkv.weightsArr (fun c b => V1 m c b) c (ix2 k n) = _
  rw [e0]

/-- Q: the first band, read as 65536 × 16 × 64, is the reference's. -/
theorem attn_q_eq (h2 : outs 2 main_v12 c = (Qkv.dat (F := Ideal) (fun c b => V1 m c b) c).arrAt 2 cfg0.N) :
    V3 m outs c (Proc.devRef .tc main_v17) = ReadP.val_main_v1 (F := Ideal) (attn_x0 m c) (attn_x1 m c) := by
  show StableHlo.after hostOps1 (V2 m outs c) (Proc.devRef .tc main_v17) = _
  after_results_simp
  exact attn_band_eq (attn_x0 m c) (attn_x1 m c) (attn_W m c) (V2 m outs c (Proc.devRef .tc main_v12)) 0 slices_S65536x3072_S65536x1024_0_0
    (attn_prod_apply m outs c h2) (fun k col n hn => (attn_W_apply m c k col).1 n hn)

/-- K: the second band. -/
theorem attn_k_eq (h2 : outs 2 main_v12 c = (Qkv.dat (F := Ideal) (fun c b => V1 m c b) c).arrAt 2 cfg0.N) :
    V3 m outs c (Proc.devRef .tc main_v19) = ReadP.val_main_v3 (F := Ideal) (attn_x0 m c) (attn_x2 m c) := by
  show StableHlo.after hostOps1 (V2 m outs c) (Proc.devRef .tc main_v19) = _
  after_results_simp
  rw [attn_val_v3_eq_v1]
  exact attn_band_eq (attn_x0 m c) (attn_x2 m c) (attn_W m c) (V2 m outs c (Proc.devRef .tc main_v12)) 1024 slices_S65536x3072_S65536x1024_0_1024
    (attn_prod_apply m outs c h2) (fun k col n hn => (attn_W_apply m c k col).2.1 n hn)

/-- V: the third band. -/
theorem attn_v_eq (h2 : outs 2 main_v12 c = (Qkv.dat (F := Ideal) (fun c b => V1 m c b) c).arrAt 2 cfg0.N) :
    V3 m outs c (Proc.devRef .tc main_v21) = ReadP.val_main_v5 (F := Ideal) (attn_x0 m c) (attn_x3 m c) := by
  show StableHlo.after hostOps1 (V2 m outs c) (Proc.devRef .tc main_v21) = _
  after_results_simp
  rw [attn_val_v5_eq_v1]
  exact attn_band_eq (attn_x0 m c) (attn_x3 m c) (attn_W m c) (V2 m outs c (Proc.devRef .tc main_v12)) 2048 slices_S65536x3072_S65536x1024_0_2048
    (attn_prod_apply m outs c h2) (fun k col n hn => (attn_W_apply m c k col).2.2 n hn)

/-- The scores: the batched product of Q and K, scaled by 1/8 here and divided by 8 in the reference. -/
theorem attn_scores_eq (h2 : outs 2 main_v12 c = (Qkv.dat (F := Ideal) (fun c b => V1 m c b) c).arrAt 2 cfg0.N) :
    V3 m outs c (Proc.devRef .tc main_v24)
      = ReadP.val_main_v8 (F := Ideal) (attn_x0 m c) (attn_x1 m c) (attn_x2 m c) := by
  have e : V3 m outs c (Proc.devRef .tc main_v24)
      = (mulf (Host.dotGeneral (F := Ideal) (φ₁ := .f32) (φ₂ := .f32) dot_S65536x16x64_S65536x16x64_S65536x16x16_2_2_1_1_0_0 none
            (V3 m outs c (Proc.devRef .tc main_v17) : FVec Ideal S65536x16x64 .f32)
            (V3 m outs c (Proc.devRef .tc main_v19) : FVec Ideal S65536x16x64 .f32))
          (broadcastInDim S65536x16x16 ![] bcast_S_S65536x16x16 (constant (F := Ideal) S_ .f32 0x3E000000#32))
        : FVec Ideal S65536x16x16 .f32) := by
    show StableHlo.after hostOps1 (V2 m outs c) (Proc.devRef .tc main_v24)
      = (mulf (Host.dotGeneral (F := Ideal) (φ₁ := .f32) (φ₂ := .f32) dot_S65536x16x64_S65536x16x64_S65536x16x16_2_2_1_1_0_0 none
            (StableHlo.after hostOps1 (V2 m outs c) (Proc.devRef .tc main_v17) : FVec Ideal S65536x16x64 .f32)
            (StableHlo.after hostOps1 (V2 m outs c) (Proc.devRef .tc main_v19) : FVec Ideal S65536x16x64 .f32))
          (broadcastInDim S65536x16x16 ![] bcast_S_S65536x16x16 (constant (F := Ideal) S_ .f32 0x3E000000#32))
        : FVec Ideal S65536x16x16 .f32)
    after_results_simp
  rw [e, attn_q_eq m outs c h2, attn_k_eq m outs c h2]
  funext i
  exact attn_mul_eighth_eq_div_eight _

/-- The attention output before the last change of format is the entry the change of format reads: it is the identity. -/
theorem attn_trunc_eq : V3 m outs c (Proc.devRef .tc main_v38)
    = (truncf .bf16 (V3 m outs c (Proc.devRef .tc main_v37) : FVec Ideal S65536x1024 .f32) bitsLt_bf16_f32 : FVec Ideal S65536x1024 .bf16) := by
  show StableHlo.after hostOps1 (V2 m outs c) (Proc.devRef .tc main_v38)
    = (truncf .bf16 (StableHlo.after hostOps1 (V2 m outs c) (Proc.devRef .tc main_v37) : FVec Ideal S65536x1024 .f32) bitsLt_bf16_f32 : FVec Ideal S65536x1024 .bf16)
  after_results_simp

/-- The attention part, given that from the scores and V on the two sides apply the same operations. -/
theorem attn_eq_of_mix
    (hmix : V3 m outs c (Proc.devRef .tc main_v24) = ReadP.val_main_v8 (F := Ideal) (attn_x0 m c) (attn_x1 m c) (attn_x2 m c) →
      V3 m outs c (Proc.devRef .tc main_v21) = ReadP.val_main_v5 (F := Ideal) (attn_x0 m c) (attn_x3 m c) →
      V3 m outs c (Proc.devRef .tc main_v37) = ReadP.val_main_v21 (F := Ideal) (attn_x0 m c) (attn_x1 m c) (attn_x2 m c) (attn_x3 m c))
    (h2 : outs 2 main_v12 c = (Qkv.dat (F := Ideal) (fun c b => V1 m c b) c).arrAt 2 cfg0.N) (i : S65536x1024.Idx) :
    V3 m outs c (Proc.devRef .tc main_v38) i
      = Cert.ReferenceIdeal.ReadP.val_main_v21 (F := Ideal) (m ((c.tc : Thread nD τ).loc main_arg0)) (m ((c.tc : Thread nD τ).loc main_arg1))
          (m ((c.tc : Thread nD τ).loc main_arg2)) (m ((c.tc : Thread nD τ).loc main_arg3)) i := by
  rw [attn_trunc_eq m outs c]
  exact congrFun (hmix (attn_scores_eq m outs c h2) (attn_v_eq m outs c h2)) i

/-- THE ATTENTION PART: what the kernel program holds after its second host stretch, at every index, is the
    reference's attention output. -/
theorem attn_eq (h2 : outs 2 main_v12 c = (Qkv.dat (F := Ideal) (fun c b => V1 m c b) c).arrAt 2 cfg0.N) (i : S65536x1024.Idx) :
    V3 m outs c (Proc.devRef .tc main_v38) i
      = Cert.ReferenceIdeal.ReadP.val_main_v21 (F := Ideal) (m ((c.tc : Thread nD τ).loc main_arg0)) (m ((c.tc : Thread nD τ).loc main_arg1))
          (m ((c.tc : Thread nD τ).loc main_arg2)) (m ((c.tc : Thread nD τ).loc main_arg3)) i :=
  attn_eq_of_mix m outs c (mix_eq m outs c) h2 i

end Cert.KernelIdeal.Bridge

end
-- ==== Proof.KI.ProjValue.lean ====
/-
  The value of the second pallas_call at the extended reals, as one function of the four arrays it reads: the
  result array ends holding, at row r and column s,
      residual r s + ((∑ k < 1024, attention r k · matrix k s) + bias 0 s).
  First the body's stored value at an index of a block (the matrix product into a zero accumulator is the sum over
  the 1024 inner positions; the bias row is repeated down the rows; casts of a shape to itself and the format
  changes are the identity); then each input block read where the output's block sits in the arrays (a block's
  coordinate in its array is block index × block size + the coordinate inside the block; point t has row-block
  index t, the matrix and the bias have block index 0); then the cover: row r belongs to point r / 512, and every
  point writes its block back.
-/
import proofs.«144935_j30348238914117_1_alg».proof.Proof.KI.ProjBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe
open Idealize.SL.Sem
open Idealize.ShloMosaic.Pipeline (Dat)
open Idealize.ShloMosaic.ValueIdx
open scoped BigOperators

/-! ## The body's stored value at an index -/

/-- The left operand is read at the output's row … -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the inner position as its column; -/
theorem lhs_inner (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the inner position as its row … -/
theorem rhs_inner (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and at the output's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into a zero accumulator, at row p and column q: the sum over the 1024 inner positions of the
    left operand's row p times the right operand's column q. -/
theorem product_apply (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  show FloatOps.matmul dot_S512x1024_S1024x1024_S512x1024_1_0_0_1_n_n none l r (constant (F := Ideal) S512x1024 .f32 0x00000000#32) (ix2 p q) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_inner _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_inner _ _).trans hk
    | ⟨1, _⟩ => exact rhs_col _ _)
  rw [el, er]

/-- The body's stored value at row p and column q of a block: the residual block there, plus the attention block's
    row p times the matrix's column q, plus the bias row at q. -/
theorem pay_apply (x0 : Vec Ideal S512x1024 .f32) (x1 : Vec Ideal S512x1024 .bf16) (x2 : Vec Ideal S1024x1024 .bf16) (x3 : Vec Ideal S1x1024 .f32)
    (p : Fin 512) (q : Fin 1024) :
    k1_pay1 x0 x1 x2 x3 (ix2 p q) = x0 (ix2 p q) + ((∑ k : Fin 1024, x1 (ix2 p k) * x2 (ix2 k q)) + x3 (ix2 (0 : Fin 1) q)) := by
  unfold k1_pay1
  simp only [shapeCast_self]
  refine (addf_apply _ _ _).trans ?_
  refine congrArg (x0 (ix2 p q) + ·) ?_
  refine (addf_apply _ _ _).trans ?_
  rw [product_apply, broadcastTo_1b_ab_apply]

/-! ## From blocks to the array -/

-- the core's buffer contents when the region is entered, at the extended reals
variable (V : (c : Dev nD) → (b : Ref sig .tc) → Buf (Elt Ideal) ((c : Thread nD τ).loc b))

/-- The four arrays the call reads, as the region finds them: the residual stream, the attention output, the
    projection matrix, the bias row. -/
abbrev residArr (c : Dev nD) : Vec Ideal S65536x1024 .f32 := V c main_arg0
abbrev attnArr (c : Dev nD) : Vec Ideal S65536x1024 .bf16 := V c main_v38
abbrev matrixArr (c : Dev nD) : Vec Ideal S1024x1024 .bf16 := V c main_v2
abbrev biasArr (c : Dev nD) : Vec Ideal S1x1024 .f32 := V c main_v5

/-- What the result array ends holding, index by index: the residual plus the attention row times the matrix column
    plus the bias at that column. -/
abbrev projArr (c : Dev nD) : Vec Ideal S65536x1024 .f32 := fun i =>
  residArr V c i + ((∑ k : Fin 1024, attnArr V c (ix2 (i 0) k) * matrixArr V c (ix2 k (i 1))) + biasArr V c (ix2 (0 : Fin 1) (i 1)))

theorem zero_offsets : (![0, 0] : Fin 2 → Nat) = fun _ => 0 := funext fun a => by fin_cases a <;> rfl

/-- The block indices at point t: the three row-blocked windows are at row block t, the matrix and the bias at
    their one block. -/
theorem block_indices : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0 :=
  (by decide +kernel : ∀ t : Fin grid1.N, _)

/-- The body's stored value at an index j of a block, read at the array index i where j sits in row block T, when
    the two row-blocked inputs are rows T·512 … of their arrays and the two others are their whole arrays. -/
theorem block_value (x0 : Vec Ideal S512x1024 .f32) (x1 : Vec Ideal S512x1024 .bf16) (x2 : Vec Ideal S1024x1024 .bf16) (x3 : Vec Ideal S1x1024 .f32)
    (A0 : Vec Ideal S65536x1024 .f32) (A1 : Vec Ideal S65536x1024 .bf16) (A2 : Vec Ideal S1024x1024 .bf16) (A3 : Vec Ideal S1x1024 .f32) (T : Nat)
    (h0 : ∀ (y : S512x1024.Idx) (z : S65536x1024.Idx), (z 0).val = T * 512 + (y 0).val → (z 1).val = (y 1).val → x0 y = A0 z)
    (h1 : ∀ (y : S512x1024.Idx) (z : S65536x1024.Idx), (z 0).val = T * 512 + (y 0).val → (z 1).val = (y 1).val → x1 y = A1 z)
    (h2 : x2 = A2) (h3 : x3 = A3)
    (j : S512x1024.Idx) (i : S65536x1024.Idx) (hi0 : (i 0).val = T * 512 + (j 0).val) (hi1 : (i 1).val = (j 1).val) :
    k1_pay1 x0 x1 x2 x3 j = A0 i + ((∑ k : Fin 1024, A1 (ix2 (i 0) k) * A2 (ix2 k (i 1))) + A3 (ix2 (0 : Fin 1) (i 1))) := by
  subst h2 h3
  obtain ⟨p, q, rfl⟩ : ∃ (p : Fin 512) (q : Fin 1024), j = ix2 p q := ⟨j 0, j 1, eq_ix2 j⟩
  obtain ⟨r, s, rfl⟩ : ∃ (r : Fin 65536) (s : Fin 1024), i = ix2 r s := ⟨i 0, i 1, eq_ix2 i⟩
  have hr : r.val = T * 512 + p.val := hi0
  obtain rfl : s = q := Fin.ext hi1
  show _ = A0 (ix2 r s) + ((∑ k : Fin 1024, A1 (ix2 r k) * x2 (ix2 k s)) + x3 (ix2 (0 : Fin 1) s))
  rw [pay_apply, h0 (ix2 p s) (ix2 r s) hr rfl]
  refine congrArg (A0 (ix2 r s) + ·) (congrArg (· + x3 (ix2 (0 : Fin 1) s)) ?_)
  exact Finset.sum_congr rfl fun k _ => by rw [h1 (ix2 p k) (ix2 r k) hr rfl]

/-- What point t writes back is block t of projArr of the arrays as the region finds them. -/
theorem written_back (c : Dev nD) (t : Fin cfg1.N) :
    (dat (F := Ideal) V c).flushed 4 t = ((cfg1.win 4).blk t).view.read (Elt Ideal) (projArr V c) := by
  show (cfg1.win 4).cut (grid1.coords t) ((dat V c).after 4 t) = _
  rw [after_4]
  unfold out
  rw [View.canon_unit_zero zero_offsets]
  simp only [View.ld_unit_zero (S := S512x1024) zero_offsets, View.ld_unit_zero (S := S1024x1024) zero_offsets, View.ld_unit_zero (S := S1x1024) zero_offsets]
  obtain ⟨a0, a1, b0, b1, m0, m1, v0, v1, o0, o1⟩ := block_indices t
  funext j
  show k1_pay1 (iblk V c 0 t) (iblk V c 1 t) (iblk V c 2 t) (iblk V c 3 t) j = projArr V c (((cfg1.win 4).blk t).view.emb j)
  refine block_value _ _ _ _ (residArr V c) (attnArr V c) (matrixArr V c) (biasArr V c) t.val ?_ ?_ ?_ ?_ j _ ?_ ?_
  · intro y z hz0 hz1
    show residArr V c (((cfg1.win 0).blk t).view.emb y) = residArr V c z
    refine congrArg (residArr V c) (funext fun a => Fin.ext ?_)
    match a with
    | ⟨0, _⟩ => show win1_0.index t (0 : Fin 2) * 512 + 1 * (y 0).val = (z 0).val; rw [a0, hz0]; omega
    | ⟨1, _⟩ => show win1_0.index t (1 : Fin 2) * 1024 + 1 * (y 1).val = (z 1).val; rw [a1, hz1]; omega
  · intro y z hz0 hz1
    show attnArr V c (((cfg1.win 1).blk t).view.emb y) = attnArr V c z
    refine congrArg (attnArr V c) (funext fun a => Fin.ext ?_)
    match a with
    | ⟨0, _⟩ => show win1_1.index t (0 : Fin 2) * 512 + 1 * (y 0).val = (z 0).val; rw [b0, hz0]; omega
    | ⟨1, _⟩ => show win1_1.index t (1 : Fin 2) * 1024 + 1 * (y 1).val = (z 1).val; rw [b1, hz1]; omega
  · funext y
    show matrixArr V c (((cfg1.win 2).blk t).view.emb y) = matrixArr V c y
    refine congrArg (matrixArr V c) (funext fun a => Fin.ext ?_)
    match a with
    | ⟨0, _⟩ => show win1_2.index t (0 : Fin 2) * 1024 + 1 * (y 0).val = (y 0).val; rw [m0]; omega
    | ⟨1, _⟩ => show win1_2.index t (1 : Fin 2) * 1024 + 1 * (y 1).val = (y 1).val; rw [m1]; omega
  · funext y
    show biasArr V c (((cfg1.win 3).blk t).view.emb y) = biasArr V c y
    refine congrArg (biasArr V c) (funext fun a => Fin.ext ?_)
    match a with
    | ⟨0, _⟩ => show win1_3.index t (0 : Fin 2) * 1 + 1 * (y 0).val = (y 0).val; rw [v0]; omega
    | ⟨1, _⟩ => show win1_3.index t (1 : Fin 2) * 1024 + 1 * (y 1).val = (y 1).val; rw [v1]; omega
  · show win1_4.index t (0 : Fin 2) * 512 + 1 * (j 0).val = t.val * 512 + (j 0).val; rw [o0]; omega
  · show win1_4.index t (1 : Fin 2) * 1024 + 1 * (j 1).val = (j 1).val; rw [o1]; omega

/-- An index of the result array is in point t's block iff each coordinate is in the block's range on its axis. -/
theorem mem_row_block (t : Fin cfg1.N) (i : S65536x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v39).slice (win1_4.rect t)).set ↔ _
  rw [View.set_slice_whole, Rect.mem_set_unit]
  exact Iff.rfl

/-- Every index of the result array is in some point's block, and that point writes back: row r is in the block
    of point r / 512. -/
theorem rows_cover (i : S65536x1024.Idx) : ∃ t : Fin cfg1.N, (cfg1.win 4).flush t = true ∧ i ∈ ((cfg1.win 4).blk t).view.set := by
  have hi0 : (i 0).val < 65536 := (i 0).isLt
  have hi1 : (i 1).val < 1024 := (i 1).isLt
  have hN : grid1.N = 128 := N_1
  have ht : (i 0).val / 512 < cfg1.N := by show _ < grid1.N; omega
  obtain ⟨-, -, -, -, -, -, -, -, e0, e1⟩ := block_indices ⟨(i 0).val / 512, ht⟩
  have e0' : win1_4.index ⟨(i 0).val / 512, ht⟩ (0 : Fin 2) = (i 0).val / 512 := e0
  refine ⟨⟨(i 0).val / 512, ht⟩, flush1_4 _, ?_⟩
  rw [mem_row_block]
  intro a
  match a with
  | ⟨0, _⟩ =>
    show win1_4.index ⟨(i 0).val / 512, ht⟩ (0 : Fin 2) * 512 ≤ (i 0).val ∧ (i 0).val < win1_4.index ⟨(i 0).val / 512, ht⟩ (0 : Fin 2) * 512 + 512
    rw [e0']; omega
  | ⟨1, _⟩ =>
    show win1_4.index ⟨(i 0).val / 512, ht⟩ (1 : Fin 2) * 1024 ≤ (i 1).val ∧ (i 1).val < win1_4.index ⟨(i 0).val / 512, ht⟩ (1 : Fin 2) * 1024 + 1024
    rw [e1]; omega

/-- The result array after the run: every row block is some point's, so the array is projArr throughout. -/
theorem final (c : Dev nD) : (dat (F := Ideal) V c).arrAt 4 cfg1.N
    = fun i : S65536x1024.Idx => residArr V c i + ((∑ k : Fin 1024, attnArr V c (ix2 (i 0) k) * matrixArr V c (ix2 k (i 1))) + biasArr V c (ix2 (0 : Fin 1) (i 1))) :=
  (dat V c).arrAt_eq_of_cover 4 (projArr V c) (fun t _ => written_back V c t) rows_cover

end Cert.KernelIdeal.Proj

end
-- ==== Proof.KI.BridgeProj.lean ====
/-
  The second pallas_call's output array against the reference. At the ideal instance that array holds, at row r
  and column j, the residual input at (r, j) plus the sum over k of the attention output at (r, k) times the
  projection matrix at (k, j), plus the bias at j. The residual is the first input as launched; the matrix and the
  bias are the fifth and sixth inputs, a change of format (the identity on extended reals) and a reshape of the
  1024 entries to one row apart. When the attention array is the reference's attention stage, the sum is the
  reference's dot_general and the whole is its stage "input plus projected attention plus bias".
-/
import proofs.«144935_j30348238914117_1_alg».proof.Proof.KI.ProjValue
import proofs.«144935_j30348238914117_1_alg».proof.Proof.RefReadP
import proofs.«144935_j30348238914117_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Cert.ReferenceIdeal.ReadP
open Idealize.ShloMosaic Idealize.ShloMosaic.TcCoe Idealize.SL.Sem
open Idealize.ShloMosaic.ValueIdx
open scoped BigOperators

/-! ## The formula against the reference's stages, over any arrays -/

/-- Residual plus (attention times matrix, plus bias) at (r, j) is the reference's stage there, once the residual
    is the first input, the attention array the reference's attention stage, the matrix the fifth input and the
    bias row the sixth. -/
theorem proj_core
    (x0 : (⟨Cert.ReferenceIdeal.S65536x1024, .f32⟩ : BufTy).Contents (Elt Ideal))
    (x1 x2 x3 x4 : (⟨Cert.ReferenceIdeal.S1024x1024, .f32⟩ : BufTy).Contents (Elt Ideal))
    (x5 : (⟨Cert.ReferenceIdeal.S1024, .f32⟩ : BufTy).Contents (Elt Ideal))
    (resid : Vec Ideal S65536x1024 .f32) (attn : Vec Ideal S65536x1024 .bf16) (mat : Vec Ideal S1024x1024 .bf16) (bias : Vec Ideal S1x1024 .f32)
    (hres : ∀ i, resid i = x0 i) (hattn : ∀ i, attn i = val_main_v21 (F := Ideal) x0 x1 x2 x3 i)
    (hmat : ∀ i, mat i = x4 i) (hbias : ∀ j : Fin 1024, bias (ix2 (0 : Fin 1) j) = x5 (ix1 j))
    (r : Fin 65536) (j : Fin 1024) :
    (resid (ix2 r j) : EReal) + ((∑ k : Fin 1024, (attn (ix2 r k) : EReal) * (mat (ix2 k j) : EReal)) + (bias (ix2 (0 : Fin 1) j) : EReal))
      = val_main_v26 (F := Ideal) x0 x1 x2 x3 x4 x5 (ix2 r j) := by
  rw [val_main_v26_apply, val_main_v25_apply, val_main_v22_apply, val_main_v24_apply, val_main_v23_apply]
  have el : ∀ k : Fin 1024, lidx_main_v22 (ix2 r j) k = ix2 r k := fun k => funext fun a => Fin.ext (by
    match a with
    | ⟨0, _⟩ => rfl
    | ⟨1, _⟩ => rfl)
  have er : ∀ k : Fin 1024, ridx_main_v22 (ix2 r j) k = ix2 k j := fun k => funext fun a => Fin.ext (by
    match a with
    | ⟨0, _⟩ => rfl
    | ⟨1, _⟩ => rfl)
  have eb : idx_main_v23 (idx_main_v24 (ix2 r j)) = ix1 j := funext fun a => Fin.ext (by
    match a with
    | ⟨0, _⟩ => rfl)
  have hs : (∑ k : Fin 1024, (attn (ix2 r k) : EReal) * (mat (ix2 k j) : EReal))
      = ∑ k : Fin 1024, val_main_v21 (F := Ideal) x0 x1 x2 x3 (ix2 r k) * x4 (ix2 k j) :=
    Finset.sum_congr rfl fun k _ => by rw [hattn, hmat]
  simp only [el, er, eb, Ideal.addf_def]
  rw [hres, hbias, hs]

/-! ## The entries of the valuation the second call is entered with -/

variable (m : (ℓ : Loc nD τ sig) → Buf (Elt Ideal) ℓ) (outs : Outs (F := Ideal)) (c : Dev nD)

/-- The residual input reaches the second call as launched: nothing before it writes it. -/
theorem entry_resid : V3 m outs c (Proc.devRef .tc main_arg0) = m ((c : Thread nD τ).loc main_arg0) :=
  (V3_of m outs c main_arg0 (by decide)).trans <| (V2_of m outs c main_arg0 (by decide)).trans <| (V1_of m c main_arg0 (by decide)).trans rfl

/-- The projection matrix the call reads is the fifth input: its change of format is the identity. -/
theorem entry_matrix (y : S1024x1024.Idx) :
    (V3 m outs c (Proc.devRef .tc main_v2) : Vec Ideal S1024x1024 .bf16) y = (m ((c : Thread nD τ).loc main_arg4) : Vec Ideal S1024x1024 .f32) y := by
  rw [V3_of m outs c main_v2 (by decide), V2_of m outs c main_v2 (by decide)]
  show StableHlo.after hostOps0 (V0 m c) (Proc.devRef .tc main_v2) y = _
  after_results_simp
  rfl

/-- The bias row the call reads is the sixth input's 1024 entries laid out as one row. -/
theorem entry_bias (j : Fin 1024) :
    (V3 m outs c (Proc.devRef .tc main_v5) : Vec Ideal S1x1024 .f32) (ix2 (0 : Fin 1) j) = (m ((c : Thread nD τ).loc main_arg5) : Vec Ideal S1024 .f32) (ix1 j) := by
  rw [V3_of m outs c main_v5 (by decide), V2_of m outs c main_v5 (by decide)]
  show StableHlo.after hostOps0 (V0 m c) (Proc.devRef .tc main_v5) (ix2 (0 : Fin 1) j) = _
  after_results_simp
  exact shapeCast_a_1a_apply (a := 1024) (V0 m c (Proc.devRef .tc main_arg5)) shapeCasts_S1024_S1x1024 0 j

/-! ## The second call's output array is the reference's stage -/

/-- What the second call leaves in its output array, when that is the array its pipeline ends with from the
    valuation it is entered with and the attention array there is the reference's attention stage, is the reference's
    "input plus projected attention plus bias" at every index. -/
theorem proj_eq
    (h4 : outs 4 main_v39 c = (Proj.dat (F := Ideal) (fun c b => V3 m outs c b) c).arrAt 4 cfg1.N)
    (hattn : ∀ i : S65536x1024.Idx, V3 m outs c (Proc.devRef .tc main_v38) i
      = val_main_v21 (F := Ideal) (m ((c : Thread nD τ).loc main_arg0)) (m ((c : Thread nD τ).loc main_arg1)) (m ((c : Thread nD τ).loc main_arg2)) (m ((c : Thread nD τ).loc main_arg3)) i)
    (i : S65536x1024.Idx) :
    outs 4 main_v39 c i
      = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨r, j, rfl⟩ : ∃ (r : Fin 65536) (j : Fin 1024), i = ix2 r j := ⟨i 0, i 1, eq_ix2 i⟩
  refine (congrFun (h4.trans (Proj.final _ c)) (ix2 r j)).trans ?_
  exact proj_core (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (V3 m outs c (Proc.devRef .tc main_arg0)) (V3 m outs c (Proc.devRef .tc main_v38)) (V3 m outs c (Proc.devRef .tc main_v2)) (V3 m outs c (Proc.devRef .tc main_v5))
    (fun y => congrFun (entry_resid m outs c) y) hattn (entry_matrix m outs c) (entry_bias m outs c) r j

end Cert.KernelIdeal.Bridge

end
-- ==== Proof.KI.BridgeStats.lean ====
/-
  The column statistics of a 65536 × 1024 array of extended reals: for each of the 1024 columns the mean (the sum
  of the column's 65536 entries divided by 65536) and the variance (the sum of the squared distances to that mean,
  divided by 65536). The kernel program keeps each statistic as the one row of a 1 × 1024 array, the reference as
  a vector of 1024; entry (0, j) of the row is entry j of the vector: the same sum divided by the same constant.
  Used twice, for the activations entering the third and the fourth pallas call.
-/
import proofs.«144935_j30348238914117_1_alg».proof.Proof.Gen.KernelIdeal.Regions
import proofs.«144935_j30348238914117_1_alg».proof.Proof.RefReadP
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.ValueIdx

/-! ## Rows and vectors of 1024 -/

section Pure

variable (hb1 : S1024.BroadcastsInDim S1x1024 (![1] : Fin 1 → Fin S1x1024.rank))
  (hb0 : S_.BroadcastsInDim S1x1024 (![] : Fin 0 → Fin S1x1024.rank))
  (hbv : S_.BroadcastsInDim S1024 (![] : Fin 0 → Fin S1024.rank))
  (hbb : S1x1024.BroadcastsInDim S65536x1024 (![0, 1] : Fin 2 → Fin S65536x1024.rank))
  (hred : S65536x1024.ReducesTo [0] S1024) (hS : 0 < S_.numel)

/-- A vector of 1024 laid along the one row of a 1 × 1024 array: entry (0, j) of the row is entry j of the vector. -/
theorem stats_row_apply (R : FVec Ideal S1024 .f32) (j : Fin 1024) :
    broadcastInDim S1x1024 ![1] hb1 R (ix2 (0 : Fin 1) j) = R (ix1 j) :=
  broadcastInDim_apply _ hb1 R _ (ix1 j) (fun a => match a with
    | ⟨0, _⟩ => by show j.val = if (1024 : Nat) = 1 then 0 else j.val; rw [if_neg (by decide)])

/-- Dividing the row of a vector by a constant row is the row of the vector divided by the constant vector. -/
theorem stats_divRow_eq (R : FVec Ideal S1024 .f32) (k : FVec Ideal S_ .f32) :
    Host.divf (broadcastInDim S1x1024 ![1] hb1 R) (broadcastInDim S1x1024 ![] hb0 k)
      = broadcastInDim S1x1024 ![1] hb1 (Host.divf R (broadcastInDim S1024 ![] hbv k)) := by
  funext i
  obtain ⟨a, b, rfl⟩ : ∃ (a : Fin 1) (b : Fin 1024), i = ix2 a b := ⟨i 0, i 1, eq_ix2 i⟩
  obtain rfl : a = 0 := Subsingleton.elim _ _
  rw [stats_row_apply]
  show FloatOps.hostDivf (broadcastInDim S1x1024 ![1] hb1 R (ix2 (0 : Fin 1) b)) (broadcastInDim S1x1024 ![] hb0 k (ix2 (0 : Fin 1) b))
    = FloatOps.hostDivf (R (ix1 b)) (broadcastInDim S1024 ![] hbv k (ix1 b))
  rw [stats_row_apply, broadcastInDim_scalar_apply, broadcastInDim_scalar_apply]

/-- The columns' means as the kernel program keeps them: the sums' row over the constant row. -/
def stats_meanRow (X : FVec Ideal S65536x1024 .f32) : FVec Ideal S1x1024 .f32 :=
  Host.divf (broadcastInDim S1x1024 ![1] hb1 (Host.reduceAdd X (constant S_ .f32 0x00000000#32) hred hS))
    (broadcastInDim S1x1024 ![] hb0 (constant S_ .f32 0x47800000#32))

/-- The columns' means as the reference keeps them: the sums' vector over the constant vector. -/
def stats_meanVec (X : FVec Ideal S65536x1024 .f32) : FVec Ideal S1024 .f32 :=
  Host.divf (Host.reduceAdd X (constant S_ .f32 0x00000000#32) hred hS)
    (broadcastInDim S1024 ![] hbv (constant S_ .f32 0x47800000#32))

/-- The mean row is the mean vector laid along the row. -/
theorem stats_meanRow_eq (X : FVec Ideal S65536x1024 .f32) :
    stats_meanRow hb1 hb0 hred hS X = broadcastInDim S1x1024 ![1] hb1 (stats_meanVec hbv hred hS X) :=
  stats_divRow_eq hb1 hb0 hbv _ _

/-- The columns' variances as the kernel program keeps them: the entries less the mean row (repeated down the
    rows), squared, summed down the columns, the sums' row over the constant row. -/
def stats_varRow (X : FVec Ideal S65536x1024 .f32) : FVec Ideal S1x1024 .f32 :=
  Host.divf (broadcastInDim S1x1024 ![1] hb1 (Host.reduceAdd
      (mulf (subf X (broadcastInDim S65536x1024 ![0, 1] hbb (stats_meanRow hb1 hb0 hred hS X)))
            (subf X (broadcastInDim S65536x1024 ![0, 1] hbb (stats_meanRow hb1 hb0 hred hS X))))
      (constant S_ .f32 0x00000000#32) hred hS))
    (broadcastInDim S1x1024 ![] hb0 (constant S_ .f32 0x47800000#32))

/-- The columns' variances as the reference keeps them: the mean vector laid along a row and repeated down the
    rows, the entries less it, squared, summed down the columns, the sums' vector over the constant vector. -/
def stats_varVec (X : FVec Ideal S65536x1024 .f32) : FVec Ideal S1024 .f32 :=
  Host.divf (Host.reduceAdd
      (mulf (subf X (broadcastInDim S65536x1024 ![0, 1] hbb (broadcastInDim S1x1024 ![1] hb1 (stats_meanVec hbv hred hS X))))
            (subf X (broadcastInDim S65536x1024 ![0, 1] hbb (broadcastInDim S1x1024 ![1] hb1 (stats_meanVec hbv hred hS X)))))
      (constant S_ .f32 0x00000000#32) hred hS)
    (broadcastInDim S1024 ![] hbv (constant S_ .f32 0x47800000#32))

/-- The variance row is the variance vector laid along the row: the centred arrays are the same array. -/
theorem stats_varRow_eq (X : FVec Ideal S65536x1024 .f32) :
    stats_varRow hb1 hb0 hbb hred hS X = broadcastInDim S1x1024 ![1] hb1 (stats_varVec hb1 hbv hbb hred hS X) := by
  unfold stats_varRow stats_varVec
  rw [stats_meanRow_eq hb1 hb0 hbv hred hS X]
  exact stats_divRow_eq hb1 hb0 hbv _ _

/-- Entry (0, j) of the mean row is entry j of the mean vector. -/
theorem stats_meanRow_apply (X : FVec Ideal S65536x1024 .f32) (j : Fin 1024) :
    stats_meanRow hb1 hb0 hred hS X (ix2 (0 : Fin 1) j) = stats_meanVec hbv hred hS X (ix1 j) := by
  rw [stats_meanRow_eq hb1 hb0 hbv hred hS X, stats_row_apply]

/-- Entry (0, j) of the variance row is entry j of the variance vector. -/
theorem stats_varRow_apply (X : FVec Ideal S65536x1024 .f32) (j : Fin 1024) :
    stats_varRow hb1 hb0 hbb hred hS X (ix2 (0 : Fin 1) j) = stats_varVec hb1 hbv hbb hred hS X (ix1 j) := by
  rw [stats_varRow_eq hb1 hb0 hbv hbb hred hS X, stats_row_apply]

end Pure

/-! ## The program's statistics are the reference's -/

variable (m : (ℓ : Loc nD τ sig) → Buf (Elt Ideal) ℓ) (outs : Outs (F := Ideal)) (c : Dev nD)

/-- Before the third pallas call: if the second call leaves the reference's activations in its output array, the
    mean row and the variance row the host operations compute from it are, at (0, j), the reference's mean and
    variance vectors at j. -/
theorem stats1_eq
    (hx : ∀ i : S65536x1024.Idx, outs 4 main_v39 c i
      = Cert.ReferenceIdeal.ReadP.val_main_v26 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) i)
    (j : Fin 1024) :
    V5 m outs c (Proc.devRef .tc main_v43) (ix2 (0 : Fin 1) j)
        = Cert.ReferenceIdeal.ReadP.val_main_v29 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (ix1 j)
      ∧ V5 m outs c (Proc.devRef .tc main_v50) (ix2 (0 : Fin 1) j)
        = Cert.ReferenceIdeal.ReadP.val_main_v36 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (ix1 j) := by
  have hX : V4 m outs c (Proc.devRef .tc main_v39)
      = Cert.ReferenceIdeal.ReadP.val_main_v26 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) :=
    (Function.update_self _ _ _).trans (funext hx)
  constructor
  · show StableHlo.after hostOps2 (V4 m outs c) (Proc.devRef .tc main_v43) (ix2 (0 : Fin 1) j) = _
    after_results_simp
    rw [hX]
    unfold Cert.ReferenceIdeal.ReadP.val_main_v29 Cert.ReferenceIdeal.ReadP.val_main_v27 Cert.ReferenceIdeal.ReadP.val_main_v28 Cert.ReferenceIdeal.ReadP.val_main_cst_3 Cert.ReferenceIdeal.ReadP.val_main_cst_4
    generalize Cert.ReferenceIdeal.ReadP.val_main_v26 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) = Y
    exact stats_meanRow_apply bcast_S1024_S1x1024_1 bcast_S_S1x1024 Cert.ReferenceIdeal.Facts₀.bcast_S_S1024
      reducesTo_S65536x1024_S1024_d0 h_S_ Y j
  · show StableHlo.after hostOps2 (V4 m outs c) (Proc.devRef .tc main_v50) (ix2 (0 : Fin 1) j) = _
    after_results_simp
    rw [hX]
    unfold Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32
      Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27
      Cert.ReferenceIdeal.ReadP.val_main_cst_3 Cert.ReferenceIdeal.ReadP.val_main_cst_4 Cert.ReferenceIdeal.ReadP.val_main_cst_5 Cert.ReferenceIdeal.ReadP.val_main_cst_6
    generalize Cert.ReferenceIdeal.ReadP.val_main_v26 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) = Y
    exact stats_varRow_apply bcast_S1024_S1x1024_1 bcast_S_S1x1024 Cert.ReferenceIdeal.Facts₀.bcast_S_S1024
      bcast_S1x1024_S65536x1024_0_1 reducesTo_S65536x1024_S1024_d0 h_S_ Y j

/-- Before the fourth pallas call: if the third call leaves the reference's activations in its output array, the
    mean row and the variance row the host operations compute from it are, at (0, j), the reference's mean and
    variance vectors at j. -/
theorem stats2_eq
    (hx : ∀ i : S65536x1024.Idx, outs 6 main_v51 c i
      = Cert.ReferenceIdeal.ReadP.val_main_v61 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) i)
    (j : Fin 1024) :
    V7 m outs c (Proc.devRef .tc main_v55) (ix2 (0 : Fin 1) j)
        = Cert.ReferenceIdeal.ReadP.val_main_v64 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) (ix1 j)
      ∧ V7 m outs c (Proc.devRef .tc main_v62) (ix2 (0 : Fin 1) j)
        = Cert.ReferenceIdeal.ReadP.val_main_v71 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) (ix1 j) := by
  have hX : V6 m outs c (Proc.devRef .tc main_v51)
      = Cert.ReferenceIdeal.ReadP.val_main_v61 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) :=
    (Function.update_self _ _ _).trans (funext hx)
  constructor
  · show StableHlo.after hostOps3 (V6 m outs c) (Proc.devRef .tc main_v55) (ix2 (0 : Fin 1) j) = _
    after_results_simp
    rw [hX]
    unfold Cert.ReferenceIdeal.ReadP.val_main_v64 Cert.ReferenceIdeal.ReadP.val_main_v62 Cert.ReferenceIdeal.ReadP.val_main_v63 Cert.ReferenceIdeal.ReadP.val_main_cst_8 Cert.ReferenceIdeal.ReadP.val_main_cst_9
    generalize Cert.ReferenceIdeal.ReadP.val_main_v61 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) = Y
    exact stats_meanRow_apply bcast_S1024_S1x1024_1 bcast_S_S1x1024 Cert.ReferenceIdeal.Facts₀.bcast_S_S1024
      reducesTo_S65536x1024_S1024_d0 h_S_ Y j
  · show StableHlo.after hostOps3 (V6 m outs c) (Proc.devRef .tc main_v62) (ix2 (0 : Fin 1) j) = _
    after_results_simp
    rw [hX]
    unfold Cert.ReferenceIdeal.ReadP.val_main_v71 Cert.ReferenceIdeal.ReadP.val_main_v70 Cert.ReferenceIdeal.ReadP.val_main_v69 Cert.ReferenceIdeal.ReadP.val_main_v68 Cert.ReferenceIdeal.ReadP.val_main_v67
      Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62
      Cert.ReferenceIdeal.ReadP.val_main_cst_8 Cert.ReferenceIdeal.ReadP.val_main_cst_9 Cert.ReferenceIdeal.ReadP.val_main_cst_10 Cert.ReferenceIdeal.ReadP.val_main_cst_11
    generalize Cert.ReferenceIdeal.ReadP.val_main_v61 (F := Ideal)
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11)) = Y
    exact stats_varRow_apply bcast_S1024_S1x1024_1 bcast_S_S1x1024 Cert.ReferenceIdeal.Facts₀.bcast_S_S1024
      bcast_S1x1024_S65536x1024_0_1 reducesTo_S65536x1024_S1024_d0 h_S_ Y j

end Cert.KernelIdeal.Bridge
-- ==== Proof.KI.FfnValue1.lean ====
/-
  The value the third pallas_call stores, at the ideal instance (floats are extended reals, the format changes the
  identity), read at one element (r, j) of its 512 × 1024 block. With x0 the block of rows, x1 … x4 the rows of
  column means, variances, gains and shifts, x5, x6 the first matrix and its bias row, x7, x8 the second:
      n(r, j)  =  (x0(r, j) − x1(0, j)) · rsqrt(x2(0, j) + ε) · x3(0, j) + x4(0, j)                  (the normalised row)
      stored(r, j)  =  n(r, j) + ( Σ_f max( Σ_k n(r, k) · x5(k, f) + x6(0, f), 0 ) · x7(f, j) + x8(0, j) ).
  Each matrix product into a zero accumulator is the sum over its one contracted axis; each row operand is
  broadcast down the 512 rows. Stated over variables of the literal vector types, indices written by coordinates.
-/
import proofs.«144935_j30348238914117_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Ffn

open Cert.KernelIdeal Cert.KernelIdeal.Gen
open Idealize.ShloMosaic Idealize.ShloMosaic.ValueIdx
open scoped BigOperators

/-! ## The two matrix products: which operand element each contracted coordinate meets -/

theorem lhs_first_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_first_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_first_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_first_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The first product into a zero accumulator at (r, j): row r of the left operand against column j of the 1024 × 2048 matrix. -/
theorem matmul_first_apply (a : FVec Ideal S512x1024 .bf16) (b : FVec Ideal S1024x2048 .bf16) (r : Fin 512) (j : Fin 2048) :
    matmul dot_S512x1024_S1024x2048_S512x2048_1_0_0_1_n_n none a b (constant (F := Ideal) S512x2048 .f32 0x00000000#32) (ix2 r j)
      = ∑ k : Fin 1024, a (ix2 r k) * b (ix2 k j) := by
  show FloatOps.matmul dot_S512x1024_S1024x2048_S512x2048_1_0_0_1_n_n none a b (constant (F := Ideal) S512x2048 .f32 0x00000000#32) (ix2 r j) = _
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r j) ((contrEquiv1 dot_S512x1024_S1024x2048_S512x2048_1_0_0_1_n_n 1024 rfl rfl).symm k) = ix2 r k := funext fun ax => Fin.ext (by
    match ax with
    | ⟨0, _⟩ => exact lhs_first_0 _ _
    | ⟨1, _⟩ => exact (lhs_first_1 _ _).trans hk)
  have er : dot_S512x1024_S1024x2048_S512x2048_1_0_0_1_n_n.rhsIdx (ix2 r j) ((contrEquiv1 dot_S512x1024_S1024x2048_S512x2048_1_0_0_1_n_n 1024 rfl rfl).symm k) = ix2 k j := funext fun ax => Fin.ext (by
    match ax with
    | ⟨0, _⟩ => exact (rhs_first_0 _ _).trans hk
    | ⟨1, _⟩ => exact rhs_first_1 _ _)
  rw [el, er]

theorem lhs_second_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_second_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_second_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_second_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The second product into a zero accumulator at (r, j): row r of the left operand against column j of the 2048 × 1024 matrix. -/
theorem matmul_second_apply (a : FVec Ideal S512x2048 .bf16) (b : FVec Ideal S2048x1024 .bf16) (r : Fin 512) (j : Fin 1024) :
    matmul dot_S512x2048_S2048x1024_S512x1024_1_0_0_1_n_n none a b (constant (F := Ideal) S512x1024 .f32 0x00000000#32) (ix2 r j)
      = ∑ k : Fin 2048, a (ix2 r k) * b (ix2 k j) := by
  show FloatOps.matmul dot_S512x2048_S2048x1024_S512x1024_1_0_0_1_n_n none a b (constant (F := Ideal) S512x1024 .f32 0x00000000#32) (ix2 r j) = _
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r j) ((contrEquiv1 dot_S512x2048_S2048x1024_S512x1024_1_0_0_1_n_n 2048 rfl rfl).symm k) = ix2 r k := funext fun ax => Fin.ext (by
    match ax with
    | ⟨0, _⟩ => exact lhs_second_0 _ _
    | ⟨1, _⟩ => exact (lhs_second_1 _ _).trans hk)
  have er : dot_S512x2048_S2048x1024_S512x1024_1_0_0_1_n_n.rhsIdx (ix2 r j) ((contrEquiv1 dot_S512x2048_S2048x1024_S512x1024_1_0_0_1_n_n 2048 rfl rfl).symm k) = ix2 k j := funext fun ax => Fin.ext (by
    match ax with
    | ⟨0, _⟩ => exact (rhs_second_0 _ _).trans hk
    | ⟨1, _⟩ => exact rhs_second_1 _ _)
  rw [el, er]

/-! ## The payloads at an element -/

/-- The normalised row at (r, j): the row's element less its column's mean, times the reciprocal square root of the
    column's variance plus ε, times the column's gain, plus the column's shift. -/
abbrev normedAt (x0 : Vec Ideal S512x1024 .f32) (x1 x2 x3 x4 : Vec Ideal S1x1024 .f32) (r : Fin 512) (j : Fin 1024) : EReal :=
  ((x0 (ix2 r j) - x1 (ix2 (0 : Fin 1) j)) * Ideal.rsqrt (x2 (ix2 (0 : Fin 1) j) + Ideal.ofBits .f32 0x3727C5AC#32)) * x3 (ix2 (0 : Fin 1) j)
    + x4 (ix2 (0 : Fin 1) j)

theorem normalise_apply (x0 : Vec Ideal S512x1024 .f32) (x1 x2 x3 x4 : Vec Ideal S1x1024 .f32) (r : Fin 512) (j : Fin 1024) :
    k2_pay2 x0 x1 x2 x3 x4 (ix2 r j) = normedAt x0 x1 x2 x3 x4 r j := by
  unfold k2_pay2
  simp only [shapeCast_self]
  rw [addf_apply, mulf_apply, mulf_apply, subf_apply, broadcastTo_1b_ab_apply, broadcastTo_1b_ab_apply, broadcastTo_1b_ab_apply,
    broadcastTo_1b_ab_apply]
  rfl

/-- The second bias row passes through its shape cast unchanged. -/
theorem bias2_cast (x8 : Vec Ideal S1x1024 .f32) : k2_pay3 x8 = x8 := by
  unfold k2_pay3
  exact shapeCast_self _ _

/-- The two products at (r, j): over the 2048 hidden columns f, the maximum with zero of the normalised row r
    through column f of the first matrix plus its bias, times the second matrix's element (f, j). -/
theorem products_apply (x0 : Vec Ideal S512x1024 .f32) (x1 x2 x3 x4 : Vec Ideal S1x1024 .f32) (x5 : Vec Ideal S1024x2048 .bf16) (x6 : Vec Ideal S1x2048 .f32) (x7 : Vec Ideal S2048x1024 .bf16) (r : Fin 512) (j : Fin 1024) :
    k2_pay4 x0 x1 x2 x3 x4 x5 x6 x7 (ix2 r j)
      = ∑ f : Fin 2048, max ((∑ k : Fin 1024, normedAt x0 x1 x2 x3 x4 r k * x5 (ix2 k f)) + x6 (ix2 (0 : Fin 1) f)) (Ideal.ofBits .f32 0x00000000#32)
          * x7 (ix2 f j) := by
  unfold k2_pay4
  simp only [shapeCast_self]
  refine (matmul_second_apply _ _ r j).trans ?_
  refine Finset.sum_congr rfl fun f _ => ?_
  refine congrArg (· * x7 (ix2 f j)) ?_
  rw [truncf_apply, maximumf_apply, addf_apply, matmul_first_apply, broadcastTo_1b_ab_apply]
  refine congrArg₂ max (congrArg (· + x6 (ix2 (0 : Fin 1) f)) (Finset.sum_congr rfl fun k _ => ?_)) rfl
  rw [truncf_apply, normalise_apply]

/-- The last sum at (r, j): the normalised row plus (the products plus the second bias). -/
theorem residual_apply (v20 : FVec Ideal S512x1024 .f32) (v35 : FVec Ideal S1x1024 .f32) (v36 : FVec Ideal S512x1024 .f32)
    (r : Fin 512) (j : Fin 1024) :
    k2_pay1 v20 v35 v36 (ix2 r j) = v20 (ix2 r j) + (v36 (ix2 r j) + v35 (ix2 (0 : Fin 1) j)) := by
  unfold k2_pay1
  rw [addf_apply, addf_apply, broadcastTo_1b_ab_apply]

/-- THE STORED VALUE at (r, j). -/
theorem stored_apply (x0 : Vec Ideal S512x1024 .f32) (x1 x2 x3 x4 : Vec Ideal S1x1024 .f32) (x5 : Vec Ideal S1024x2048 .bf16) (x6 : Vec Ideal S1x2048 .f32) (x7 : Vec Ideal S2048x1024 .bf16) (x8 : Vec Ideal S1x1024 .f32) (r : Fin 512) (j : Fin 1024) :
    k2_pay1 (k2_pay2 x0 x1 x2 x3 x4) (k2_pay3 x8) (k2_pay4 x0 x1 x2 x3 x4 x5 x6 x7) (ix2 r j)
      = normedAt x0 x1 x2 x3 x4 r j
        + ((∑ f : Fin 2048, max ((∑ k : Fin 1024, normedAt x0 x1 x2 x3 x4 r k * x5 (ix2 k f)) + x6 (ix2 (0 : Fin 1) f)) (Ideal.ofBits .f32 0x00000000#32)
              * x7 (ix2 f j))
          + x8 (ix2 (0 : Fin 1) j)) := by
  rw [residual_apply, bias2_cast, normalise_apply, products_apply]

end Cert.KernelIdeal.Ffn

end
-- ==== Proof.KI.FfnValue.lean ====
/-
  The third pallas_call's result array as ONE function of the arrays it reads, at the ideal instance. With x the
  65536 × 1024 activations, and the per-column mean, variance, gain and shift rows,
      n(i, j)  =  (x(i, j) − mean(j)) · rsqrt(variance(j) + ε) · gain(j) + shift(j),
  and with the 1024 × 2048 matrix W₁ and bias b₁, the 2048 × 1024 matrix W₂ and bias b₂,
      result(i, j)  =  n(i, j) + ( Σ_f max( Σ_k n(i, k) · W₁(k, f) + b₁(f), 0 ) · W₂(f, j) + b₂(j) ).
  Point t of the 128 writes back rows 512·t … 512·t + 511: its block of activations is those rows of x, every other
  block is its whole array, so what it stores (the stored value read at an element) is those rows of `result`; the
  128 blocks of rows cover the array, so the array ends holding `result`.
-/
import proofs.«144935_j30348238914117_1_alg».proof.Proof.KI.FfnBody
import proofs.«144935_j30348238914117_1_alg».proof.Proof.KI.FfnValue1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Ffn

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## From the blocks to the array -/

variable (V : (c : Dev nD) → (b : Ref sig .tc) → Buf (Elt Ideal) ((c : Thread nD τ).loc b))

/-- The activations as the region finds them, at their literal type; the abbreviations after it name each other array
    the call reads in the same way. -/
abbrev rowsArr (c : Dev nD) : Vec Ideal S65536x1024 .f32 := V c main_v39
abbrev meanArr (c : Dev nD) : Vec Ideal S1x1024 .f32 := V c main_v43
abbrev varArr (c : Dev nD) : Vec Ideal S1x1024 .f32 := V c main_v50
abbrev gainArr (c : Dev nD) : Vec Ideal S1x1024 .f32 := V c main_v6
abbrev shiftArr (c : Dev nD) : Vec Ideal S1x1024 .f32 := V c main_v7
abbrev matrix1Arr (c : Dev nD) : Vec Ideal S1024x2048 .bf16 := V c main_v3
abbrev bias1Arr (c : Dev nD) : Vec Ideal S1x2048 .f32 := V c main_v8
abbrev matrix2Arr (c : Dev nD) : Vec Ideal S2048x1024 .bf16 := V c main_v4
abbrev bias2Arr (c : Dev nD) : Vec Ideal S1x1024 .f32 := V c main_v9

/-- The normalised activations, element by element: (x − mean) · rsqrt(variance + ε) · gain + shift, the row operands
    read at the element's column. -/
abbrev normed (c : Dev nD) : S65536x1024.Idx → EReal := fun i => ((rowsArr V c i - meanArr V c (ix2 (0 : Fin 1) (i 1))) * Ideal.rsqrt (varArr V c (ix2 (0 : Fin 1) (i 1)) + Ideal.ofBits .f32 0x3727C5AC#32)) * gainArr V c (ix2 (0 : Fin 1) (i 1)) + shiftArr V c (ix2 (0 : Fin 1) (i 1))

/-- What the call leaves in its result array, element by element. -/
abbrev result (c : Dev nD) : S65536x1024.Idx → EReal := fun i => normed V c i + ((∑ f : Fin 2048, max ((∑ k : Fin 1024, normed V c (ix2 (i 0) k) * matrix1Arr V c (ix2 k f)) + bias1Arr V c (ix2 (0 : Fin 1) f)) (Ideal.ofBits .f32 0x00000000#32) * matrix2Arr V c (ix2 f (i 1))) + bias2Arr V c (ix2 (0 : Fin 1) (i 1)))

theorem hz : (![0, 0] : Fin 2 → Nat) = fun _ => 0 := funext fun a => by fin_cases a <;> rfl

theorem point_lt (t : Fin cfg2.N) : t.val < 128 := Nat.lt_of_lt_of_le t.isLt (Nat.le_of_eq N_2)

/-- The array row that row `r` of point `t`'s block is. -/
abbrev rowOf (t : Fin cfg2.N) (r : Fin 512) : Fin 65536 := ⟨512 * t.val + r.val, by have := point_lt t; have := r.isLt; omega⟩

/-- The printed index maps, decided over the 128 points: the activations' and the result's blocks are block `t` of
    rows at point `t`; every other window's block index is zero. -/
theorem index_facts : ∀ t : Fin cfg2.N, win2_0.index t (0 : Fin 2) = t.val
    ∧ win2_0.index t (1 : Fin 2) = 0
    ∧ win2_9.index t (0 : Fin 2) = t.val
    ∧ win2_9.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- The activations' block at point `t` is rows 512·t … 512·t + 511 of the activations. -/
theorem rows_block (c : Dev nD) (t : Fin cfg2.N) (r : Fin 512) (j : Fin 1024) :
    (iblk V c 0 t : Vec Ideal S512x1024 .f32) (ix2 r j) = rowsArr V c (ix2 (rowOf t r) j) := by
  show V c main_v39 (((cfg2.win 0).blk t).view.emb (ix2 r j)) = V c main_v39 (ix2 (rowOf t r) j)
  refine congrArg (V c main_v39) (funext fun a => Fin.ext ?_)
  obtain ⟨r0, r1, o0, o1, z10, z11, z20, z21, z30, z31, z40, z41, z50, z51, z60, z61, z70, z71, z80, z81⟩ := index_facts t
  match a with
  | ⟨0, _⟩ => show win2_0.index t (0 : Fin 2) * 512 + 1 * r.val = 512 * t.val + r.val; omega
  | ⟨1, _⟩ => show win2_0.index t (1 : Fin 2) * 1024 + 1 * j.val = j.val; omega

/-- The means' block at every point is the whole row of means: its block index is zero on both axes. -/
theorem mean_block (c : Dev nD) (t : Fin cfg2.N) : (iblk V c 1 t : Vec Ideal S1x1024 .f32) = meanArr V c := by
  funext y
  show V c main_v43 (((cfg2.win 1).blk t).view.emb y) = V c main_v43 y
  refine congrArg (V c main_v43) (funext fun a => Fin.ext ?_)
  obtain ⟨r0, r1, o0, o1, z10, z11, z20, z21, z30, z31, z40, z41, z50, z51, z60, z61, z70, z71, z80, z81⟩ := index_facts t
  match a with
  | ⟨0, _⟩ => show win2_1.index t (0 : Fin 2) * 1 + 1 * (y 0).val = (y 0).val; omega
  | ⟨1, _⟩ => show win2_1.index t (1 : Fin 2) * 1024 + 1 * (y 1).val = (y 1).val; omega

/-- The variances' block at every point is the whole row of variances: its block index is zero on both axes. -/
theorem variance_block (c : Dev nD) (t : Fin cfg2.N) : (iblk V c 2 t : Vec Ideal S1x1024 .f32) = varArr V c := by
  funext y
  show V c main_v50 (((cfg2.win 2).blk t).view.emb y) = V c main_v50 y
  refine congrArg (V c main_v50) (funext fun a => Fin.ext ?_)
  obtain ⟨r0, r1, o0, o1, z10, z11, z20, z21, z30, z31, z40, z41, z50, z51, z60, z61, z70, z71, z80, z81⟩ := index_facts t
  match a with
  | ⟨0, _⟩ => show win2_2.index t (0 : Fin 2) * 1 + 1 * (y 0).val = (y 0).val; omega
  | ⟨1, _⟩ => show win2_2.index t (1 : Fin 2) * 1024 + 1 * (y 1).val = (y 1).val; omega

/-- The gains' block at every point is the whole row of gains: its block index is zero on both axes. -/
theorem gain_block (c : Dev nD) (t : Fin cfg2.N) : (iblk V c 3 t : Vec Ideal S1x1024 .f32) = gainArr V c := by
  funext y
  show V c main_v6 (((cfg2.win 3).blk t).view.emb y) = V c main_v6 y
  refine congrArg (V c main_v6) (funext fun a => Fin.ext ?_)
  obtain ⟨r0, r1, o0, o1, z10, z11, z20, z21, z30, z31, z40, z41, z50, z51, z60, z61, z70, z71, z80, z81⟩ := index_facts t
  match a with
  | ⟨0, _⟩ => show win2_3.index t (0 : Fin 2) * 1 + 1 * (y 0).val = (y 0).val; omega
  | ⟨1, _⟩ => show win2_3.index t (1 : Fin 2) * 1024 + 1 * (y 1).val = (y 1).val; omega

/-- The shifts' block at every point is the whole row of shifts: its block index is zero on both axes. -/
theorem shift_block (c : Dev nD) (t : Fin cfg2.N) : (iblk V c 4 t : Vec Ideal S1x1024 .f32) = shiftArr V c := by
  funext y
  show V c main_v7 (((cfg2.win 4).blk t).view.emb y) = V c main_v7 y
  refine congrArg (V c main_v7) (funext fun a => Fin.ext ?_)
  obtain ⟨r0, r1, o0, o1, z10, z11, z20, z21, z30, z31, z40, z41, z50, z51, z60, z61, z70, z71, z80, z81⟩ := index_facts t
  match a with
  | ⟨0, _⟩ => show win2_4.index t (0 : Fin 2) * 1 + 1 * (y 0).val = (y 0).val; omega
  | ⟨1, _⟩ => show win2_4.index t (1 : Fin 2) * 1024 + 1 * (y 1).val = (y 1).val; omega

/-- The first matrix's block at every point is the whole 1024 × 2048 matrix: its block index is zero on both axes. -/
theorem matrix1_block (c : Dev nD) (t : Fin cfg2.N) : (iblk V c 5 t : Vec Ideal S1024x2048 .bf16) = matrix1Arr V c := by
  funext y
  show V c main_v3 (((cfg2.win 5).blk t).view.emb y) = V c main_v3 y
  refine congrArg (V c main_v3) (funext fun a => Fin.ext ?_)
  obtain ⟨r0, r1, o0, o1, z10, z11, z20, z21, z30, z31, z40, z41, z50, z51, z60, z61, z70, z71, z80, z81⟩ := index_facts t
  match a with
  | ⟨0, _⟩ => show win2_5.index t (0 : Fin 2) * 1024 + 1 * (y 0).val = (y 0).val; omega
  | ⟨1, _⟩ => show win2_5.index t (1 : Fin 2) * 2048 + 1 * (y 1).val = (y 1).val; omega

/-- The first bias's block at every point is the whole row of 2048 biases: its block index is zero on both axes. -/
theorem bias1_block (c : Dev nD) (t : Fin cfg2.N) : (iblk V c 6 t : Vec Ideal S1x2048 .f32) = bias1Arr V c := by
  funext y
  show V c main_v8 (((cfg2.win 6).blk t).view.emb y) = V c main_v8 y
  refine congrArg (V c main_v8) (funext fun a => Fin.ext ?_)
  obtain ⟨r0, r1, o0, o1, z10, z11, z20, z21, z30, z31, z40, z41, z50, z51, z60, z61, z70, z71, z80, z81⟩ := index_facts t
  match a with
  | ⟨0, _⟩ => show win2_6.index t (0 : Fin 2) * 1 + 1 * (y 0).val = (y 0).val; omega
  | ⟨1, _⟩ => show win2_6.index t (1 : Fin 2) * 2048 + 1 * (y 1).val = (y 1).val; omega

/-- The second matrix's block at every point is the whole 2048 × 1024 matrix: its block index is zero on both axes. -/
theorem matrix2_block (c : Dev nD) (t : Fin cfg2.N) : (iblk V c 7 t : Vec Ideal S2048x1024 .bf16) = matrix2Arr V c := by
  funext y
  show V c main_v4 (((cfg2.win 7).blk t).view.emb y) = V c main_v4 y
  refine congrArg (V c main_v4) (funext fun a => Fin.ext ?_)
  obtain ⟨r0, r1, o0, o1, z10, z11, z20, z21, z30, z31, z40, z41, z50, z51, z60, z61, z70, z71, z80, z81⟩ := index_facts t
  match a with
  | ⟨0, _⟩ => show win2_7.index t (0 : Fin 2) * 2048 + 1 * (y 0).val = (y 0).val; omega
  | ⟨1, _⟩ => show win2_7.index t (1 : Fin 2) * 1024 + 1 * (y 1).val = (y 1).val; omega

/-- The second bias's block at every point is the whole row of 1024 biases: its block index is zero on both axes. -/
theorem bias2_block (c : Dev nD) (t : Fin cfg2.N) : (iblk V c 8 t : Vec Ideal S1x1024 .f32) = bias2Arr V c := by
  funext y
  show V c main_v9 (((cfg2.win 8).blk t).view.emb y) = V c main_v9 y
  refine congrArg (V c main_v9) (funext fun a => Fin.ext ?_)
  obtain ⟨r0, r1, o0, o1, z10, z11, z20, z21, z30, z31, z40, z41, z50, z51, z60, z61, z70, z71, z80, z81⟩ := index_facts t
  match a with
  | ⟨0, _⟩ => show win2_8.index t (0 : Fin 2) * 1 + 1 * (y 0).val = (y 0).val; omega
  | ⟨1, _⟩ => show win2_8.index t (1 : Fin 2) * 1024 + 1 * (y 1).val = (y 1).val; omega

/-- Element (r, j) of the result's block at point `t` is element (512·t + r, j) of the result array. -/
theorem out_emb (t : Fin cfg2.N) (r : Fin 512) (j : Fin 1024) :
    ((cfg2.win 9).blk t).view.emb (ix2 r j) = (ix2 (rowOf t r) j : S65536x1024.Idx) := by
  funext a; apply Fin.ext
  obtain ⟨r0, r1, o0, o1, z10, z11, z20, z21, z30, z31, z40, z41, z50, z51, z60, z61, z70, z71, z80, z81⟩ := index_facts t
  match a with
  | ⟨0, _⟩ => show win2_9.index t (0 : Fin 2) * 512 + 1 * r.val = 512 * t.val + r.val; omega
  | ⟨1, _⟩ => show win2_9.index t (1 : Fin 2) * 1024 + 1 * j.val = j.val; omega

/-- The normalised block row is the normalised array row. -/
theorem normedAt_block (c : Dev nD) (t : Fin cfg2.N) (r : Fin 512) (k : Fin 1024) :
    normedAt (iblk V c 0 t) (meanArr V c) (varArr V c) (gainArr V c) (shiftArr V c) r k = normed V c (ix2 (rowOf t r) k) := by
  unfold normedAt
  rw [rows_block]

/-- WHAT POINT `t` WRITES BACK is block `t` of `result`. -/
theorem flushed_eq (c : Dev nD) (t : Fin cfg2.N) :
    (dat (F := Ideal) V c).flushed 9 t = ((cfg2.win 9).blk t).view.read (Elt Ideal) (result V c) := by
  show (cfg2.win 9).cut (grid2.coords t) ((dat (F := Ideal) V c).after 9 t) = _
  rw [after_9]
  unfold out
  rw [View.canon_unit_zero hz]
  simp only [View.ld_unit_zero (S := S512x1024) hz, View.ld_unit_zero (S := S1x1024) hz, View.ld_unit_zero (S := S1024x2048) hz,
    View.ld_unit_zero (S := S1x2048) hz, View.ld_unit_zero (S := S2048x1024) hz]
  rw [mean_block, variance_block, gain_block, shift_block, matrix1_block, bias1_block, matrix2_block, bias2_block]
  refine funext fun y => ?_
  obtain ⟨r, j, rfl⟩ : ∃ (r : Fin 512) (j : Fin 1024), y = ix2 r j := ⟨y 0, y 1, eq_ix2 y⟩
  refine Eq.trans ?_ (congrArg (result V c) (out_emb t r j).symm)
  refine (stored_apply (iblk V c 0 t) (meanArr V c) (varArr V c) (gainArr V c) (shiftArr V c) (matrix1Arr V c) (bias1Arr V c)
    (matrix2Arr V c) (bias2Arr V c) r j).trans ?_
  exact congrArg₂ (· + ·) (normedAt_block V c t r j)
    (congrArg (· + bias2Arr V c (ix2 (0 : Fin 1) j))
      (Finset.sum_congr rfl fun f _ => congrArg (· * matrix2Arr V c (ix2 f j))
        (congrArg (max · (Ideal.ofBits .f32 0x00000000#32))
          (congrArg (· + bias1Arr V c (ix2 (0 : Fin 1) f))
            (Finset.sum_congr rfl fun k _ => congrArg (· * matrix1Arr V c (ix2 k f)) (normedAt_block V c t r k))))))

/-- An index of the result array is in point `t`'s block iff each coordinate is in the block's range on its axis. -/
theorem mem_block (t : Fin cfg2.N) (i : S65536x1024.Idx) :
    i ∈ ((cfg2.win 9).blk t).view.set ↔ ∀ a : Fin 2, win2_9.index t a * S512x1024.size a ≤ (i a).val ∧ (i a).val < win2_9.index t a * S512x1024.size a + S512x1024.size a := by
  show i ∈ ((View.whole main_v51).slice (win2_9.rect t)).set ↔ _
  rw [View.set_slice_whole, Rect.mem_set_unit]
  exact Iff.rfl

/-- Every element of the result array is in the block of the point its row falls to, row / 512, and every point
    writes its block back. -/
theorem covered (i : S65536x1024.Idx) :
    ∃ t : Fin cfg2.N, (cfg2.win 9).flush t = true ∧ i ∈ ((cfg2.win 9).blk t).view.set := by
  have h0 : (i 0).val < 65536 := (i 0).isLt
  have h1 : (i 1).val < 1024 := (i 1).isLt
  have hN : (i 0).val / 512 < cfg2.N := Nat.lt_of_lt_of_le (show (i 0).val / 512 < 128 by omega) (Nat.le_of_eq N_2.symm)
  refine ⟨⟨(i 0).val / 512, hN⟩, flush2_9 _, ?_⟩
  rw [mem_block]
  have e := index_facts ⟨(i 0).val / 512, hN⟩
  have e0 : win2_9.index ⟨(i 0).val / 512, hN⟩ (0 : Fin 2) = (i 0).val / 512 := e.2.2.1
  have e1 : win2_9.index ⟨(i 0).val / 512, hN⟩ (1 : Fin 2) = 0 := e.2.2.2.1
  intro a
  match a with
  | ⟨0, _⟩ =>
    show win2_9.index ⟨(i 0).val / 512, hN⟩ (0 : Fin 2) * 512 ≤ (i 0).val ∧ (i 0).val < win2_9.index ⟨(i 0).val / 512, hN⟩ (0 : Fin 2) * 512 + 512
    rw [e0]; omega
  | ⟨1, _⟩ =>
    show win2_9.index ⟨(i 0).val / 512, hN⟩ (1 : Fin 2) * 1024 ≤ (i 1).val ∧ (i 1).val < win2_9.index ⟨(i 0).val / 512, hN⟩ (1 : Fin 2) * 1024 + 1024
    rw [e1]; omega

/-- THE RESULT ARRAY after the call: the normalised activations plus what the two matrix products make of them plus
    the second bias, element by element. -/
theorem final (c : Dev nD) : (dat (F := Ideal) V c).arrAt 9 cfg2.N = fun i : S65536x1024.Idx => normed V c i + ((∑ f : Fin 2048, max ((∑ k : Fin 1024, normed V c (ix2 (i 0) k) * matrix1Arr V c (ix2 k f)) + bias1Arr V c (ix2 (0 : Fin 1) f)) (Ideal.ofBits .f32 0x00000000#32) * matrix2Arr V c (ix2 f (i 1))) + bias2Arr V c (ix2 (0 : Fin 1) (i 1))) :=
  (dat (F := Ideal) V c).arrAt_eq_of_cover 9 (result V c) (fun t _ => flushed_eq V c t) covered

end Cert.KernelIdeal.Ffn

end
-- ==== Proof.KI.BridgeFfn.lean ====
/-
  The third pallas_call's output array against the reference. At the ideal instance that array holds, at row r and
  column j, with n(r, k) = (x(r, k) − mean(k)) · rsqrt(var(k) + ε) · gain(k) + shift(k) the normalised row,
      n(r, j) + ( Σ_f max( Σ_k n(r, k) · W₁(k, f) + b₁(f), 0 ) · W₂(f, j) + b₂(j) ).
  The rows x are what the second pallas_call left; mean and var are the column statistics the host computed from
  them; gain, shift, b₁, b₂ are the seventh, eighth, tenth and twelfth inputs laid out as one row each; W₁, W₂ are the
  ninth and eleventh inputs after a change of format (the identity on extended reals). When the rows are the
  reference's stage "input plus projected attention plus bias" and the statistics are the reference's mean and
  variance of that stage, n is the reference's normalised stage, the two sums are its two dot_generals with the
  maximum with zero between, and the whole is its stage "normalised rows plus feed-forward".
-/
import proofs.«144935_j30348238914117_1_alg».proof.Proof.KI.FfnValue
import proofs.«144935_j30348238914117_1_alg».proof.Proof.RefReadP
import proofs.«144935_j30348238914117_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Cert.ReferenceIdeal
open Idealize.ShloMosaic Idealize.ShloMosaic.TcCoe Idealize.SL.Sem
open Idealize.ShloMosaic.ValueIdx
open scoped BigOperators

/-! ## The reference's index maps at an index written by coordinates -/

local macro "ffn_idx_ext" : tactic =>
  `(tactic| exact funext fun a => Fin.ext (by match a with | ⟨0, _⟩ => rfl | ⟨1, _⟩ => rfl))
local macro "ffn_idx_ext1" : tactic =>
  `(tactic| exact funext fun a => Fin.ext (by match a with | ⟨0, _⟩ => rfl))

theorem ffn_idx38 (r : Fin 65536) (j : Fin 1024) : ReadP.idx_main_v38 (ix2 r j) = ix2 (0 : Fin 1) j := by ffn_idx_ext
theorem ffn_idx37 (u : Fin 1) (j : Fin 1024) : ReadP.idx_main_v37 (ix2 u j) = ix1 j := by ffn_idx_ext1
theorem ffn_idx44 (r : Fin 65536) (j : Fin 1024) : ReadP.idx_main_v44 (ix2 r j) = ix2 (0 : Fin 1) j := by ffn_idx_ext
theorem ffn_idx43 (u : Fin 1) (j : Fin 1024) : ReadP.idx_main_v43 (ix2 u j) = ix1 j := by ffn_idx_ext1
theorem ffn_idx47 (r : Fin 65536) (j : Fin 1024) : ReadP.idx_main_v47 (ix2 r j) = ix2 (0 : Fin 1) j := by ffn_idx_ext
theorem ffn_idx46 (u : Fin 1) (j : Fin 1024) : ReadP.idx_main_v46 (ix2 u j) = ix1 j := by ffn_idx_ext1
theorem ffn_idx50 (r : Fin 65536) (j : Fin 1024) : ReadP.idx_main_v50 (ix2 r j) = ix2 (0 : Fin 1) j := by ffn_idx_ext
theorem ffn_idx49 (u : Fin 1) (j : Fin 1024) : ReadP.idx_main_v49 (ix2 u j) = ix1 j := by ffn_idx_ext1
theorem ffn_idx59 (r : Fin 65536) (j : Fin 1024) : ReadP.idx_main_v59 (ix2 r j) = ix2 (0 : Fin 1) j := by ffn_idx_ext
theorem ffn_idx58 (u : Fin 1) (j : Fin 1024) : ReadP.idx_main_v58 (ix2 u j) = ix1 j := by ffn_idx_ext1
theorem ffn_idx54 (r : Fin 65536) (f : Fin 2048) : ReadP.idx_main_v54 (ix2 r f) = ix2 (0 : Fin 1) f := by ffn_idx_ext
theorem ffn_idx53 (u : Fin 1) (f : Fin 2048) : ReadP.idx_main_v53 (ix2 u f) = ix1 f := by ffn_idx_ext1
theorem ffn_lidx57 (r : Fin 65536) (j : Fin 1024) (f : Fin 2048) : ReadP.lidx_main_v57 (ix2 r j) f = ix2 r f := by ffn_idx_ext
theorem ffn_ridx57 (r : Fin 65536) (j : Fin 1024) (f : Fin 2048) : ReadP.ridx_main_v57 (ix2 r j) f = ix2 f j := by ffn_idx_ext
theorem ffn_lidx52 (r : Fin 65536) (f : Fin 2048) (k : Fin 1024) : ReadP.lidx_main_v52 (ix2 r f) k = ix2 r k := by ffn_idx_ext
theorem ffn_ridx52 (r : Fin 65536) (f : Fin 2048) (k : Fin 1024) : ReadP.ridx_main_v52 (ix2 r f) k = ix2 k f := by ffn_idx_ext

/-! ## The reference's stages at (r, j) -/

/-- The reference's normalised rows at (r, j): the row's element less its column's mean, times the reciprocal square
    root of the column's variance plus ε, times the column's gain, plus the column's shift. -/
theorem ffn_ref_normed (x0 : Vec Ideal S65536x1024 .f32) (x1 x2 x3 x4 : Vec Ideal S1024x1024 .f32) (x5 x6 x7 : Vec Ideal S1024 .f32)
    (r : Fin 65536) (j : Fin 1024) :
    ReadP.val_main_v51 (F := Ideal) x0 x1 x2 x3 x4 x5 x6 x7 (ix2 r j)
      = ((ReadP.val_main_v26 (F := Ideal) x0 x1 x2 x3 x4 x5 (ix2 r j) - ReadP.val_main_v29 (F := Ideal) x0 x1 x2 x3 x4 x5 (ix1 j))
            * Ideal.rsqrt (ReadP.val_main_v36 (F := Ideal) x0 x1 x2 x3 x4 x5 (ix1 j) + Ideal.ofBits .f32 0x3727C5AC#32))
          * x6 (ix1 j) + x7 (ix1 j) := by
  rw [ReadP.val_main_v51_apply, ReadP.val_main_v50_apply, ffn_idx50, ReadP.val_main_v49_apply, ffn_idx49,
    ReadP.val_main_v48_apply, ReadP.val_main_v47_apply, ffn_idx47, ReadP.val_main_v46_apply, ffn_idx46,
    ReadP.val_main_v45_apply, ReadP.val_main_v44_apply, ffn_idx44, ReadP.val_main_v43_apply, ffn_idx43,
    ReadP.val_main_v42_apply, ReadP.val_main_v41_apply, ReadP.val_main_v40_apply, ReadP.val_main_cst_7_apply,
    ReadP.val_main_v39_apply, ReadP.val_main_v38_apply, ffn_idx38, ReadP.val_main_v37_apply, ffn_idx37]
  rfl

/-- The reference's hidden layer at (r, f): the normalised row r through column f of the first matrix, plus the bias,
    its maximum with zero. -/
theorem ffn_ref_hidden (x0 : Vec Ideal S65536x1024 .f32) (x1 x2 x3 x4 : Vec Ideal S1024x1024 .f32) (x5 x6 x7 : Vec Ideal S1024 .f32)
    (x8 : Vec Ideal S1024x2048 .f32) (x9 : Vec Ideal S2048 .f32) (r : Fin 65536) (f : Fin 2048) :
    ReadP.val_main_v56 (F := Ideal) x0 x1 x2 x3 x4 x5 x6 x7 x8 x9 (ix2 r f)
      = max ((∑ k : Fin 1024, ReadP.val_main_v51 (F := Ideal) x0 x1 x2 x3 x4 x5 x6 x7 (ix2 r k) * x8 (ix2 k f)) + x9 (ix1 f))
          (Ideal.ofBits .f32 0x00000000#32) := by
  rw [ReadP.val_main_v56_apply, ReadP.val_main_call0_v0_apply, ReadP.val_main_call0_cst_apply, ReadP.val_main_v55_apply,
    ReadP.val_main_v54_apply, ffn_idx54, ReadP.val_main_v53_apply, ffn_idx53, ReadP.val_main_v52_apply]
  simp only [ffn_lidx52, ffn_ridx52]
  rfl

/-- The reference's stage after the two dense layers at (r, j): the normalised row plus (the hidden layer through
    column j of the second matrix, plus the second bias). -/
theorem ffn_ref_stage (x0 : Vec Ideal S65536x1024 .f32) (x1 x2 x3 x4 : Vec Ideal S1024x1024 .f32) (x5 x6 x7 : Vec Ideal S1024 .f32)
    (x8 : Vec Ideal S1024x2048 .f32) (x9 : Vec Ideal S2048 .f32) (x10 : Vec Ideal S2048x1024 .f32) (x11 : Vec Ideal S1024 .f32)
    (r : Fin 65536) (j : Fin 1024) :
    ReadP.val_main_v61 (F := Ideal) x0 x1 x2 x3 x4 x5 x6 x7 x8 x9 x10 x11 (ix2 r j)
      = ReadP.val_main_v51 (F := Ideal) x0 x1 x2 x3 x4 x5 x6 x7 (ix2 r j)
        + ((∑ f : Fin 2048, max ((∑ k : Fin 1024, ReadP.val_main_v51 (F := Ideal) x0 x1 x2 x3 x4 x5 x6 x7 (ix2 r k) * x8 (ix2 k f)) + x9 (ix1 f))
              (Ideal.ofBits .f32 0x00000000#32) * x10 (ix2 f j))
          + x11 (ix1 j)) := by
  rw [ReadP.val_main_v61_apply, ReadP.val_main_v60_apply, ReadP.val_main_v59_apply, ffn_idx59, ReadP.val_main_v58_apply, ffn_idx58,
    ReadP.val_main_v57_apply]
  simp only [ffn_lidx57, ffn_ridx57, ffn_ref_hidden]
  rfl

/-! ## The formula against the reference's stages, over any arrays -/

/-- The normalised row at (r, k), over any arrays of rows, column means, variances, gains and shifts. -/
abbrev ffn_normedAt (rows : Vec Ideal S65536x1024 .f32) (mean var gain shift : Vec Ideal S1x1024 .f32) (r : Fin 65536) (k : Fin 1024) : EReal :=
  ((rows (ix2 r k) - mean (ix2 (0 : Fin 1) k)) * Ideal.rsqrt (var (ix2 (0 : Fin 1) k) + Ideal.ofBits .f32 0x3727C5AC#32)) * gain (ix2 (0 : Fin 1) k)
    + shift (ix2 (0 : Fin 1) k)

/-- Normalised row plus (hidden layer times second matrix, plus second bias) at (r, j) is the reference's stage there,
    once the rows are the reference's stage before the normalisation, the statistics its mean and variance, and
    gains, shifts, matrices and biases the inputs they are read from. -/
theorem ffn_core
    (x0 : Vec Ideal S65536x1024 .f32) (x1 x2 x3 x4 : Vec Ideal S1024x1024 .f32) (x5 x6 x7 : Vec Ideal S1024 .f32)
    (x8 : Vec Ideal S1024x2048 .f32) (x9 : Vec Ideal S2048 .f32) (x10 : Vec Ideal S2048x1024 .f32) (x11 : Vec Ideal S1024 .f32)
    (rows : Vec Ideal S65536x1024 .f32) (mean var gain shift : Vec Ideal S1x1024 .f32)
    (mat1 : Vec Ideal S1024x2048 .bf16) (bias1 : Vec Ideal S1x2048 .f32) (mat2 : Vec Ideal S2048x1024 .bf16) (bias2 : Vec Ideal S1x1024 .f32)
    (hrows : ∀ i, rows i = ReadP.val_main_v26 (F := Ideal) x0 x1 x2 x3 x4 x5 i)
    (hmean : ∀ j : Fin 1024, mean (ix2 (0 : Fin 1) j) = ReadP.val_main_v29 (F := Ideal) x0 x1 x2 x3 x4 x5 (ix1 j))
    (hvar : ∀ j : Fin 1024, var (ix2 (0 : Fin 1) j) = ReadP.val_main_v36 (F := Ideal) x0 x1 x2 x3 x4 x5 (ix1 j))
    (hgain : ∀ j : Fin 1024, gain (ix2 (0 : Fin 1) j) = x6 (ix1 j))
    (hshift : ∀ j : Fin 1024, shift (ix2 (0 : Fin 1) j) = x7 (ix1 j))
    (hmat1 : ∀ i, mat1 i = x8 i) (hbias1 : ∀ f : Fin 2048, bias1 (ix2 (0 : Fin 1) f) = x9 (ix1 f))
    (hmat2 : ∀ i, mat2 i = x10 i) (hbias2 : ∀ j : Fin 1024, bias2 (ix2 (0 : Fin 1) j) = x11 (ix1 j))
    (r : Fin 65536) (j : Fin 1024) :
    ffn_normedAt rows mean var gain shift r j
        + ((∑ f : Fin 2048, max ((∑ k : Fin 1024, ffn_normedAt rows mean var gain shift r k * (mat1 (ix2 k f) : EReal)) + bias1 (ix2 (0 : Fin 1) f))
              (Ideal.ofBits .f32 0x00000000#32) * (mat2 (ix2 f j) : EReal))
          + bias2 (ix2 (0 : Fin 1) j))
      = ReadP.val_main_v61 (F := Ideal) x0 x1 x2 x3 x4 x5 x6 x7 x8 x9 x10 x11 (ix2 r j) := by
  have hn : ∀ k : Fin 1024, ffn_normedAt rows mean var gain shift r k = ReadP.val_main_v51 (F := Ideal) x0 x1 x2 x3 x4 x5 x6 x7 (ix2 r k) := fun k => by
    rw [ffn_ref_normed, ← hrows, ← hmean, ← hvar, ← hgain, ← hshift]
  rw [ffn_ref_stage, hbias2]
  simp only [hn, hmat1, hmat2, hbias1]

/-! ## The entries of the valuation the third call is entered with -/

variable (m : (ℓ : Loc nD τ sig) → Buf (Elt Ideal) ℓ) (outs : Outs (F := Ideal)) (c : Dev nD)

/-- The rows the second pallas_call left are untouched by the host stretch after it. -/
theorem ffn_entry_rows : V5 m outs c (Proc.devRef .tc main_v39) = outs 4 main_v39 c := by
  rw [V5_of m outs c main_v39 (by decide)]
  exact Function.update_self ..

/-- The gain row is the seventh input's 1024 entries laid out as one row at launch, never written again. -/
theorem ffn_entry_gain (j : Fin 1024) :
    (V5 m outs c (Proc.devRef .tc main_v6) : Vec Ideal S1x1024 .f32) (ix2 (0 : Fin 1) j) = (m ((c.tc : Thread nD τ).loc main_arg6) : Vec Ideal S1024 .f32) (ix1 j) := by
  rw [V5_of m outs c main_v6 (by decide), V4_of m outs c main_v6 (by decide), V3_of m outs c main_v6 (by decide), V2_of m outs c main_v6 (by decide)]
  show StableHlo.after hostOps0 (V0 m c) (Proc.devRef .tc main_v6) (ix2 (0 : Fin 1) j) = _
  after_results_simp
  exact shapeCast_a_1a_apply (a := 1024) (V0 m c (Proc.devRef .tc main_arg6)) shapeCasts_S1024_S1x1024 0 j

/-- The shift row is the eighth input's 1024 entries laid out as one row. -/
theorem ffn_entry_shift (j : Fin 1024) :
    (V5 m outs c (Proc.devRef .tc main_v7) : Vec Ideal S1x1024 .f32) (ix2 (0 : Fin 1) j) = (m ((c.tc : Thread nD τ).loc main_arg7) : Vec Ideal S1024 .f32) (ix1 j) := by
  rw [V5_of m outs c main_v7 (by decide), V4_of m outs c main_v7 (by decide), V3_of m outs c main_v7 (by decide), V2_of m outs c main_v7 (by decide)]
  show StableHlo.after hostOps0 (V0 m c) (Proc.devRef .tc main_v7) (ix2 (0 : Fin 1) j) = _
  after_results_simp
  exact shapeCast_a_1a_apply (a := 1024) (V0 m c (Proc.devRef .tc main_arg7)) shapeCasts_S1024_S1x1024 0 j

/-- The first bias row is the tenth input's 2048 entries laid out as one row. -/
theorem ffn_entry_bias1 (f : Fin 2048) :
    (V5 m outs c (Proc.devRef .tc main_v8) : Vec Ideal S1x2048 .f32) (ix2 (0 : Fin 1) f) = (m ((c.tc : Thread nD τ).loc main_arg9) : Vec Ideal S2048 .f32) (ix1 f) := by
  rw [V5_of m outs c main_v8 (by decide), V4_of m outs c main_v8 (by decide), V3_of m outs c main_v8 (by decide), V2_of m outs c main_v8 (by decide)]
  show StableHlo.after hostOps0 (V0 m c) (Proc.devRef .tc main_v8) (ix2 (0 : Fin 1) f) = _
  after_results_simp
  exact shapeCast_a_1a_apply (a := 2048) (V0 m c (Proc.devRef .tc main_arg9)) shapeCasts_S2048_S1x2048 0 f

/-- The second bias row is the twelfth input's 1024 entries laid out as one row. -/
theorem ffn_entry_bias2 (j : Fin 1024) :
    (V5 m outs c (Proc.devRef .tc main_v9) : Vec Ideal S1x1024 .f32) (ix2 (0 : Fin 1) j) = (m ((c.tc : Thread nD τ).loc main_arg11) : Vec Ideal S1024 .f32) (ix1 j) := by
  rw [V5_of m outs c main_v9 (by decide), V4_of m outs c main_v9 (by decide), V3_of m outs c main_v9 (by decide), V2_of m outs c main_v9 (by decide)]
  show StableHlo.after hostOps0 (V0 m c) (Proc.devRef .tc main_v9) (ix2 (0 : Fin 1) j) = _
  after_results_simp
  exact shapeCast_a_1a_apply (a := 1024) (V0 m c (Proc.devRef .tc main_arg11)) shapeCasts_S1024_S1x1024 0 j

/-- The first matrix the call reads is the ninth input: its change of format is the identity. -/
theorem ffn_entry_matrix1 (y : S1024x2048.Idx) :
    (V5 m outs c (Proc.devRef .tc main_v3) : Vec Ideal S1024x2048 .bf16) y = (m ((c.tc : Thread nD τ).loc main_arg8) : Vec Ideal S1024x2048 .f32) y := by
  rw [V5_of m outs c main_v3 (by decide), V4_of m outs c main_v3 (by decide), V3_of m outs c main_v3 (by decide), V2_of m outs c main_v3 (by decide)]
  show StableHlo.after hostOps0 (V0 m c) (Proc.devRef .tc main_v3) y = _
  after_results_simp
  rfl

/-- The second matrix the call reads is the eleventh input. -/
theorem ffn_entry_matrix2 (y : S2048x1024.Idx) :
    (V5 m outs c (Proc.devRef .tc main_v4) : Vec Ideal S2048x1024 .bf16) y = (m ((c.tc : Thread nD τ).loc main_arg10) : Vec Ideal S2048x1024 .f32) y := by
  rw [V5_of m outs c main_v4 (by decide), V4_of m outs c main_v4 (by decide), V3_of m outs c main_v4 (by decide), V2_of m outs c main_v4 (by decide)]
  show StableHlo.after hostOps0 (V0 m c) (Proc.devRef .tc main_v4) y = _
  after_results_simp
  rfl

/-! ## The third call's output array is the reference's stage -/

/-- The third call's output array at (r, j), once it is known there by the formula over the entries of the valuation
    the call is entered with. -/
theorem ffn_eq_of_formula
    (hx : ∀ i : S65536x1024.Idx, outs 4 main_v39 c i
      = ReadP.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i)
    (hst : ∀ j : Fin 1024,
      V5 m outs c (Proc.devRef .tc main_v43) (ix2 (0 : Fin 1) j)
          = ReadP.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix1 j)
        ∧ V5 m outs c (Proc.devRef .tc main_v50) (ix2 (0 : Fin 1) j)
          = ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix1 j))
    (r : Fin 65536) (j : Fin 1024) :
    ffn_normedAt (V5 m outs c (Proc.devRef .tc main_v39)) (V5 m outs c (Proc.devRef .tc main_v43)) (V5 m outs c (Proc.devRef .tc main_v50))
          (V5 m outs c (Proc.devRef .tc main_v6)) (V5 m outs c (Proc.devRef .tc main_v7)) r j
        + ((∑ f : Fin 2048, max ((∑ k : Fin 1024, ffn_normedAt (V5 m outs c (Proc.devRef .tc main_v39)) (V5 m outs c (Proc.devRef .tc main_v43)) (V5 m outs c (Proc.devRef .tc main_v50))
                  (V5 m outs c (Proc.devRef .tc main_v6)) (V5 m outs c (Proc.devRef .tc main_v7)) r k
                * ((V5 m outs c (Proc.devRef .tc main_v3) : Vec Ideal S1024x2048 .bf16) (ix2 k f) : EReal))
              + (V5 m outs c (Proc.devRef .tc main_v8) : Vec Ideal S1x2048 .f32) (ix2 (0 : Fin 1) f))
              (Ideal.ofBits .f32 0x00000000#32) * ((V5 m outs c (Proc.devRef .tc main_v4) : Vec Ideal S2048x1024 .bf16) (ix2 f j) : EReal))
          + (V5 m outs c (Proc.devRef .tc main_v9) : Vec Ideal S1x1024 .f32) (ix2 (0 : Fin 1) j))
      = ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 r j) :=
  ffn_core (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (V5 m outs c (Proc.devRef .tc main_v39)) (V5 m outs c (Proc.devRef .tc main_v43)) (V5 m outs c (Proc.devRef .tc main_v50))
    (V5 m outs c (Proc.devRef .tc main_v6)) (V5 m outs c (Proc.devRef .tc main_v7))
    (V5 m outs c (Proc.devRef .tc main_v3)) (V5 m outs c (Proc.devRef .tc main_v8)) (V5 m outs c (Proc.devRef .tc main_v4)) (V5 m outs c (Proc.devRef .tc main_v9))
    (fun y => (congrFun (ffn_entry_rows m outs c) y).trans (hx y)) (fun j => (hst j).1) (fun j => (hst j).2)
    (ffn_entry_gain m outs c) (ffn_entry_shift m outs c) (ffn_entry_matrix1 m outs c) (ffn_entry_bias1 m outs c)
    (ffn_entry_matrix2 m outs c) (ffn_entry_bias2 m outs c) r j

/-- What the third call leaves in its output array, when that is the array its pipeline ends with from the valuation
    it is entered with, the rows there are the reference's stage before the normalisation and the two rows of
    statistics its mean and variance, is the reference's "normalised rows plus feed-forward" at every index. -/
theorem ffn_eq
    (h6 : outs 6 main_v51 c = (Ffn.dat (F := Ideal) (fun c b => V5 m outs c b) c).arrAt 9 cfg2.N)
    (hx : ∀ i : S65536x1024.Idx, outs 4 main_v39 c i
      = ReadP.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i)
    (hst : ∀ j : Fin 1024,
      V5 m outs c (Proc.devRef .tc main_v43) (ix2 (0 : Fin 1) j)
          = ReadP.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix1 j)
        ∧ V5 m outs c (Proc.devRef .tc main_v50) (ix2 (0 : Fin 1) j)
          = ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix1 j))
    (i : S65536x1024.Idx) :
    outs 6 main_v51 c i
      = ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) i := by
  obtain ⟨r, j, rfl⟩ : ∃ (r : Fin 65536) (j : Fin 1024), i = ix2 r j := ⟨i 0, i 1, eq_ix2 i⟩
  refine (congrFun (h6.trans (Ffn.final _ c)) (ix2 r j)).trans ?_
  exact ffn_eq_of_formula m outs c hx hst r j

end Cert.KernelIdeal.Bridge

end
-- ==== Proof.KI.BnValue.lean ====
/-
  The fourth pallas_call's result as ONE function of the arrays the region is entered with, at the ideal instance
  (floats are extended reals): row r, column k of the 65536 × 1024 output is
      (x r k − mean k) · rsqrt (variance k + ε) · scale k + shift k,
  x the activations and mean, variance, scale, shift the four 1 × 1024 rows. Point t of the 64 writes rows
  1024·t … 1024·t + 1023; every row is in exactly the block of point r / 1024, so the blocks fill the array.
-/
import proofs.«144935_j30348238914117_1_alg».proof.Proof.KI.BnBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bn

open Cert.KernelIdeal Cert.KernelIdeal.Gen
open Idealize.ShloMosaic Idealize.ShloMosaic.TcCoe Idealize.SL.Sem
open Idealize.ShloMosaic.Pipeline (Dat)
open Idealize.ShloMosaic.ValueIdx

-- the core's buffer contents when the region is entered, extended reals
variable (V : (c : Dev nD) → (b : Ref sig .tc) → Buf (Elt Ideal) ((c : Thread nD τ).loc b))

/-- The activations as the region finds them, 65536 rows of 1024. -/
abbrev rowsArr (c : Dev nD) : Vec Ideal S65536x1024 .f32 := V c main_v51
/-- The columns' means, one row of 1024. -/
abbrev meanArr (c : Dev nD) : Vec Ideal S1x1024 .f32 := V c main_v55
/-- The columns' variances. -/
abbrev varArr (c : Dev nD) : Vec Ideal S1x1024 .f32 := V c main_v62
/-- The columns' scales. -/
abbrev scaleArr (c : Dev nD) : Vec Ideal S1x1024 .f32 := V c main_v10
/-- The columns' shifts. -/
abbrev shiftArr (c : Dev nD) : Vec Ideal S1x1024 .f32 := V c main_v11

/-- One entry normalised: (x − mean) · rsqrt (variance + ε) · scale + shift, ε the kernel's constant word. -/
def normAt (x m v s b : EReal) : EReal :=
  ((x - m) * Ideal.rsqrt (v + Ideal.ofBits .f32 0x3727C5AC#32)) * s + b

/-- The whole output: every entry normalised with its column's mean, variance, scale and shift. -/
def normalised (c : Dev nD) : Vec Ideal S65536x1024 .f32 := fun i =>
  normAt (rowsArr V c i) (meanArr V c (ix2 (0 : Fin 1) (i 1))) (varArr V c (ix2 (0 : Fin 1) (i 1)))
    (scaleArr V c (ix2 (0 : Fin 1) (i 1))) (shiftArr V c (ix2 (0 : Fin 1) (i 1)))

theorem hz : (![0, 0] : Fin 2 → Nat) = fun _ => 0 := funext fun a => by fin_cases a <;> rfl

/-- The body's value at row p, column q of a block: the block's entry normalised with the four rows' entries
    at column q (each 1 × 1024 row is repeated down the 1024 rows). -/
theorem pay_apply (x0 : Vec Ideal S1024x1024 .f32) (x1 x2 x3 x4 : Vec Ideal S1x1024 .f32) (p q : Fin 1024) :
    k3_pay1 x0 x1 x2 x3 x4 (ix2 p q)
      = normAt (x0 (ix2 p q)) (x1 (ix2 (0 : Fin 1) q)) (x2 (ix2 (0 : Fin 1) q)) (x3 (ix2 (0 : Fin 1) q)) (x4 (ix2 (0 : Fin 1) q)) := by
  have e1 := broadcastTo_1b_ab_apply (a := 1024) (b := 1024) x1 broadcasts_S1x1024_S1024x1024 p q
  have e2 := broadcastTo_1b_ab_apply (a := 1024) (b := 1024)
    (rsqrt (addf x2 (broadcast S1x1024 (Scalar.ofBits (F := Ideal) .f32 0x3727C5AC#32)))) broadcasts_S1x1024_S1024x1024 p q
  have e3 := broadcastTo_1b_ab_apply (a := 1024) (b := 1024) x3 broadcasts_S1x1024_S1024x1024 p q
  have e4 := broadcastTo_1b_ab_apply (a := 1024) (b := 1024) x4 broadcasts_S1x1024_S1024x1024 p q
  unfold k3_pay1
  simp only [shapeCast_self]
  show ((x0 (ix2 p q) - broadcastTo S1024x1024 x1 broadcasts_S1x1024_S1024x1024 (ix2 p q))
        * broadcastTo S1024x1024 (rsqrt (addf x2 (broadcast S1x1024 (Scalar.ofBits (F := Ideal) .f32 0x3727C5AC#32))))
            broadcasts_S1x1024_S1024x1024 (ix2 p q))
        * broadcastTo S1024x1024 x3 broadcasts_S1x1024_S1024x1024 (ix2 p q)
      + broadcastTo S1024x1024 x4 broadcasts_S1x1024_S1024x1024 (ix2 p q) = _
  rw [e1, e2, e3, e4]
  rfl

/-- The printed index maps, decided over the 64 points: the activations' and the output's blocks sit at block row t,
    the four rows' blocks never move. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p, column q of the activations' block at point t is the activations' entry at row 1024·t + p, column q. -/
theorem rows_block (c : Dev nD) (t : Fin cfg3.N) (p q : Fin 1024) (k : S65536x1024.Idx)
    (hk0 : (k 0).val = t.val * 1024 + p.val) (hk1 : (k 1).val = q.val) :
    (iblk V c 0 t : Vec Ideal S1024x1024 .f32) (ix2 p q) = rowsArr V c k := by
  obtain ⟨e0, e1, -⟩ := idx_facts t
  unfold iblk
  rw [View.read_apply]
  show rowsArr V c (((cfg3.win 0).blk t).view.emb (ix2 p q)) = rowsArr V c k
  refine congrArg (rowsArr V c) (funext fun a => Fin.ext ?_)
  match a with
  | ⟨0, _⟩ => show win3_0.index t (0 : Fin 2) * 1024 + 1 * p.val = (k 0).val; rw [e0, hk0]; omega
  | ⟨1, _⟩ => show win3_0.index t (1 : Fin 2) * 1024 + 1 * q.val = (k 1).val; rw [e1, hk1]; omega

/-- The means' block at any point is the whole row of means. -/
theorem mean_block (c : Dev nD) (t : Fin cfg3.N) (q : Fin 1024) :
    (iblk V c 1 t : Vec Ideal S1x1024 .f32) (ix2 (0 : Fin 1) q) = meanArr V c (ix2 (0 : Fin 1) q) := by
  obtain ⟨-, -, e0, e1, -⟩ := idx_facts t
  unfold iblk
  rw [View.read_apply]
  show meanArr V c (((cfg3.win 1).blk t).view.emb (ix2 (0 : Fin 1) q)) = meanArr V c (ix2 (0 : Fin 1) q)
  refine congrArg (meanArr V c) (funext fun a => Fin.ext ?_)
  match a with
  | ⟨0, _⟩ => show win3_1.index t (0 : Fin 2) * 1 + 1 * 0 = 0; rw [e0]
  | ⟨1, _⟩ => show win3_1.index t (1 : Fin 2) * 1024 + 1 * q.val = q.val; rw [e1]; omega

/-- The variances' block at any point is the whole row of variances. -/
theorem var_block (c : Dev nD) (t : Fin cfg3.N) (q : Fin 1024) :
    (iblk V c 2 t : Vec Ideal S1x1024 .f32) (ix2 (0 : Fin 1) q) = varArr V c (ix2 (0 : Fin 1) q) := by
  obtain ⟨-, -, -, -, e0, e1, -⟩ := idx_facts t
  unfold iblk
  rw [View.read_apply]
  show varArr V c (((cfg3.win 2).blk t).view.emb (ix2 (0 : Fin 1) q)) = varArr V c (ix2 (0 : Fin 1) q)
  refine congrArg (varArr V c) (funext fun a => Fin.ext ?_)
  match a with
  | ⟨0, _⟩ => show win3_2.index t (0 : Fin 2) * 1 + 1 * 0 = 0; rw [e0]
  | ⟨1, _⟩ => show win3_2.index t (1 : Fin 2) * 1024 + 1 * q.val = q.val; rw [e1]; omega

/-- The scales' block at any point is the whole row of scales. -/
theorem scale_block (c : Dev nD) (t : Fin cfg3.N) (q : Fin 1024) :
    (iblk V c 3 t : Vec Ideal S1x1024 .f32) (ix2 (0 : Fin 1) q) = scaleArr V c (ix2 (0 : Fin 1) q) := by
  obtain ⟨-, -, -, -, -, -, e0, e1, -⟩ := idx_facts t
  unfold iblk
  rw [View.read_apply]
  show scaleArr V c (((cfg3.win 3).blk t).view.emb (ix2 (0 : Fin 1) q)) = scaleArr V c (ix2 (0 : Fin 1) q)
  refine congrArg (scaleArr V c) (funext fun a => Fin.ext ?_)
  match a with
  | ⟨0, _⟩ => show win3_3.index t (0 : Fin 2) * 1 + 1 * 0 = 0; rw [e0]
  | ⟨1, _⟩ => show win3_3.index t (1 : Fin 2) * 1024 + 1 * q.val = q.val; rw [e1]; omega

/-- The shifts' block at any point is the whole row of shifts. -/
theorem shift_block (c : Dev nD) (t : Fin cfg3.N) (q : Fin 1024) :
    (iblk V c 4 t : Vec Ideal S1x1024 .f32) (ix2 (0 : Fin 1) q) = shiftArr V c (ix2 (0 : Fin 1) q) := by
  obtain ⟨-, -, -, -, -, -, -, -, e0, e1, -⟩ := idx_facts t
  unfold iblk
  rw [View.read_apply]
  show shiftArr V c (((cfg3.win 4).blk t).view.emb (ix2 (0 : Fin 1) q)) = shiftArr V c (ix2 (0 : Fin 1) q)
  refine congrArg (shiftArr V c) (funext fun a => Fin.ext ?_)
  match a with
  | ⟨0, _⟩ => show win3_4.index t (0 : Fin 2) * 1 + 1 * 0 = 0; rw [e0]
  | ⟨1, _⟩ => show win3_4.index t (1 : Fin 2) * 1024 + 1 * q.val = q.val; rw [e1]; omega

/-- The whole output at an index whose column is q. -/
theorem normalised_apply (c : Dev nD) (i : S65536x1024.Idx) (q : Fin 1024) (h : i 1 = q) :
    normalised V c i = normAt (rowsArr V c i) (meanArr V c (ix2 (0 : Fin 1) q)) (varArr V c (ix2 (0 : Fin 1) q))
      (scaleArr V c (ix2 (0 : Fin 1) q)) (shiftArr V c (ix2 (0 : Fin 1) q)) := by
  subst h; rfl

/-- WHAT POINT t WRITES BACK is block t of the whole normalised output. -/
theorem flushed_eq (c : Dev nD) (t : Fin cfg3.N) :
    (dat V c).flushed 5 t = ((cfg3.win 5).blk t).view.read (Elt Ideal) (normalised V c) := by
  show (cfg3.win 5).cut (grid3.coords t) ((dat V c).after 5 t) = _
  rw [after_5]
  unfold out
  rw [View.canon_unit_zero hz]
  simp only [View.ld_unit_zero (S := S1024x1024) hz, View.ld_unit_zero (S := S1x1024) hz]
  obtain ⟨-, -, -, -, -, -, -, -, -, -, e0, e1⟩ := idx_facts t
  refine funext fun (j : S1024x1024.Idx) => ?_
  obtain ⟨p, q, rfl⟩ : ∃ (p : Fin 1024) (q : Fin 1024), j = ix2 p q := ⟨j 0, j 1, eq_ix2 j⟩
  show k3_pay1 (iblk V c 0 t) (iblk V c 1 t) (iblk V c 2 t) (iblk V c 3 t) (iblk V c 4 t) (ix2 p q)
      = normalised V c (((cfg3.win 5).blk t).view.emb (ix2 p q))
  have hi0 : ((((cfg3.win 5).blk t).view.emb (ix2 p q) : S65536x1024.Idx) 0).val = t.val * 1024 + p.val := by
    show win3_5.index t (0 : Fin 2) * 1024 + 1 * p.val = _; rw [e0]; omega
  have hi1 : (((cfg3.win 5).blk t).view.emb (ix2 p q) : S65536x1024.Idx) 1 = q :=
    Fin.ext (by show win3_5.index t (1 : Fin 2) * 1024 + 1 * q.val = q.val; rw [e1]; omega)
  refine (pay_apply _ _ _ _ _ p q).trans ((normalised_apply V c _ q hi1).trans ?_).symm
  rw [rows_block V c t p q _ hi0 (congrArg Fin.val hi1), mean_block V c t q, var_block V c t q, scale_block V c t q,
    shift_block V c t q]

/-- An index of the output is in point t's block iff each coordinate is in the block's range on its axis. -/
theorem mem_blk (t : Fin cfg3.N) (i : S65536x1024.Idx) :
    i ∈ ((cfg3.win 5).blk t).view.set ↔ ∀ a : Fin 2, win3_5.index t a * S1024x1024.size a ≤ (i a).val
      ∧ (i a).val < win3_5.index t a * S1024x1024.size a + S1024x1024.size a := by
  show i ∈ ((View.whole main_v63).slice (win3_5.rect t)).set ↔ _
  rw [View.set_slice_whole, Rect.mem_set_unit]
  exact Iff.rfl

/-- Every index of the output is in the block of the point its row falls to, row / 1024, and every point writes back. -/
theorem covered (i : S65536x1024.Idx) :
    ∃ t : Fin cfg3.N, (cfg3.win 5).flush t = true ∧ i ∈ ((cfg3.win 5).blk t).view.set := by
  have hi0 : (i 0).val < 65536 := (i 0).isLt
  have hi1 : (i 1).val < 1024 := (i 1).isLt
  obtain ⟨t, ht⟩ : ∃ t : Fin cfg3.N, t.val = (i 0).val / 1024 :=
    ⟨⟨(i 0).val / 1024, by rw [show cfg3.N = 64 from N_3]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 1024 ≤ (i 0).val ∧ (i 0).val < win3_5.index t (0 : Fin 2) * 1024 + 1024
    rw [e0, ht]; omega
  | ⟨1, _⟩ =>
    show win3_5.index t (1 : Fin 2) * 1024 ≤ (i 1).val ∧ (i 1).val < win3_5.index t (1 : Fin 2) * 1024 + 1024
    rw [e1]; omega

/-- THE OUTPUT ARRAY after the region: every entry of the activations normalised with its column's mean and variance,
    scaled and shifted. -/
theorem final (c : Dev nD) : (dat (F := Ideal) V c).arrAt 5 cfg3.N = fun i : S65536x1024.Idx =>
    ((rowsArr V c i - meanArr V c (ix2 (0 : Fin 1) (i 1))) * Ideal.rsqrt (varArr V c (ix2 (0 : Fin 1) (i 1)) + Ideal.ofBits .f32 0x3727C5AC#32))
      * scaleArr V c (ix2 (0 : Fin 1) (i 1)) + shiftArr V c (ix2 (0 : Fin 1) (i 1)) :=
  (dat V c).arrAt_eq_of_cover 5 (normalised V c) (fun t _ => flushed_eq V c t) covered

end Cert.KernelIdeal.Bn

end
-- ==== Proof.KI.BridgeBn.lean ====
/-
  The last pallas_call's output array is the reference's result. The call leaves, at row r and column k,
      (x r k − mean k) · rsqrt (variance k + ε) · scale k + shift k
  of the arrays it is entered with; the reference's last stage, read at the same index through its broadcasts,
  is the same expression of its own earlier stages. So the two agree as soon as the entry arrays are those stages:
  the activations and the two statistics by hypothesis, the scale and the shift because both sides read the same two
  arguments, reshaped to one row on the one side and broadcast down the rows on the other.
-/
import proofs.«144935_j30348238914117_1_alg».proof.Proof.KI.BnValue
import proofs.«144935_j30348238914117_1_alg».proof.Proof.RefReadP
import proofs.«144935_j30348238914117_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.ValueIdx

/-- THE REFERENCE'S LAST STAGE at row r, column j: its activations stage normalised with its mean and variance
    stages at column j, times the scale argument at j, plus the shift argument at j. -/
theorem ref_bn_at (x0 : (⟨ReferenceIdeal.S65536x1024, .f32⟩ : BufTy).Contents (Elt Ideal)) (x1 x2 x3 x4 : (⟨ReferenceIdeal.S1024x1024, .f32⟩ : BufTy).Contents (Elt Ideal)) (x5 x6 x7 : (⟨ReferenceIdeal.S1024, .f32⟩ : BufTy).Contents (Elt Ideal)) (x8 : (⟨ReferenceIdeal.S1024x2048, .f32⟩ : BufTy).Contents (Elt Ideal)) (x9 : (⟨ReferenceIdeal.S2048, .f32⟩ : BufTy).Contents (Elt Ideal)) (x10 : (⟨ReferenceIdeal.S2048x1024, .f32⟩ : BufTy).Contents (Elt Ideal)) (x11 x12 x13 : (⟨ReferenceIdeal.S1024, .f32⟩ : BufTy).Contents (Elt Ideal)) (r : Fin 65536) (j : Fin 1024) :
    ReferenceIdeal.ReadP.val_main_v86 (F := Ideal) x0 x1 x2 x3 x4 x5 x6 x7 x8 x9 x10 x11 x12 x13 (ix2 r j)
      = Bn.normAt (ReferenceIdeal.ReadP.val_main_v61 (F := Ideal) x0 x1 x2 x3 x4 x5 x6 x7 x8 x9 x10 x11 (ix2 r j))
          (ReferenceIdeal.ReadP.val_main_v64 (F := Ideal) x0 x1 x2 x3 x4 x5 x6 x7 x8 x9 x10 x11 (ix1 j))
          (ReferenceIdeal.ReadP.val_main_v71 (F := Ideal) x0 x1 x2 x3 x4 x5 x6 x7 x8 x9 x10 x11 (ix1 j)) (x12 (ix1 j)) (x13 (ix1 j)) := by
  -- the stages one by one, outermost first: sums, products, the difference; each broadcast read at its source index
  rw [ReferenceIdeal.ReadP.val_main_v86_apply, ReferenceIdeal.ReadP.val_main_v85_apply, ReferenceIdeal.ReadP.val_main_v84_apply,
    ReferenceIdeal.ReadP.val_main_v83_apply, ReferenceIdeal.ReadP.val_main_v82_apply, ReferenceIdeal.ReadP.val_main_v81_apply,
    ReferenceIdeal.ReadP.val_main_v80_apply, ReferenceIdeal.ReadP.val_main_v79_apply, ReferenceIdeal.ReadP.val_main_v78_apply,
    ReferenceIdeal.ReadP.val_main_v77_apply, ReferenceIdeal.ReadP.val_main_v76_apply, ReferenceIdeal.ReadP.val_main_v75_apply,
    ReferenceIdeal.ReadP.val_main_cst_12_apply, ReferenceIdeal.ReadP.val_main_v74_apply, ReferenceIdeal.ReadP.val_main_v73_apply,
    ReferenceIdeal.ReadP.val_main_v72_apply]
  -- a row broadcast down the rows, itself a vector laid as one row: entry (r, j) comes from entry j
  have e85 : ReferenceIdeal.ReadP.idx_main_v84 (ReferenceIdeal.ReadP.idx_main_v85 (ix2 r j)) = ix1 j :=
    funext fun a => by match a with | ⟨0, _⟩ => rfl
  have e82 : ReferenceIdeal.ReadP.idx_main_v81 (ReferenceIdeal.ReadP.idx_main_v82 (ix2 r j)) = ix1 j :=
    funext fun a => by match a with | ⟨0, _⟩ => rfl
  have e79 : ReferenceIdeal.ReadP.idx_main_v78 (ReferenceIdeal.ReadP.idx_main_v79 (ix2 r j)) = ix1 j :=
    funext fun a => by match a with | ⟨0, _⟩ => rfl
  have e73 : ReferenceIdeal.ReadP.idx_main_v72 (ReferenceIdeal.ReadP.idx_main_v73 (ix2 r j)) = ix1 j :=
    funext fun a => by match a with | ⟨0, _⟩ => rfl
  rw [e85, e82, e79, e73]
  generalize ReferenceIdeal.ReadP.val_main_v61 (F := Ideal) x0 x1 x2 x3 x4 x5 x6 x7 x8 x9 x10 x11 (ix2 r j) = a
  generalize ReferenceIdeal.ReadP.val_main_v64 (F := Ideal) x0 x1 x2 x3 x4 x5 x6 x7 x8 x9 x10 x11 (ix1 j) = b
  generalize ReferenceIdeal.ReadP.val_main_v71 (F := Ideal) x0 x1 x2 x3 x4 x5 x6 x7 x8 x9 x10 x11 (ix1 j) = v
  generalize x12 (ix1 j) = s
  generalize x13 (ix1 j) = t
  rfl

variable (m : (ℓ : Loc nD τ sig) → Buf (Elt Ideal) ℓ) (outs : Outs (F := Ideal)) (c : Dev nD)

/-- The activations the last call is entered with are what the call before it left: the statistics' host
    operations in between do not write them. -/
theorem rows_entry : V7 m outs c (Proc.devRef .tc main_v51) = outs 6 main_v51 c :=
  (V7_of m outs c main_v51 (by decide)).trans (Function.update_self _ _ _)

/-- The scale row the last call is entered with is the scale argument laid as one row: written once, before the
    first call, and by no item after. -/
theorem scale_entry (j : Fin 1024) :
    V7 m outs c (Proc.devRef .tc main_v10) (ix2 (0 : Fin 1) j) = m ((c : Thread nD τ).loc main_arg12) (ix1 j) := by
  rw [V7_of m outs c main_v10 (by decide), V6_of m outs c main_v10 (by decide), V5_of m outs c main_v10 (by decide),
    V4_of m outs c main_v10 (by decide), V3_of m outs c main_v10 (by decide), V2_of m outs c main_v10 (by decide)]
  show StableHlo.after hostOps0 (V0 m c) (Proc.devRef .tc main_v10) (ix2 (0 : Fin 1) j) = _
  after_results_simp
  exact shapeCast_a_1a_apply (a := 1024) _ _ (0 : Fin 1) j

/-- Likewise the shift row is the shift argument laid as one row. -/
theorem shift_entry (j : Fin 1024) :
    V7 m outs c (Proc.devRef .tc main_v11) (ix2 (0 : Fin 1) j) = m ((c : Thread nD τ).loc main_arg13) (ix1 j) := by
  rw [V7_of m outs c main_v11 (by decide), V6_of m outs c main_v11 (by decide), V5_of m outs c main_v11 (by decide),
    V4_of m outs c main_v11 (by decide), V3_of m outs c main_v11 (by decide), V2_of m outs c main_v11 (by decide)]
  show StableHlo.after hostOps0 (V0 m c) (Proc.devRef .tc main_v11) (ix2 (0 : Fin 1) j) = _
  after_results_simp
  exact shapeCast_a_1a_apply (a := 1024) _ _ (0 : Fin 1) j

/-- The last call's output array, entry by entry, is the reference's last stage, given that the activations it is
    entered with are the reference's stage before the normalisation and the two statistics its mean and variance. -/
theorem bn_eq
    (h8 : outs 8 main_v63 c = (Bn.dat (F := Ideal) (fun c b => V7 m outs c b) c).arrAt 5 cfg3.N)
    (hx : ∀ i : S65536x1024.Idx, outs 6 main_v51 c i = ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i)
    (hst : ∀ j : Fin 1024,
      V7 m outs c (Proc.devRef .tc main_v55) (ix2 (0 : Fin 1) j) = ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 j)
      ∧ V7 m outs c (Proc.devRef .tc main_v62) (ix2 (0 : Fin 1) j) = ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 j))
    (i : S65536x1024.Idx) :
    outs 8 main_v63 c i = ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) i := by
  refine (congrFun (h8.trans (Bn.final (fun c b => V7 m outs c b) c)) i).trans ?_
  obtain ⟨r, j, rfl⟩ : ∃ (r : Fin 65536) (j : Fin 1024), i = ix2 r j := ⟨i 0, i 1, eq_ix2 i⟩
  refine Eq.trans ?_ (ref_bn_at _ _ _ _ _ _ _ _ _ _ _ _ _ _ r j).symm
  show Bn.normAt (V7 m outs c (Proc.devRef .tc main_v51) (ix2 r j)) (V7 m outs c (Proc.devRef .tc main_v55) (ix2 (0 : Fin 1) j))
      (V7 m outs c (Proc.devRef .tc main_v62) (ix2 (0 : Fin 1) j)) (V7 m outs c (Proc.devRef .tc main_v10) (ix2 (0 : Fin 1) j))
      (V7 m outs c (Proc.devRef .tc main_v11) (ix2 (0 : Fin 1) j)) = _
  have h1 : V7 m outs c (Proc.devRef .tc main_v51) (ix2 r j)
      = ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r j) :=
    (congrFun (rows_entry m outs c) _).trans (hx _)
  rw [h1, (hst j).1, (hst j).2, scale_entry m outs c j, shift_entry m outs c j]

end Cert.KernelIdeal.Bridge

end
-- ==== Proof.KI.Value.lean ====
/-
  What the idealized kernel program computes is what the reference computes: the array the last pallas call
  leaves, index by index, is the reference's last stage of the same fourteen argument arrays. Stage by stage:
  the attention mix (projections, scores, softmax, weighted sum); the output projection with its residual; the
  column mean and variance over all rows; the normalised rows through the two dense layers with their residual;
  mean and variance again; the last normalisation.
-/
import proofs.«144935_j30348238914117_1_alg».proof.Proof.KI.Run
import proofs.«144935_j30348238914117_1_alg».proof.Proof.KI.BridgeAttn
import proofs.«144935_j30348238914117_1_alg».proof.Proof.KI.BridgeProj
import proofs.«144935_j30348238914117_1_alg».proof.Proof.KI.BridgeStats
import proofs.«144935_j30348238914117_1_alg».proof.Proof.KI.BridgeFfn
import proofs.«144935_j30348238914117_1_alg».proof.Proof.KI.BridgeBn

noncomputable section

namespace Cert.KernelIdeal.Bridge

open Cert.KernelIdeal Cert.KernelIdeal.Gen
open Idealize.ShloMosaic Idealize.ShloMosaic.TcCoe Idealize.SL.Sem

/-- The last pallas call's output array is the reference's result at the same arguments. -/
theorem result_eq (m : (ℓ : Loc nD τ sig) → Buf (Elt Ideal) ℓ) (outs : Outs (F := Ideal)) (h : Whole.OutsOk m outs)
    (c : Dev nD) (i : S65536x1024.Idx) :
    outs 8 main_v63 c i
      = Cert.ReferenceIdeal.ReadP.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) i :=
  have hattn := attn_eq m outs c (h.qkv c)
  have hproj := proj_eq m outs c (h.proj c) hattn
  have hs1 := stats1_eq m outs c hproj
  have hffn := ffn_eq m outs c (h.ffn c) hproj hs1
  have hs2 := stats2_eq m outs c hffn
  bn_eq m outs c (h.bn c) hffn hs2 i

end Cert.KernelIdeal.Bridge

end
-- ==== Proof.RefRun.lean ====
/-
  The run of the reference program, with its result named stage by stage.

  The reference is a straight line of 103 array operations over fourteen argument arrays. Its run leaves every buffer at
  the fold of the operations' results over the launch contents (`ValueP.run`). Here that fold is evaluated at the result
  buffer `main_v86` and at the fourteen arguments: the line is cut into six consecutive stretches; for each stretch, from
  ANY contents `W` at its entry, the buffer it hands on holds the stage function `ReadP.val_<buffer>` of the argument arrays,
  given that the buffers it reads hold theirs; and no operation writes an argument. Composed along the line: the result
  buffer ends at `ReadP.val_main_v86` of the arguments' launch contents, and every argument ends unchanged. Everything is
  stated for an arbitrary float family `F`; the frame claim is its instance at `Ideal`.
-/
import proofs.«144935_j30348238914117_1_alg».proof.Proof.RefReadP
import proofs.«144935_j30348238914117_1_alg».proof.Proof.Gen.Pre_finite_inputs
import proofs.«144935_j30348238914117_1_alg».proof.Defs
import Idealize.ShloMosaic.Lib.Pipeline.Frame

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-! ## The line in six stretches -/

/-- Operations 0–5: the three projections. The input array (argument 0) times each of the three 1024×1024 weight arrays
    (arguments 1, 2, 3), each product recast as 65536×16×64 (sixteen heads of width 64): `main_v1`, `main_v3`, `main_v5`. -/
abbrev c1 : List (HloOp τ sig (Elt F)) :=
  [ binary main_arg0 main_arg1 main_v0 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v0 main_v1 rfl shapeCasts_S65536x1024_S65536x16x64,
    binary main_arg0 main_arg2 main_v2 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v2 main_v3 rfl shapeCasts_S65536x1024_S65536x16x64,
    binary main_arg0 main_arg3 main_v4 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v4 main_v5 rfl shapeCasts_S65536x1024_S65536x16x64 ]

/-- Operations 6–25: attention, row by row. The 16×16 scores (the first projection's heads against the second's, contracted
    over the width 64) divided by 8; the softmax over the last axis (subtract the maximum, exponentiate, divide by the sum);
    the weighted sum with the third projection's heads; recast as 65536×1024: `main_v21`. -/
abbrev c2 : List (HloOp τ sig (Elt F)) :=
  [ binary main_v1 main_v3 main_v6 ((fun l r => Host.dotGeneral dot_S65536x16x64_S65536x16x64_S65536x16x16_2_2_1_1_0_0 none l r) : (⟨S65536x16x64, .f32⟩ : BufTy).Contents (Elt F) → (⟨S65536x16x64, .f32⟩ : BufTy).Contents (Elt F) → (⟨S65536x16x16, .f32⟩ : BufTy).Contents (Elt F)),
    nullary main_cst (constant S_ .f32 0x41000000#32),
    unary main_cst main_v7 (broadcastInDim S65536x16x16 ![] bcast_S_S65536x16x16 : (⟨S_, .f32⟩ : BufTy).Contents (Elt F) → (⟨S65536x16x16, .f32⟩ : BufTy).Contents (Elt F)),
    binary main_v6 main_v7 main_v8 (Host.divf : (⟨S65536x16x16, .f32⟩ : BufTy).Contents (Elt F) → (⟨S65536x16x16, .f32⟩ : BufTy).Contents (Elt F) → (⟨S65536x16x16, .f32⟩ : BufTy).Contents (Elt F)),
    nullary main_cst_0 (constant S_ .f32 0xFF800000#32),
    binary main_v8 main_cst_0 main_v9 ((fun x v => Host.reduce FloatOps.maximumf x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F)),
    nullary main_cst_1 (constant S_ .f32 0xFF800000#32),
    unary main_cst_1 main_v10 (broadcastInDim S65536x16 ![] bcast_S_S65536x16 : (⟨S_, .f32⟩ : BufTy).Contents (Elt F) → (⟨S65536x16, .f32⟩ : BufTy).Contents (Elt F)),
    binary main_v10 main_v9 main_v11 (maximumf : (⟨S65536x16, .f32⟩ : BufTy).Contents (Elt F) → (⟨S65536x16, .f32⟩ : BufTy).Contents (Elt F) → (⟨S65536x16, .f32⟩ : BufTy).Contents (Elt F)),
    unary main_v11 main_v12 (broadcastInDim S65536x16x1 ![0, 1] bcast_S65536x16_S65536x16x1_0_1 : (⟨S65536x16, .f32⟩ : BufTy).Contents (Elt F) → (⟨S65536x16x1, .f32⟩ : BufTy).Contents (Elt F)),
    unary main_v12 main_v13 (broadcastInDim S65536x16x16 ![0, 1, 2] bcast_S65536x16x1_S65536x16x16_0_1_2 : (⟨S65536x16x1, .f32⟩ : BufTy).Contents (Elt F) → (⟨S65536x16x16, .f32⟩ : BufTy).Contents (Elt F)),
    binary main_v8 main_v13 main_v14 (subf : (⟨S65536x16x16, .f32⟩ : BufTy).Contents (Elt F) → (⟨S65536x16x16, .f32⟩ : BufTy).Contents (Elt F) → (⟨S65536x16x16, .f32⟩ : BufTy).Contents (Elt F)),
    unary main_v14 main_v15 (Host.exp : (⟨S65536x16x16, .f32⟩ : BufTy).Contents (Elt F) → (⟨S65536x16x16, .f32⟩ : BufTy).Contents (Elt F)),
    nullary main_cst_2 (constant S_ .f32 0x00000000#32),
    binary main_v15 main_cst_2 main_v16 ((fun x v => Host.reduceAdd x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F)),
    unary main_v16 main_v17 (broadcastInDim S65536x16x1 ![0, 1] bcast_S65536x16_S65536x16x1_0_1 : (⟨S65536x16, .f32⟩ : BufTy).Contents (Elt F) → (⟨S65536x16x1, .f32⟩ : BufTy).Contents (Elt F)),
    unary main_v17 main_v18 (broadcastInDim S65536x16x16 ![0, 1, 2] bcast_S65536x16x1_S65536x16x16_0_1_2 : (⟨S65536x16x1, .f32⟩ : BufTy).Contents (Elt F) → (⟨S65536x16x16, .f32⟩ : BufTy).Contents (Elt F)),
    binary main_v15 main_v18 main_v19 (Host.divf : (⟨S65536x16x16, .f32⟩ : BufTy).Contents (Elt F) → (⟨S65536x16x16, .f32⟩ : BufTy).Contents (Elt F) → (⟨S65536x16x16, .f32⟩ : BufTy).Contents (Elt F)),
    binary main_v19 main_v5 main_v20 ((fun l r => Host.dotGeneral dot_S65536x16x16_S65536x16x64_S65536x16x64_2_1_1_2_0_0 none l r) : (⟨S65536x16x16, .f32⟩ : BufTy).Contents (Elt F) → (⟨S65536x16x64, .f32⟩ : BufTy).Contents (Elt F) → (⟨S65536x16x64, .f32⟩ : BufTy).Contents (Elt F)),
    reshape main_v20 main_v21 rfl shapeCasts_S65536x16x64_S65536x1024 ]

/-- Operations 26–30: the output projection (times argument 4), plus its bias (argument 5) broadcast over the rows, plus
    the input array (the residual): `main_v26`. -/
abbrev c3 : List (HloOp τ sig (Elt F)) :=
  [ binary main_v21 main_arg4 main_v22 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg5 main_v23 (broadcastInDim S1x1024 ![1] bcast_S1024_S1x1024_1 : (⟨S1024, .f32⟩ : BufTy).Contents (Elt F) → (⟨S1x1024, .f32⟩ : BufTy).Contents (Elt F)),
    unary main_v23 main_v24 (broadcastInDim S65536x1024 ![0, 1] bcast_S1x1024_S65536x1024_0_1 : (⟨S1x1024, .f32⟩ : BufTy).Contents (Elt F) → (⟨S65536x1024, .f32⟩ : BufTy).Contents (Elt F)),
    binary main_v22 main_v24 main_v25 (addf : (⟨S65536x1024, .f32⟩ : BufTy).Contents (Elt F) → (⟨S65536x1024, .f32⟩ : BufTy).Contents (Elt F) → (⟨S65536x1024, .f32⟩ : BufTy).Contents (Elt F)),
    binary main_arg0 main_v25 main_v26 (addf : (⟨S65536x1024, .f32⟩ : BufTy).Contents (Elt F) → (⟨S65536x1024, .f32⟩ : BufTy).Contents (Elt F) → (⟨S65536x1024, .f32⟩ : BufTy).Contents (Elt F)) ]

/-- Operations 31–60: the first normalisation, column by column over the 65536 rows. The column mean (the sum divided by
    65536); the centred array; the column mean of its squares plus 1e-5, and its reciprocal square root; the centred array
    times that, times the scale (argument 6), plus the shift (argument 7): `main_v51`. -/
abbrev c4 : List (HloOp τ sig (Elt F)) :=
  [ nullary main_cst_3 (constant S_ .f32 0x00000000#32),
    binary main_v26 main_cst_3 main_v27 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_4 (constant S_ .f32 0x47800000#32),
    unary main_cst_4 main_v28 (broadcastInDim S1024 ![] bcast_S_S1024 : (⟨S_, .f32⟩ : BufTy).Contents (Elt F) → (⟨S1024, .f32⟩ : BufTy).Contents (Elt F)),
    binary main_v27 main_v28 main_v29 (Host.divf : (⟨S1024, .f32⟩ : BufTy).Contents (Elt F) → (⟨S1024, .f32⟩ : BufTy).Contents (Elt F) → (⟨S1024, .f32⟩ : BufTy).Contents (Elt F)),
    unary main_v29 main_v30 (broadcastInDim S1x1024 ![1] bcast_S1024_S1x1024_1 : (⟨S1024, .f32⟩ : BufTy).Contents (Elt F) → (⟨S1x1024, .f32⟩ : BufTy).Contents (Elt F)),
    unary main_v30 main_v31 (broadcastInDim S65536x1024 ![0, 1] bcast_S1x1024_S65536x1024_0_1 : (⟨S1x1024, .f32⟩ : BufTy).Contents (Elt F) → (⟨S65536x1024, .f32⟩ : BufTy).Contents (Elt F)),
    binary main_v26 main_v31 main_v32 (subf : (⟨S65536x1024, .f32⟩ : BufTy).Contents (Elt F) → (⟨S65536x1024, .f32⟩ : BufTy).Contents (Elt F) → (⟨S65536x1024, .f32⟩ : BufTy).Contents (Elt F)),
    binary main_v32 main_v32 main_v33 (mulf : (⟨S65536x1024, .f32⟩ : BufTy).Contents (Elt F) → (⟨S65536x1024, .f32⟩ : BufTy).Contents (Elt F) → (⟨S65536x1024, .f32⟩ : BufTy).Contents (Elt F)),
    nullary main_cst_5 (constant S_ .f32 0x00000000#32),
    binary main_v33 main_cst_5 main_v34 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_6 (constant S_ .f32 0x47800000#32),
    unary main_cst_6 main_v35 (broadcastInDim S1024 ![] bcast_S_S1024 : (⟨S_, .f32⟩ : BufTy).Contents (Elt F) → (⟨S1024, .f32⟩ : BufTy).Contents (Elt F)),
    binary main_v34 main_v35 main_v36 (Host.divf : (⟨S1024, .f32⟩ : BufTy).Contents (Elt F) → (⟨S1024, .f32⟩ : BufTy).Contents (Elt F) → (⟨S1024, .f32⟩ : BufTy).Contents (Elt F)),
    unary main_v29 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S65536x1024 ![0, 1] bcast_S1x1024_S65536x1024_0_1 : (⟨S1x1024, .f32⟩ : BufTy).Contents (Elt F) → (⟨S65536x1024, .f32⟩ : BufTy).Contents (Elt F)),
    binary main_v26 main_v38 main_v39 (subf : (⟨S65536x1024, .f32⟩ : BufTy).Contents (Elt F) → (⟨S65536x1024, .f32⟩ : BufTy).Contents (Elt F) → (⟨S65536x1024, .f32⟩ : BufTy).Contents (Elt F)),
    nullary main_cst_7 (constant S_ .f32 0x3727C5AC#32),
    unary main_cst_7 main_v40 (broadcastInDim S1024 ![] bcast_S_S1024 : (⟨S_, .f32⟩ : BufTy).Contents (Elt F) → (⟨S1024, .f32⟩ : BufTy).Contents (Elt F)),
    binary main_v36 main_v40 main_v41 (addf : (⟨S1024, .f32⟩ : BufTy).Contents (Elt F) → (⟨S1024, .f32⟩ : BufTy).Contents (Elt F) → (⟨S1024, .f32⟩ : BufTy).Contents (Elt F)),
    unary main_v41 main_v42 (Host.rsqrt : (⟨S1024, .f32⟩ : BufTy).Contents (Elt F) → (⟨S1024, .f32⟩ : BufTy).Contents (Elt F)),
    unary main_v42 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S65536x1024 ![0, 1] bcast_S1x1024_S65536x1024_0_1 : (⟨S1x1024, .f32⟩ : BufTy).Contents (Elt F) → (⟨S65536x1024, .f32⟩ : BufTy).Contents (Elt F)),
    binary main_v39 main_v44 main_v45 (mulf : (⟨S65536x1024, .f32⟩ : BufTy).Contents (Elt F) → (⟨S65536x1024, .f32⟩ : BufTy).Contents (Elt F) → (⟨S65536x1024, .f32⟩ : BufTy).Contents (Elt F)),
    unary main_arg6 main_v46 (broadcastInDim S1x1024 ![1] bcast_S1024_S1x1024_1 : (⟨S1024, .f32⟩ : BufTy).Contents (Elt F) → (⟨S1x1024, .f32⟩ : BufTy).Contents (Elt F)),
    unary main_v46 main_v47 (broadcastInDim S65536x1024 ![0, 1] bcast_S1x1024_S65536x1024_0_1 : (⟨S1x1024, .f32⟩ : BufTy).Contents (Elt F) → (⟨S65536x1024, .f32⟩ : BufTy).Contents (Elt F)),
    binary main_v45 main_v47 main_v48 (mulf : (⟨S65536x1024, .f32⟩ : BufTy).Contents (Elt F) → (⟨S65536x1024, .f32⟩ : BufTy).Contents (Elt F) → (⟨S65536x1024, .f32⟩ : BufTy).Contents (Elt F)),
    unary main_arg7 main_v49 (broadcastInDim S1x1024 ![1] bcast_S1024_S1x1024_1 : (⟨S1024, .f32⟩ : BufTy).Contents (Elt F) → (⟨S1x1024, .f32⟩ : BufTy).Contents (Elt F)),
    unary main_v49 main_v50 (broadcastInDim S65536x1024 ![0, 1] bcast_S1x1024_S65536x1024_0_1 : (⟨S1x1024, .f32⟩ : BufTy).Contents (Elt F) → (⟨S65536x1024, .f32⟩ : BufTy).Contents (Elt F)),
    binary main_v48 main_v50 main_v51 (addf : (⟨S65536x1024, .f32⟩ : BufTy).Contents (Elt F) → (⟨S65536x1024, .f32⟩ : BufTy).Contents (Elt F) → (⟨S65536x1024, .f32⟩ : BufTy).Contents (Elt F)) ]

/-- Operations 61–72: the two dense layers. Times the 1024×2048 weight array (argument 8) plus its bias (argument 9); the
    maximum with zero; times the 2048×1024 weight array (argument 10) plus its bias (argument 11); plus the stretch's
    input `main_v51` (the residual): `main_v61`. -/
abbrev c5 : List (HloOp τ sig (Elt F)) :=
  [ binary main_v51 main_arg8 main_v52 ((fun l r => Host.dotGeneral dot_S65536x1024_S1024x2048_S65536x2048_1_0_0_1_n_n none l r) : (⟨S65536x1024, .f32⟩ : BufTy).Contents (Elt F) → (⟨S1024x2048, .f32⟩ : BufTy).Contents (Elt F) → (⟨S65536x2048, .f32⟩ : BufTy).Contents (Elt F)),
    unary main_arg9 main_v53 (broadcastInDim S1x2048 ![1] bcast_S2048_S1x2048_1 : (⟨S2048, .f32⟩ : BufTy).Contents (Elt F) → (⟨S1x2048, .f32⟩ : BufTy).Contents (Elt F)),
    unary main_v53 main_v54 (broadcastInDim S65536x2048 ![0, 1] bcast_S1x2048_S65536x2048_0_1 : (⟨S1x2048, .f32⟩ : BufTy).Contents (Elt F) → (⟨S65536x2048, .f32⟩ : BufTy).Contents (Elt F)),
    binary main_v52 main_v54 main_v55 (addf : (⟨S65536x2048, .f32⟩ : BufTy).Contents (Elt F) → (⟨S65536x2048, .f32⟩ : BufTy).Contents (Elt F) → (⟨S65536x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x2048, .f32⟩) main_call0_v0) (broadcastInDim S65536x2048 ![] bcast_S_S65536x2048),
    TRef.binary (TRef.of (T := ⟨S65536x2048, .f32⟩) main_v55) (TRef.of (T := ⟨S65536x2048, .f32⟩) main_call0_v0) (TRef.of (T := ⟨S65536x2048, .f32⟩) main_v56) maximumf,
    binary main_v56 main_arg10 main_v57 ((fun l r => Host.dotGeneral dot_S65536x2048_S2048x1024_S65536x1024_1_0_0_1_n_n none l r) : (⟨S65536x2048, .f32⟩ : BufTy).Contents (Elt F) → (⟨S2048x1024, .f32⟩ : BufTy).Contents (Elt F) → (⟨S65536x1024, .f32⟩ : BufTy).Contents (Elt F)),
    unary main_arg11 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    binary main_v57 main_v59 main_v60 (addf : (⟨S65536x1024, .f32⟩ : BufTy).Contents (Elt F) → (⟨S65536x1024, .f32⟩ : BufTy).Contents (Elt F) → (⟨S65536x1024, .f32⟩ : BufTy).Contents (Elt F)),
    binary main_v51 main_v60 main_v61 (addf : (⟨S65536x1024, .f32⟩ : BufTy).Contents (Elt F) → (⟨S65536x1024, .f32⟩ : BufTy).Contents (Elt F) → (⟨S65536x1024, .f32⟩ : BufTy).Contents (Elt F)) ]

/-- Operations 73–102: the second normalisation, as the first, of `main_v61`, with scale argument 12 and shift
    argument 13: `main_v86`, the reference's result. -/
abbrev c6 : List (HloOp τ sig (Elt F)) :=
  [ nullary main_cst_8 (constant S_ .f32 0x00000000#32),
    binary main_v61 main_cst_8 main_v62 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_9 (constant S_ .f32 0x47800000#32),
    unary main_cst_9 main_v63 (broadcastInDim S1024 ![] bcast_S_S1024 : (⟨S_, .f32⟩ : BufTy).Contents (Elt F) → (⟨S1024, .f32⟩ : BufTy).Contents (Elt F)),
    binary main_v62 main_v63 main_v64 (Host.divf : (⟨S1024, .f32⟩ : BufTy).Contents (Elt F) → (⟨S1024, .f32⟩ : BufTy).Contents (Elt F) → (⟨S1024, .f32⟩ : BufTy).Contents (Elt F)),
    unary main_v64 main_v65 (broadcastInDim S1x1024 ![1] bcast_S1024_S1x1024_1 : (⟨S1024, .f32⟩ : BufTy).Contents (Elt F) → (⟨S1x1024, .f32⟩ : BufTy).Contents (Elt F)),
    unary main_v65 main_v66 (broadcastInDim S65536x1024 ![0, 1] bcast_S1x1024_S65536x1024_0_1 : (⟨S1x1024, .f32⟩ : BufTy).Contents (Elt F) → (⟨S65536x1024, .f32⟩ : BufTy).Contents (Elt F)),
    binary main_v61 main_v66 main_v67 (subf : (⟨S65536x1024, .f32⟩ : BufTy).Contents (Elt F) → (⟨S65536x1024, .f32⟩ : BufTy).Contents (Elt F) → (⟨S65536x1024, .f32⟩ : BufTy).Contents (Elt F)),
    binary main_v67 main_v67 main_v68 (mulf : (⟨S65536x1024, .f32⟩ : BufTy).Contents (Elt F) → (⟨S65536x1024, .f32⟩ : BufTy).Contents (Elt F) → (⟨S65536x1024, .f32⟩ : BufTy).Contents (Elt F)),
    nullary main_cst_10 (constant S_ .f32 0x00000000#32),
    binary main_v68 main_cst_10 main_v69 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_11 (constant S_ .f32 0x47800000#32),
    unary main_cst_11 main_v70 (broadcastInDim S1024 ![] bcast_S_S1024 : (⟨S_, .f32⟩ : BufTy).Contents (Elt F) → (⟨S1024, .f32⟩ : BufTy).Contents (Elt F)),
    binary main_v69 main_v70 main_v71 (Host.divf : (⟨S1024, .f32⟩ : BufTy).Contents (Elt F) → (⟨S1024, .f32⟩ : BufTy).Contents (Elt F) → (⟨S1024, .f32⟩ : BufTy).Contents (Elt F)),
    unary main_v64 main_v72 (broadcastInDim S1x1024 ![1] bcast_S1024_S1x1024_1 : (⟨S1024, .f32⟩ : BufTy).Contents (Elt F) → (⟨S1x1024, .f32⟩ : BufTy).Contents (Elt F)),
    unary main_v72 main_v73 (broadcastInDim S65536x1024 ![0, 1] bcast_S1x1024_S65536x1024_0_1 : (⟨S1x1024, .f32⟩ : BufTy).Contents (Elt F) → (⟨S65536x1024, .f32⟩ : BufTy).Contents (Elt F)),
    binary main_v61 main_v73 main_v74 (subf : (⟨S65536x1024, .f32⟩ : BufTy).Contents (Elt F) → (⟨S65536x1024, .f32⟩ : BufTy).Contents (Elt F) → (⟨S65536x1024, .f32⟩ : BufTy).Contents (Elt F)),
    nullary main_cst_12 (constant S_ .f32 0x3727C5AC#32),
    unary main_cst_12 main_v75 (broadcastInDim S1024 ![] bcast_S_S1024 : (⟨S_, .f32⟩ : BufTy).Contents (Elt F) → (⟨S1024, .f32⟩ : BufTy).Contents (Elt F)),
    binary main_v71 main_v75 main_v76 (addf : (⟨S1024, .f32⟩ : BufTy).Contents (Elt F) → (⟨S1024, .f32⟩ : BufTy).Contents (Elt F) → (⟨S1024, .f32⟩ : BufTy).Contents (Elt F)),
    unary main_v76 main_v77 (Host.rsqrt : (⟨S1024, .f32⟩ : BufTy).Contents (Elt F) → (⟨S1024, .f32⟩ : BufTy).Contents (Elt F)),
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S65536x1024 ![0, 1] bcast_S1x1024_S65536x1024_0_1 : (⟨S1x1024, .f32⟩ : BufTy).Contents (Elt F) → (⟨S65536x1024, .f32⟩ : BufTy).Contents (Elt F)),
    binary main_v74 main_v79 main_v80 (mulf : (⟨S65536x1024, .f32⟩ : BufTy).Contents (Elt F) → (⟨S65536x1024, .f32⟩ : BufTy).Contents (Elt F) → (⟨S65536x1024, .f32⟩ : BufTy).Contents (Elt F)),
    unary main_arg12 main_v81 (broadcastInDim S1x1024 ![1] bcast_S1024_S1x1024_1 : (⟨S1024, .f32⟩ : BufTy).Contents (Elt F) → (⟨S1x1024, .f32⟩ : BufTy).Contents (Elt F)),
    unary main_v81 main_v82 (broadcastInDim S65536x1024 ![0, 1] bcast_S1x1024_S65536x1024_0_1 : (⟨S1x1024, .f32⟩ : BufTy).Contents (Elt F) → (⟨S65536x1024, .f32⟩ : BufTy).Contents (Elt F)),
    binary main_v80 main_v82 main_v83 (mulf : (⟨S65536x1024, .f32⟩ : BufTy).Contents (Elt F) → (⟨S65536x1024, .f32⟩ : BufTy).Contents (Elt F) → (⟨S65536x1024, .f32⟩ : BufTy).Contents (Elt F)),
    unary main_arg13 main_v84 (broadcastInDim S1x1024 ![1] bcast_S1024_S1x1024_1 : (⟨S1024, .f32⟩ : BufTy).Contents (Elt F) → (⟨S1x1024, .f32⟩ : BufTy).Contents (Elt F)),
    unary main_v84 main_v85 (broadcastInDim S65536x1024 ![0, 1] bcast_S1x1024_S65536x1024_0_1 : (⟨S1x1024, .f32⟩ : BufTy).Contents (Elt F) → (⟨S65536x1024, .f32⟩ : BufTy).Contents (Elt F)),
    binary main_v83 main_v85 main_v86 (addf : (⟨S65536x1024, .f32⟩ : BufTy).Contents (Elt F) → (⟨S65536x1024, .f32⟩ : BufTy).Contents (Elt F) → (⟨S65536x1024, .f32⟩ : BufTy).Contents (Elt F)) ]

set_option maxRecDepth 16384 in
/-- The reference's operations are the six stretches in order. -/
theorem ops_split : (ValueP.ops : List (HloOp τ sig (Elt F))) = c1 ++ (c2 ++ (c3 ++ (c4 ++ (c5 ++ c6)))) := rfl

/-- The whole line as its six stretches run in order. -/
theorem after_ops (V : Valuation τ sig (Elt F)) :
    after ValueP.ops V = after c6 (after c5 (after c4 (after c3 (after c2 (after c1 V))))) := by
  rw [ops_split, after_append, after_append, after_append, after_append, after_append]

/-! ## What each stretch writes, and what it therefore keeps -/

/-- The references the operations of `c1` write. -/
abbrev c1_W : List (Ref sig .tc) := [main_v0, main_v1, main_v2, main_v3, main_v4, main_v5]
theorem c1_writes : (c1 : List (HloOp τ sig (Elt F))).Forall fun op => op.writes ⊆ (c1_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c1` writes keeps its contents. -/
theorem c1_keep (W : Valuation τ sig (Elt F)) (r : Ref sig .tc) (h : r ∉ c1_W) : after c1 W (Proc.devRef .tc r) = W (Proc.devRef .tc r) :=
  after_of_writes_sub c1 W c1_writes h

/-- The references the operations of `c2` write. -/
abbrev c2_W : List (Ref sig .tc) := [main_v6, main_cst, main_v7, main_v8, main_cst_0, main_v9, main_cst_1, main_v10, main_v11, main_v12, main_v13, main_v14, main_v15, main_cst_2, main_v16, main_v17, main_v18, main_v19, main_v20, main_v21]
theorem c2_writes : (c2 : List (HloOp τ sig (Elt F))).Forall fun op => op.writes ⊆ (c2_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c2` writes keeps its contents. -/
theorem c2_keep (W : Valuation τ sig (Elt F)) (r : Ref sig .tc) (h : r ∉ c2_W) : after c2 W (Proc.devRef .tc r) = W (Proc.devRef .tc r) :=
  after_of_writes_sub c2 W c2_writes h

/-- The references the operations of `c3` write. -/
abbrev c3_W : List (Ref sig .tc) := [main_v22, main_v23, main_v24, main_v25, main_v26]
theorem c3_writes : (c3 : List (HloOp τ sig (Elt F))).Forall fun op => op.writes ⊆ (c3_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c3` writes keeps its contents. -/
theorem c3_keep (W : Valuation τ sig (Elt F)) (r : Ref sig .tc) (h : r ∉ c3_W) : after c3 W (Proc.devRef .tc r) = W (Proc.devRef .tc r) :=
  after_of_writes_sub c3 W c3_writes h

/-- The references the operations of `c4` write. -/
abbrev c4_W : List (Ref sig .tc) := [main_cst_3, main_v27, main_cst_4, main_v28, main_v29, main_v30, main_v31, main_v32, main_v33, main_cst_5, main_v34, main_cst_6, main_v35, main_v36, main_v37, main_v38, main_v39, main_cst_7, main_v40, main_v41, main_v42, main_v43, main_v44, main_v45, main_v46, main_v47, main_v48, main_v49, main_v50, main_v51]
theorem c4_writes : (c4 : List (HloOp τ sig (Elt F))).Forall fun op => op.writes ⊆ (c4_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c4` writes keeps its contents. -/
theorem c4_keep (W : Valuation τ sig (Elt F)) (r : Ref sig .tc) (h : r ∉ c4_W) : after c4 W (Proc.devRef .tc r) = W (Proc.devRef .tc r) :=
  after_of_writes_sub c4 W c4_writes h

/-- The references the operations of `c5` write. -/
abbrev c5_W : List (Ref sig .tc) := [main_v52, main_v53, main_v54, main_v55, main_call0_cst, main_call0_v0, main_v56, main_v57, main_v58, main_v59, main_v60, main_v61]
theorem c5_writes : (c5 : List (HloOp τ sig (Elt F))).Forall fun op => op.writes ⊆ (c5_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c5` writes keeps its contents. -/
theorem c5_keep (W : Valuation τ sig (Elt F)) (r : Ref sig .tc) (h : r ∉ c5_W) : after c5 W (Proc.devRef .tc r) = W (Proc.devRef .tc r) :=
  after_of_writes_sub c5 W c5_writes h

/-- The references the operations of `c6` write. -/
abbrev c6_W : List (Ref sig .tc) := [main_cst_8, main_v62, main_cst_9, main_v63, main_v64, main_v65, main_v66, main_v67, main_v68, main_cst_10, main_v69, main_cst_11, main_v70, main_v71, main_v72, main_v73, main_v74, main_cst_12, main_v75, main_v76, main_v77, main_v78, main_v79, main_v80, main_v81, main_v82, main_v83, main_v84, main_v85, main_v86]
theorem c6_writes : (c6 : List (HloOp τ sig (Elt F))).Forall fun op => op.writes ⊆ (c6_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
/-- A buffer no operation of `c6` writes keeps its contents. -/
theorem c6_keep (W : Valuation τ sig (Elt F)) (r : Ref sig .tc) (h : r ∉ c6_W) : after c6 W (Proc.devRef .tc r) = W (Proc.devRef .tc r) :=
  after_of_writes_sub c6 W c6_writes h

/-- A buffer none of the six stretches writes keeps its contents through the whole line. -/
theorem ops_keep (V : Valuation τ sig (Elt F)) (r : Ref sig .tc) (h1 : r ∉ c1_W) (h2 : r ∉ c2_W) (h3 : r ∉ c3_W)
    (h4 : r ∉ c4_W) (h5 : r ∉ c5_W) (h6 : r ∉ c6_W) : after ValueP.ops V (Proc.devRef .tc r) = V (Proc.devRef .tc r) := by
  rw [after_ops, c6_keep _ r h6, c5_keep _ r h5, c4_keep _ r h4, c3_keep _ r h3, c2_keep _ r h2, c1_keep _ r h1]

/-! ## Each stretch's result, from any contents at its entry

Each equation is the fold unfolded at the buffer (every operation's result at its own buffer is its function of its
operands' contents, at any other buffer what was there), the entry contents replaced by their stages, and then the stage
functions' definitions, which spell the same operations over the same operands. -/

section Stretches

variable (W : Valuation τ sig (Elt F))

/-- After the first stretch the first projection's heads are stage `val_main_v1` of arguments 0 and 1. -/
theorem c1_v1 : after c1 W (Proc.devRef .tc main_v1) = ReadP.val_main_v1 (F := F) (W (Proc.devRef .tc main_arg0)) (W (Proc.devRef .tc main_arg1)) := by
  after_results_simp
  rfl
/-- After the first stretch the second projection's heads are stage `val_main_v3` of arguments 0 and 2. -/
theorem c1_v3 : after c1 W (Proc.devRef .tc main_v3) = ReadP.val_main_v3 (F := F) (W (Proc.devRef .tc main_arg0)) (W (Proc.devRef .tc main_arg2)) := by
  after_results_simp
  rfl
/-- After the first stretch the third projection's heads are stage `val_main_v5` of arguments 0 and 3. -/
theorem c1_v5 : after c1 W (Proc.devRef .tc main_v5) = ReadP.val_main_v5 (F := F) (W (Proc.devRef .tc main_arg0)) (W (Proc.devRef .tc main_arg3)) := by
  after_results_simp
  rfl

/-- Attention: entered with the three projections' heads at their stages, the second stretch leaves `main_v21` at its stage. -/
theorem c2_v21 (x0 : (⟨S65536x1024, .f32⟩ : BufTy).Contents (Elt F)) (x1 : (⟨S1024x1024, .f32⟩ : BufTy).Contents (Elt F)) (x2 : (⟨S1024x1024, .f32⟩ : BufTy).Contents (Elt F)) (x3 : (⟨S1024x1024, .f32⟩ : BufTy).Contents (Elt F))
    (h1 : W (Proc.devRef .tc main_v1) = ReadP.val_main_v1 (F := F) x0 x1) (h3 : W (Proc.devRef .tc main_v3) = ReadP.val_main_v3 (F := F) x0 x2) (h5 : W (Proc.devRef .tc main_v5) = ReadP.val_main_v5 (F := F) x0 x3) :
    after c2 W (Proc.devRef .tc main_v21) = ReadP.val_main_v21 (F := F) x0 x1 x2 x3 := by
  after_results_simp
  rw [h1, h3, h5]
  rfl

/-- Output projection, bias and residual: entered with `main_v21` at its stage, the third stretch leaves `main_v26` at its stage. -/
theorem c3_v26 (x0 : (⟨S65536x1024, .f32⟩ : BufTy).Contents (Elt F)) (x1 : (⟨S1024x1024, .f32⟩ : BufTy).Contents (Elt F)) (x2 : (⟨S1024x1024, .f32⟩ : BufTy).Contents (Elt F)) (x3 : (⟨S1024x1024, .f32⟩ : BufTy).Contents (Elt F)) (x4 : (⟨S1024x1024, .f32⟩ : BufTy).Contents (Elt F)) (x5 : (⟨S1024, .f32⟩ : BufTy).Contents (Elt F))
    (h21 : W (Proc.devRef .tc main_v21) = ReadP.val_main_v21 (F := F) x0 x1 x2 x3) (h0 : W (Proc.devRef .tc main_arg0) = x0) (h4 : W (Proc.devRef .tc main_arg4) = x4) (h5 : W (Proc.devRef .tc main_arg5) = x5) :
    after c3 W (Proc.devRef .tc main_v26) = ReadP.val_main_v26 (F := F) x0 x1 x2 x3 x4 x5 := by
  after_results_simp
  rw [h21, h0, h4, h5]
  rfl

/-- First normalisation: entered with `main_v26` at its stage, the fourth stretch leaves `main_v51` at its stage. -/
theorem c4_v51 (x0 : (⟨S65536x1024, .f32⟩ : BufTy).Contents (Elt F)) (x1 : (⟨S1024x1024, .f32⟩ : BufTy).Contents (Elt F)) (x2 : (⟨S1024x1024, .f32⟩ : BufTy).Contents (Elt F)) (x3 : (⟨S1024x1024, .f32⟩ : BufTy).Contents (Elt F)) (x4 : (⟨S1024x1024, .f32⟩ : BufTy).Contents (Elt F)) (x5 : (⟨S1024, .f32⟩ : BufTy).Contents (Elt F)) (x6 : (⟨S1024, .f32⟩ : BufTy).Contents (Elt F)) (x7 : (⟨S1024, .f32⟩ : BufTy).Contents (Elt F))
    (h26 : W (Proc.devRef .tc main_v26) = ReadP.val_main_v26 (F := F) x0 x1 x2 x3 x4 x5) (h6 : W (Proc.devRef .tc main_arg6) = x6) (h7 : W (Proc.devRef .tc main_arg7) = x7) :
    after c4 W (Proc.devRef .tc main_v51) = ReadP.val_main_v51 (F := F) x0 x1 x2 x3 x4 x5 x6 x7 := by
  after_results_simp
  rw [h26, h6, h7]
  rfl

/-- The two dense layers and the residual: entered with `main_v51` at its stage, the fifth stretch leaves `main_v61` at its stage. -/
theorem c5_v61 (x0 : (⟨S65536x1024, .f32⟩ : BufTy).Contents (Elt F)) (x1 : (⟨S1024x1024, .f32⟩ : BufTy).Contents (Elt F)) (x2 : (⟨S1024x1024, .f32⟩ : BufTy).Contents (Elt F)) (x3 : (⟨S1024x1024, .f32⟩ : BufTy).Contents (Elt F)) (x4 : (⟨S1024x1024, .f32⟩ : BufTy).Contents (Elt F)) (x5 : (⟨S1024, .f32⟩ : BufTy).Contents (Elt F)) (x6 : (⟨S1024, .f32⟩ : BufTy).Contents (Elt F)) (x7 : (⟨S1024, .f32⟩ : BufTy).Contents (Elt F)) (x8 : (⟨S1024x2048, .f32⟩ : BufTy).Contents (Elt F)) (x9 : (⟨S2048, .f32⟩ : BufTy).Contents (Elt F)) (x10 : (⟨S2048x1024, .f32⟩ : BufTy).Contents (Elt F)) (x11 : (⟨S1024, .f32⟩ : BufTy).Contents (Elt F))
    (h51 : W (Proc.devRef .tc main_v51) = ReadP.val_main_v51 (F := F) x0 x1 x2 x3 x4 x5 x6 x7) (h8 : W (Proc.devRef .tc main_arg8) = x8) (h9 : W (Proc.devRef .tc main_arg9) = x9) (h10 : W (Proc.devRef .tc main_arg10) = x10) (h11 : W (Proc.devRef .tc main_arg11) = x11) :
    after c5 W (Proc.devRef .tc main_v61) = ReadP.val_main_v61 (F := F) x0 x1 x2 x3 x4 x5 x6 x7 x8 x9 x10 x11 := by
  after_results_simp
  rw [h51, h8, h9, h10, h11]
  rfl

/-- Second normalisation: entered with `main_v61` at its stage, the sixth stretch leaves the result `main_v86` at its stage. -/
theorem c6_v86 (x0 : (⟨S65536x1024, .f32⟩ : BufTy).Contents (Elt F)) (x1 : (⟨S1024x1024, .f32⟩ : BufTy).Contents (Elt F)) (x2 : (⟨S1024x1024, .f32⟩ : BufTy).Contents (Elt F)) (x3 : (⟨S1024x1024, .f32⟩ : BufTy).Contents (Elt F)) (x4 : (⟨S1024x1024, .f32⟩ : BufTy).Contents (Elt F)) (x5 : (⟨S1024, .f32⟩ : BufTy).Contents (Elt F)) (x6 : (⟨S1024, .f32⟩ : BufTy).Contents (Elt F)) (x7 : (⟨S1024, .f32⟩ : BufTy).Contents (Elt F)) (x8 : (⟨S1024x2048, .f32⟩ : BufTy).Contents (Elt F)) (x9 : (⟨S2048, .f32⟩ : BufTy).Contents (Elt F)) (x10 : (⟨S2048x1024, .f32⟩ : BufTy).Contents (Elt F)) (x11 : (⟨S1024, .f32⟩ : BufTy).Contents (Elt F)) (x12 : (⟨S1024, .f32⟩ : BufTy).Contents (Elt F)) (x13 : (⟨S1024, .f32⟩ : BufTy).Contents (Elt F))
    (h61 : W (Proc.devRef .tc main_v61) = ReadP.val_main_v61 (F := F) x0 x1 x2 x3 x4 x5 x6 x7 x8 x9 x10 x11) (h12 : W (Proc.devRef .tc main_arg12) = x12) (h13 : W (Proc.devRef .tc main_arg13) = x13) :
    after c6 W (Proc.devRef .tc main_v86) = ReadP.val_main_v86 (F := F) x0 x1 x2 x3 x4 x5 x6 x7 x8 x9 x10 x11 x12 x13 := by
  after_results_simp
  rw [h61, h12, h13]
  rfl

end Stretches

variable (m : (ℓ : Loc nD τ sig) → Buf (Elt F) ℓ) (d : Dev nD)

/-! ## The arguments: no operation writes them -/
theorem ref_arg0 : after ValueP.ops (launchContents m d) (Proc.devRef .tc main_arg0) = m ((d.tc : Thread nD τ).loc main_arg0) :=
  ops_keep _ main_arg0 (by decide) (by decide) (by decide) (by decide) (by decide) (by decide)
theorem ref_arg1 : after ValueP.ops (launchContents m d) (Proc.devRef .tc main_arg1) = m ((d.tc : Thread nD τ).loc main_arg1) :=
  ops_keep _ main_arg1 (by decide) (by decide) (by decide) (by decide) (by decide) (by decide)
theorem ref_arg2 : after ValueP.ops (launchContents m d) (Proc.devRef .tc main_arg2) = m ((d.tc : Thread nD τ).loc main_arg2) :=
  ops_keep _ main_arg2 (by decide) (by decide) (by decide) (by decide) (by decide) (by decide)
theorem ref_arg3 : after ValueP.ops (launchContents m d) (Proc.devRef .tc main_arg3) = m ((d.tc : Thread nD τ).loc main_arg3) :=
  ops_keep _ main_arg3 (by decide) (by decide) (by decide) (by decide) (by decide) (by decide)
theorem ref_arg4 : after ValueP.ops (launchContents m d) (Proc.devRef .tc main_arg4) = m ((d.tc : Thread nD τ).loc main_arg4) :=
  ops_keep _ main_arg4 (by decide) (by decide) (by decide) (by decide) (by decide) (by decide)
theorem ref_arg5 : after ValueP.ops (launchContents m d) (Proc.devRef .tc main_arg5) = m ((d.tc : Thread nD τ).loc main_arg5) :=
  ops_keep _ main_arg5 (by decide) (by decide) (by decide) (by decide) (by decide) (by decide)
theorem ref_arg6 : after ValueP.ops (launchContents m d) (Proc.devRef .tc main_arg6) = m ((d.tc : Thread nD τ).loc main_arg6) :=
  ops_keep _ main_arg6 (by decide) (by decide) (by decide) (by decide) (by decide) (by decide)
theorem ref_arg7 : after ValueP.ops (launchContents m d) (Proc.devRef .tc main_arg7) = m ((d.tc : Thread nD τ).loc main_arg7) :=
  ops_keep _ main_arg7 (by decide) (by decide) (by decide) (by decide) (by decide) (by decide)
theorem ref_arg8 : after ValueP.ops (launchContents m d) (Proc.devRef .tc main_arg8) = m ((d.tc : Thread nD τ).loc main_arg8) :=
  ops_keep _ main_arg8 (by decide) (by decide) (by decide) (by decide) (by decide) (by decide)
theorem ref_arg9 : after ValueP.ops (launchContents m d) (Proc.devRef .tc main_arg9) = m ((d.tc : Thread nD τ).loc main_arg9) :=
  ops_keep _ main_arg9 (by decide) (by decide) (by decide) (by decide) (by decide) (by decide)
theorem ref_arg10 : after ValueP.ops (launchContents m d) (Proc.devRef .tc main_arg10) = m ((d.tc : Thread nD τ).loc main_arg10) :=
  ops_keep _ main_arg10 (by decide) (by decide) (by decide) (by decide) (by decide) (by decide)
theorem ref_arg11 : after ValueP.ops (launchContents m d) (Proc.devRef .tc main_arg11) = m ((d.tc : Thread nD τ).loc main_arg11) :=
  ops_keep _ main_arg11 (by decide) (by decide) (by decide) (by decide) (by decide) (by decide)
theorem ref_arg12 : after ValueP.ops (launchContents m d) (Proc.devRef .tc main_arg12) = m ((d.tc : Thread nD τ).loc main_arg12) :=
  ops_keep _ main_arg12 (by decide) (by decide) (by decide) (by decide) (by decide) (by decide)
theorem ref_arg13 : after ValueP.ops (launchContents m d) (Proc.devRef .tc main_arg13) = m ((d.tc : Thread nD τ).loc main_arg13) :=
  ops_keep _ main_arg13 (by decide) (by decide) (by decide) (by decide) (by decide) (by decide)

/-! ## The result: the six stretches' stages composed -/

/-- The reference's result buffer after the whole line is the last stage of the arguments' launch contents. -/
theorem ref_value : after ValueP.ops (launchContents m d) (Proc.devRef .tc main_v86)
    = ReadP.val_main_v86 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  rw [after_ops]
  -- the arguments' contents at each stretch's entry are the launch contents
  have k1 := fun (r : Ref sig .tc) (h : r ∉ c1_W) => c1_keep (launchContents m d) r h
  have k2 := fun (r : Ref sig .tc) (h : r ∉ c2_W) => c2_keep (after c1 (launchContents m d)) r h
  have k3 := fun (r : Ref sig .tc) (h : r ∉ c3_W) => c3_keep (after c2 (after c1 (launchContents m d))) r h
  have k4 := fun (r : Ref sig .tc) (h : r ∉ c4_W) => c4_keep (after c3 (after c2 (after c1 (launchContents m d)))) r h
  have k5 := fun (r : Ref sig .tc) (h : r ∉ c5_W) => c5_keep (after c4 (after c3 (after c2 (after c1 (launchContents m d))))) r h
  have e21 := c2_v21 (after c1 (launchContents m d)) _ _ _ _ (c1_v1 _) (c1_v3 _) (c1_v5 _)
  have e26 := c3_v26 (after c2 (after c1 (launchContents m d))) _ _ _ _ _ _ e21
    ((k2 main_arg0 (by decide)).trans (k1 main_arg0 (by decide)))
    ((k2 main_arg4 (by decide)).trans (k1 main_arg4 (by decide)))
    ((k2 main_arg5 (by decide)).trans (k1 main_arg5 (by decide)))
  have e51 := c4_v51 (after c3 (after c2 (after c1 (launchContents m d)))) _ _ _ _ _ _ _ _ e26
    ((k3 main_arg6 (by decide)).trans ((k2 main_arg6 (by decide)).trans (k1 main_arg6 (by decide))))
    ((k3 main_arg7 (by decide)).trans ((k2 main_arg7 (by decide)).trans (k1 main_arg7 (by decide))))
  have e61 := c5_v61 (after c4 (after c3 (after c2 (after c1 (launchContents m d))))) _ _ _ _ _ _ _ _ _ _ _ _ e51
    ((k4 main_arg8 (by decide)).trans ((k3 main_arg8 (by decide)).trans ((k2 main_arg8 (by decide)).trans (k1 main_arg8 (by decide)))))
    ((k4 main_arg9 (by decide)).trans ((k3 main_arg9 (by decide)).trans ((k2 main_arg9 (by decide)).trans (k1 main_arg9 (by decide)))))
    ((k4 main_arg10 (by decide)).trans ((k3 main_arg10 (by decide)).trans ((k2 main_arg10 (by decide)).trans (k1 main_arg10 (by decide)))))
    ((k4 main_arg11 (by decide)).trans ((k3 main_arg11 (by decide)).trans ((k2 main_arg11 (by decide)).trans (k1 main_arg11 (by decide)))))
  exact c6_v86 (after c5 (after c4 (after c3 (after c2 (after c1 (launchContents m d)))))) _ _ _ _ _ _ _ _ _ _ _ _ _ _ e61
    ((k5 main_arg12 (by decide)).trans ((k4 main_arg12 (by decide)).trans ((k3 main_arg12 (by decide)).trans ((k2 main_arg12 (by decide)).trans (k1 main_arg12 (by decide))))))
    ((k5 main_arg13 (by decide)).trans ((k4 main_arg13 (by decide)).trans ((k3 main_arg13 (by decide)).trans ((k2 main_arg13 (by decide)).trans (k1 main_arg13 (by decide))))))

/-! ## The run -/

/-- Every weakly fair execution of the reference from memory `m` with zero counters terminates; on every device the
    result buffer ends at the last stage of the arguments' launch contents and every argument array ends unchanged. -/
theorem run_value (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread nD τ).loc main_v86) = ReadP.val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.ReferenceIdeal.defs _ _).mono
    (fun _ h c => ⟨(h c main_v86).trans (ref_value m c), (h c main_arg0).trans (ref_arg0 m c), (h c main_arg1).trans (ref_arg1 m c), (h c main_arg2).trans (ref_arg2 m c), (h c main_arg3).trans (ref_arg3 m c), (h c main_arg4).trans (ref_arg4 m c), (h c main_arg5).trans (ref_arg5 m c), (h c main_arg6).trans (ref_arg6 m c), (h c main_arg7).trans (ref_arg7 m c), (h c main_arg8).trans (ref_arg8 m c), (h c main_arg9).trans (ref_arg9 m c), (h c main_arg10).trans (ref_arg10 m c), (h c main_arg11).trans (ref_arg11 m c), (h c main_arg12).trans (ref_arg12 m c), (h c main_arg13).trans (ref_arg13 m c)⟩)
    (ValueP.run m ρ)

/-- The reference's frame claim: it runs, and its fourteen argument arrays end unchanged (the precondition is not used). -/
theorem frame_ri : Cert.frame_ReferenceIdeal :=
  fun m ρ _ => (θ_run Cert.ReferenceIdeal.defs _ _).mono (fun _ h c => (h c).2) (run_value (F := Ideal) m ρ)

end Cert.Proof.RefSide

end
-- ==== Proof.lean ====
/-
  A transformer layer — fused Q|K|V projection, per-row attention between the sixteen heads, output projection
  with residual, batch normalisation over all 65536 rows, two dense layers with a max-with-zero between them and a
  residual, batch normalisation again — computed by four pallas calls with host operations between them, against
  the same layer written in plain array operations.

  Frames: every pallas call here loads each window's block whole, computes, and stores its output block whole,
  with no control flow; each call's body is run once at a symbolic grid point, and the program is run item by item
  (four host stretches, four calls), every unscoped buffer read back at the end. The same text serves the
  word-level program and the idealized one. The reference is host operations only.

  Values, at the ideal instance: both programs are the same formula operation for operation. The differences are
  of layout only — the three projection matrices side by side in one product and cut apart again, against three
  products; row statistics kept as a 1 × 1024 row, against a 1024-vector; row blocks, against whole arrays — and
  one constant: the scores are multiplied by 1/8 in one program and divided by 8 in the other, which agree on
  every extended real. No step needs the inputs finite.
-/
import proofs.«144935_j30348238914117_1_alg».proof.Defs
import proofs.«144935_j30348238914117_1_alg».proof.Proof.Gen.Kernel
import proofs.«144935_j30348238914117_1_alg».proof.Proof.Gen.KernelIdeal
import proofs.«144935_j30348238914117_1_alg».proof.Proof.Gen.ReferenceIdeal
import proofs.«144935_j30348238914117_1_alg».proof.Proof.Gen.Pre_finite_inputs
import proofs.«144935_j30348238914117_1_alg».proof.Proof.KB.Run
import proofs.«144935_j30348238914117_1_alg».proof.Proof.KI.Run
import proofs.«144935_j30348238914117_1_alg».proof.Proof.KI.Value
import proofs.«144935_j30348238914117_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ =>
  Cert.Kernel.Whole.frame m ρ (Cert.Kernel.Whole.theOuts m) (Cert.Kernel.Whole.theOuts_ok m)

/-- So does the idealized program. -/
theorem frame_ki : Cert.frame_KernelIdeal := fun m ρ _ =>
  Cert.KernelIdeal.Whole.frame m ρ (Cert.KernelIdeal.Whole.theOuts m) (Cert.KernelIdeal.Whole.theOuts_ok m)

/-- From memories that agree on the fourteen arguments the two idealized programs end with the same result array:
    the reference's last stage of those arguments. -/
theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r hr c => ⟨(hr c).1.trans (funext (Cert.KernelIdeal.Bridge.result_eq m (Cert.KernelIdeal.Whole.theOuts m)
          (Cert.KernelIdeal.Whole.theOuts_ok m) c)), (hr c).2⟩)
      (Cert.KernelIdeal.Whole.run_value m ρ (Cert.KernelIdeal.Whole.theOuts m) (Cert.KernelIdeal.Whole.theOuts_ok m))
  · refine (θ_run Cert.ReferenceIdeal.defs _ _).mono (fun r hr c => ⟨(hr c).1.trans ?_, (hr c).2⟩)
      (Cert.Proof.RefSide.run_value (F := Ideal) m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, trivial, algebraic⟩

end Cert.Proof

end
